-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S8000000 : Shape := ⟨1, ![8000000]⟩
abbrev S500000 : Shape := ⟨1, ![500000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S8000000 : S_.BroadcastsInDim S8000000 (![] : Fin 0 → Fin S8000000.rank)
  reducesTo_S8000000_S_d0 : S8000000.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg8 : IVec S500000 32) (main_v64 : IVec S_ 1) (main_v66 : IVec S500000 1) (main_c_26 : IVec S_ 32) : IVec S_ 1 :=
  let main_v67 : IVec S500000 32 := broadcastInDim S500000 ![] bcast_S_S500000 main_c_26
  let main_v68 : IVec S500000 1 := cmpi .slt main_arg8 main_v67
  let main_v69 : IVec S500000 1 := andi main_v66 main_v68
  let main_c_27 : IVec S_ 1 := constantI S_ 1 1#1
  let main_v70 : IVec S_ 1 := (fun x v => Host.reduce IntOp.andi x v reducesTo_S500000_S_d0 h_S_) main_v69 main_c_27
  let main_v71 : IVec S_ 1 := andi main_v64 main_v70
  main_v71

def fn_part3 {F : FTy → Type} [FloatOps F] (main_arg2 : IVec S8000000 32) (main_arg7 : IVec S500000 32) (main_arg8 : IVec S500000 32) (main_v50 : IVec S_ 1) : IVec S_ 1 :=
  let main_c_19 : IVec S_ 32 := constantI S_ 32 0#32
  let main_v51 : IVec S8000000 32 := broadcastInDim S8000000 ![] bcast_S_S8000000 main_c_19
  let main_v52 : IVec S8000000 1 := cmpi .sge main_arg2 main_v51
  let main_c_20 : IVec S_ 32 := constantI S_ 32 100000#32
  let main_v53 : IVec S8000000 32 := broadcastInDim S8000000 ![] bcast_S_S8000000 main_c_20
  let main_v54 : IVec S8000000 1 := cmpi .slt main_arg2 main_v53
  let main_v55 : IVec S8000000 1 := andi main_v52 main_v54
  let main_c_21 : IVec S_ 1 := constantI S_ 1 1#1
  let main_v56 : IVec S_ 1 := (fun x v => Host.reduce IntOp.andi x v reducesTo_S8000000_S_d0 h_S_) main_v55 main_c_21
  let main_v57 : IVec S_ 1 := andi main_v50 main_v56
  let main_c_22 : IVec S_ 32 := constantI S_ 32 0#32
  let main_v58 : IVec S500000 32 := broadcastInDim S500000 ![] bcast_S_S500000 main_c_22
  let main_v59 : IVec S500000 1 := cmpi .sge main_arg7 main_v58
  let main_c_23 : IVec S_ 32 := constantI S_ 32 100000#32
  let main_v60 : IVec S500000 32 := broadcastInDim S500000 ![] bcast_S_S500000 main_c_23
  let main_v61 : IVec S500000 1 := cmpi .slt main_arg7 main_v60
  let main_v62 : IVec S500000 1 := andi main_v59 main_v61
  let main_c_24 : IVec S_ 1 := constantI S_ 1 1#1
  let main_v63 : IVec S_ 1 := (fun x v => Host.reduce IntOp.andi x v reducesTo_S500000_S_d0 h_S_) main_v62 main_c_24
  let main_v64 : IVec S_ 1 := andi main_v57 main_v63
  let main_c_25 : IVec S_ 32 := constantI S_ 32 0#32
  let main_v65 : IVec S500000 32 := broadcastInDim S500000 ![] bcast_S_S500000 main_c_25
  let main_v66 : IVec S500000 1 := cmpi .sge main_arg8 main_v65
  let main_c_26 : IVec S_ 32 := constantI S_ 32 100000#32
  fn_part4 (F := F) main_arg8 main_v64 main_v66 main_c_26

def fn_part2 {F : FTy → Type} [FloatOps F] (main_arg1 : IVec S8000000 32) (main_arg2 : IVec S8000000 32) (main_arg7 : IVec S500000 32) (main_arg8 : IVec S500000 32) (main_arg11 : FVec F S500000 .f32) (main_arg12 : FVec F S500000 .f32) (main_v33 : IVec S_ 1) : IVec S_ 1 :=
  let main_v34 : FVec F S500000 .f32 := Host.absf main_arg11
  let main_cst_12 : FVec F S_ .f32 := constant S_ .f32 0x7F800000#32
  let main_v35 : FVec F S500000 .f32 := broadcastInDim S500000 ![] bcast_S_S500000 main_cst_12
  let main_v36 : IVec S500000 1 := cmpf .olt main_v34 main_v35
  let main_c_13 : IVec S_ 1 := constantI S_ 1 1#1
  let main_v37 : IVec S_ 1 := (fun x v => Host.reduce IntOp.andi x v reducesTo_S500000_S_d0 h_S_) main_v36 main_c_13
  let main_v38 : IVec S_ 1 := andi main_v33 main_v37
  let main_v39 : FVec F S500000 .f32 := Host.absf main_arg12
  let main_cst_14 : FVec F S_ .f32 := constant S_ .f32 0x7F800000#32
  let main_v40 : FVec F S500000 .f32 := broadcastInDim S500000 ![] bcast_S_S500000 main_cst_14
  let main_v41 : IVec S500000 1 := cmpf .olt main_v39 main_v40
  let main_c_15 : IVec S_ 1 := constantI S_ 1 1#1
  let main_v42 : IVec S_ 1 := (fun x v => Host.reduce IntOp.andi x v reducesTo_S500000_S_d0 h_S_) main_v41 main_c_15
  let main_v43 : IVec S_ 1 := andi main_v38 main_v42
  let main_c_16 : IVec S_ 32 := constantI S_ 32 0#32
  let main_v44 : IVec S8000000 32 := broadcastInDim S8000000 ![] bcast_S_S8000000 main_c_16
  let main_v45 : IVec S8000000 1 := cmpi .sge main_arg1 main_v44
  let main_c_17 : IVec S_ 32 := constantI S_ 32 100000#32
  let main_v46 : IVec S8000000 32 := broadcastInDim S8000000 ![] bcast_S_S8000000 main_c_17
  let main_v47 : IVec S8000000 1 := cmpi .slt main_arg1 main_v46
  let main_v48 : IVec S8000000 1 := andi main_v45 main_v47
  let main_c_18 : IVec S_ 1 := constantI S_ 1 1#1
  let main_v49 : IVec S_ 1 := (fun x v => Host.reduce IntOp.andi x v reducesTo_S8000000_S_d0 h_S_) main_v48 main_c_18
  let main_v50 : IVec S_ 1 := andi main_v43 main_v49
  fn_part3 (F := F) main_arg2 main_arg7 main_arg8 main_v50

def fn_part1 {F : FTy → Type} [FloatOps F] (main_arg1 : IVec S8000000 32) (main_arg2 : IVec S8000000 32) (main_arg6 : FVec F S8000000 .f32) (main_arg7 : IVec S500000 32) (main_arg8 : IVec S500000 32) (main_arg9 : FVec F S500000 .f32) (main_arg10 : FVec F S500000 .f32) (main_arg11 : FVec F S500000 .f32) (main_arg12 : FVec F S500000 .f32) (main_v13 : IVec S_ 1) (main_v16 : IVec S8000000 1) : IVec S_ 1 :=
  let main_c_5 : IVec S_ 1 := constantI S_ 1 1#1
  let main_v17 : IVec S_ 1 := (fun x v => Host.reduce IntOp.andi x v reducesTo_S8000000_S_d0 h_S_) main_v16 main_c_5
  let main_v18 : IVec S_ 1 := andi main_v13 main_v17
  let main_v19 : FVec F S8000000 .f32 := Host.absf main_arg6
  let main_cst_6 : FVec F S_ .f32 := constant S_ .f32 0x7F800000#32
  let main_v20 : FVec F S8000000 .f32 := broadcastInDim S8000000 ![] bcast_S_S8000000 main_cst_6
  let main_v21 : IVec S8000000 1 := cmpf .olt main_v19 main_v20
  let main_c_7 : IVec S_ 1 := constantI S_ 1 1#1
  let main_v22 : IVec S_ 1 := (fun x v => Host.reduce IntOp.andi x v reducesTo_S8000000_S_d0 h_S_) main_v21 main_c_7
  let main_v23 : IVec S_ 1 := andi main_v18 main_v22
  let main_v24 : FVec F S500000 .f32 := Host.absf main_arg9
  let main_cst_8 : FVec F S_ .f32 := constant S_ .f32 0x7F800000#32
  let main_v25 : FVec F S500000 .f32 := broadcastInDim S500000 ![] bcast_S_S500000 main_cst_8
  let main_v26 : IVec S500000 1 := cmpf .olt main_v24 main_v25
  let main_c_9 : IVec S_ 1 := constantI S_ 1 1#1
  let main_v27 : IVec S_ 1 := (fun x v => Host.reduce IntOp.andi x v reducesTo_S500000_S_d0 h_S_) main_v26 main_c_9
  let main_v28 : IVec S_ 1 := andi main_v23 main_v27
  let main_v29 : FVec F S500000 .f32 := Host.absf main_arg10
  let main_cst_10 : FVec F S_ .f32 := constant S_ .f32 0x7F800000#32
  let main_v30 : FVec F S500000 .f32 := broadcastInDim S500000 ![] bcast_S_S500000 main_cst_10
  let main_v31 : IVec S500000 1 := cmpf .olt main_v29 main_v30
  let main_c_11 : IVec S_ 1 := constantI S_ 1 1#1
  let main_v32 : IVec S_ 1 := (fun x v => Host.reduce IntOp.andi x v reducesTo_S500000_S_d0 h_S_) main_v31 main_c_11
  let main_v33 : IVec S_ 1 := andi main_v28 main_v32
  fn_part2 (F := F) main_arg1 main_arg2 main_arg7 main_arg8 main_arg11 main_arg12 main_v33

def fn {F : FTy → Type} [FloatOps F] (main_arg0 : FVec F S100000x3 .f32) (main_arg1 : IVec S8000000 32) (main_arg2 : IVec S8000000 32) (main_arg3 : FVec F S8000000 .f32) (main_arg4 : FVec F S8000000 .f32) (main_arg5 : FVec F S8000000 .f32) (main_arg6 : FVec F S8000000 .f32) (main_arg7 : IVec S500000 32) (main_arg8 : IVec S500000 32) (main_arg9 : FVec F S500000 .f32) (main_arg10 : FVec F S500000 .f32) (main_arg11 : FVec F S500000 .f32) (main_arg12 : FVec F S500000 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S8000000 .f32 := Host.absf main_arg3
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S8000000 .f32 := Host.absf main_arg4
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  let main_v14 : FVec F S8000000 .f32 := Host.absf main_arg5
  let main_cst_4 : FVec F S_ .f32 := constant S_ .f32 0x7F800000#32
  let main_v15 : FVec F S8000000 .f32 := broadcastInDim S8000000 ![] bcast_S_S8000000 main_cst_4
  let main_v16 : IVec S8000000 1 := cmpf .olt main_v14 main_v15
  fn_part1 (F := F) main_arg1 main_arg2 main_arg6 main_arg7 main_arg8 main_arg9 main_arg10 main_arg11 main_arg12 main_v13 main_v16
-- ==== Kernel.lean ====
abbrev S100000x3 : Shape := ⟨2, ![100000, 3]⟩
abbrev S8000000 : Shape := ⟨1, ![8000000]⟩
abbrev S500000 : Shape := ⟨1, ![500000]⟩
abbrev S_ : Shape := ⟨0, ![]⟩
abbrev S8000000x1 : Shape := ⟨2, ![8000000, 1]⟩
abbrev S1 : Shape := ⟨1, ![1]⟩
abbrev S1x1 : Shape := ⟨2, ![1, 1]⟩
abbrev S8000000x3 : Shape := ⟨2, ![8000000, 3]⟩
abbrev S7864320 : Shape := ⟨1, ![7864320]⟩
abbrev S2x30720x128 : Shape := ⟨3, ![2, 30720, 128]⟩
abbrev S2x2x128 : Shape := ⟨3, ![2, 2, 128]⟩
abbrev S1x2048x128 : Shape := ⟨3, ![1, 2048, 128]⟩
abbrev S1x2x128 : Shape := ⟨3, ![1, 2, 128]⟩
abbrev S2x128 : Shape := ⟨2, ![2, 128]⟩
abbrev S2048x128 : Shape := ⟨2, ![2048, 128]⟩
abbrev S128 : Shape := ⟨1, ![128]⟩
abbrev S1x128 : Shape := ⟨2, ![1, 128]⟩
abbrev S1x1x128 : Shape := ⟨3, ![1, 1, 128]⟩
abbrev S2x1x128 : Shape := ⟨3, ![2, 1, 128]⟩
abbrev S135680 : Shape := ⟨1, ![135680]⟩
abbrev S500000x1 : Shape := ⟨2, ![500000, 1]⟩
abbrev S500000x3 : Shape := ⟨2, ![500000, 3]⟩
abbrev S491520 : Shape := ⟨1, ![491520]⟩
abbrev S2x1920x128 : Shape := ⟨3, ![2, 1920, 128]⟩
abbrev S1x128x128 : Shape := ⟨3, ![1, 128, 128]⟩
abbrev S128x128 : Shape := ⟨2, ![128, 128]⟩
abbrev S8480 : Shape := ⟨1, ![8480]⟩
abbrev S4 : Shape := ⟨1, ![4]⟩

abbrev nBuf : Space → Nat
  | .hbm => 208
  | .vmem => 24
  | .smem => 0
  | _ => 0

abbrev hbmTy0_0 (i : Nat) : BufTy := match i % 128 with
  | 0 => ⟨S100000x3, .f32⟩
  | 1 => ⟨S8000000, .i32⟩
  | 2 => ⟨S8000000, .i32⟩
  | 3 => ⟨S8000000, .f32⟩
  | 4 => ⟨S8000000, .f32⟩
  | 5 => ⟨S8000000, .f32⟩
  | 6 => ⟨S8000000, .f32⟩
  | 7 => ⟨S500000, .i32⟩
  | 8 => ⟨S500000, .i32⟩
  | 9 => ⟨S500000, .f32⟩
  | 10 => ⟨S500000, .f32⟩
  | 11 => ⟨S500000, .f32⟩
  | 12 => ⟨S500000, .f32⟩
  | 13 => ⟨S_, .i32⟩
  | 14 => ⟨S8000000, .i32⟩
  | 15 => ⟨S8000000, .i1⟩
  | 16 => ⟨S_, .i32⟩
  | 17 => ⟨S8000000, .i32⟩
  | 18 => ⟨S8000000, .i32⟩
  | 19 => ⟨S8000000, .i32⟩
  | 20 => ⟨S8000000x1, .i32⟩
  | 21 => ⟨S1, .i32⟩
  | 22 => ⟨S_, .i32⟩
  | 23 => ⟨S8000000x1, .i32⟩
  | 24 => ⟨S8000000x1, .i1⟩
  | 25 => ⟨S1x1, .i32⟩
  | 26 => ⟨S8000000x1, .i32⟩
  | 27 => ⟨S8000000x1, .i1⟩
  | 28 => ⟨S8000000x1, .i1⟩
  | 29 => ⟨S_, .i1⟩
  | 30 => ⟨S8000000, .i1⟩
  | 31 => ⟨S8000000x3, .f32⟩
  | 32 => ⟨S8000000x3, .i1⟩
  | 33 => ⟨S_, .f32⟩
  | 34 => ⟨S8000000x3, .f32⟩
  | 35 => ⟨S8000000x3, .f32⟩
  | 36 => ⟨S_, .i32⟩
  | 37 => ⟨S8000000, .i32⟩
  | 38 => ⟨S8000000, .i1⟩
  | 39 => ⟨S_, .i32⟩
  | 40 => ⟨S8000000, .i32⟩
  | 41 => ⟨S8000000, .i32⟩
  | 42 => ⟨S8000000, .i32⟩
  | 43 => ⟨S8000000x1, .i32⟩
  | 44 => ⟨S1, .i32⟩
  | 45 => ⟨S_, .i32⟩
  | 46 => ⟨S8000000x1, .i32⟩
  | 47 => ⟨S8000000x1, .i1⟩
  | 48 => ⟨S1x1, .i32⟩
  | 49 => ⟨S8000000x1, .i32⟩
  | 50 => ⟨S8000000x1, .i1⟩
  | 51 => ⟨S8000000x1, .i1⟩
  | 52 => ⟨S_, .i1⟩
  | 53 => ⟨S8000000, .i1⟩
  | 54 => ⟨S8000000x3, .f32⟩
  | 55 => ⟨S8000000x3, .i1⟩
  | 56 => ⟨S_, .f32⟩
  | 57 => ⟨S8000000x3, .f32⟩
  | 58 => ⟨S8000000x3, .f32⟩
  | 59 => ⟨S8000000x3, .f32⟩
  | 60 => ⟨S8000000x3, .f32⟩
  | 61 => ⟨S_, .f32⟩
  | 62 => ⟨S8000000, .f32⟩
  | 63 => ⟨S7864320, .f32⟩
  | 64 => ⟨S2x30720x128, .f32⟩
  | 65 => ⟨S7864320, .f32⟩
  | 66 => ⟨S2x30720x128, .f32⟩
  | 67 => ⟨S7864320, .f32⟩
  | 68 => ⟨S2x30720x128, .f32⟩
  | 69 => ⟨S7864320, .f32⟩
  | 70 => ⟨S2x30720x128, .f32⟩
  | 71 => ⟨S7864320, .f32⟩
  | 72 => ⟨S2x30720x128, .f32⟩
  | 73 => ⟨S2x2x128, .f32⟩
  | 74 => ⟨S2x1x128, .f32⟩
  | 75 => ⟨S2x128, .f32⟩
  | 76 => ⟨S_, .f32⟩
  | 77 => ⟨S_, .f32⟩
  | 78 => ⟨S2x1x128, .f32⟩
  | 79 => ⟨S2x128, .f32⟩
  | 80 => ⟨S_, .f32⟩
  | 81 => ⟨S_, .f32⟩
  | 82 => ⟨S135680, .f32⟩
  | 83 => ⟨S135680, .f32⟩
  | 84 => ⟨S135680, .f32⟩
  | 85 => ⟨S135680, .f32⟩
  | 86 => ⟨S135680, .f32⟩
  | 87 => ⟨S_, .f32⟩
  | 88 => ⟨S135680, .f32⟩
  | 89 => ⟨S135680, .f32⟩
  | 90 => ⟨S135680, .f32⟩
  | 91 => ⟨S135680, .f32⟩
  | 92 => ⟨S135680, .f32⟩
  | 93 => ⟨S135680, .f32⟩
  | 94 => ⟨S_, .f32⟩
  | 95 => ⟨S_, .f32⟩
  | 96 => ⟨S135680, .f32⟩
  | 97 => ⟨S135680, .f32⟩
  | 98 => ⟨S135680, .f32⟩
  | 99 => ⟨S135680, .f32⟩
  | 100 => ⟨S135680, .f32⟩
  | 101 => ⟨S135680, .f32⟩
  | 102 => ⟨S135680, .f32⟩
  | 103 => ⟨S135680, .f32⟩
  | 104 => ⟨S_, .f32⟩
  | 105 => ⟨S_, .f32⟩
  | 106 => ⟨S_, .f32⟩
  | 107 => ⟨S_, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S1, .i32⟩
  | 117 => ⟨S_, .i32⟩
  | 118 => ⟨S500000x1, .i32⟩
  | 119 => ⟨S500000x1, .i1⟩
  | 120 => ⟨S1x1, .i32⟩
  | 121 => ⟨S500000x1, .i32⟩
  | 122 => ⟨S500000x1, .i1⟩
  | 123 => ⟨S500000x1, .i1⟩
  | 124 => ⟨S_, .i1⟩
  | 125 => ⟨S500000, .i1⟩
  | 126 => ⟨S500000x3, .f32⟩
  | 127 => ⟨S500000x3, .i1⟩
  | _ => ⟨S100000x3, .f32⟩

abbrev hbmTy0_1 (i : Nat) : BufTy := match i % 128 with
  | 0 => ⟨S_, .f32⟩
  | 1 => ⟨S500000x3, .f32⟩
  | 2 => ⟨S500000x3, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S1, .i32⟩
  | 12 => ⟨S_, .i32⟩
  | 13 => ⟨S500000x1, .i32⟩
  | 14 => ⟨S500000x1, .i1⟩
  | 15 => ⟨S1x1, .i32⟩
  | 16 => ⟨S500000x1, .i32⟩
  | 17 => ⟨S500000x1, .i1⟩
  | 18 => ⟨S500000x1, .i1⟩
  | 19 => ⟨S_, .i1⟩
  | 20 => ⟨S500000, .i1⟩
  | 21 => ⟨S500000x3, .f32⟩
  | 22 => ⟨S500000x3, .i1⟩
  | 23 => ⟨S_, .f32⟩
  | 24 => ⟨S500000x3, .f32⟩
  | 25 => ⟨S500000x3, .f32⟩
  | 26 => ⟨S500000x3, .f32⟩
  | 27 => ⟨S500000x3, .f32⟩
  | 28 => ⟨S_, .f32⟩
  | 29 => ⟨S500000, .f32⟩
  | 30 => ⟨S491520, .f32⟩
  | 31 => ⟨S2x1920x128, .f32⟩
  | 32 => ⟨S491520, .f32⟩
  | 33 => ⟨S2x1920x128, .f32⟩
  | 34 => ⟨S491520, .f32⟩
  | 35 => ⟨S2x1920x128, .f32⟩
  | 36 => ⟨S491520, .f32⟩
  | 37 => ⟨S2x1920x128, .f32⟩
  | 38 => ⟨S491520, .f32⟩
  | 39 => ⟨S2x1920x128, .f32⟩
  | 40 => ⟨S2x2x128, .f32⟩
  | 41 => ⟨S2x1x128, .f32⟩
  | 42 => ⟨S2x128, .f32⟩
  | 43 => ⟨S_, .f32⟩
  | 44 => ⟨S_, .f32⟩
  | 45 => ⟨S2x1x128, .f32⟩
  | 46 => ⟨S2x128, .f32⟩
  | 47 => ⟨S_, .f32⟩
  | 48 => ⟨S_, .f32⟩
  | 49 => ⟨S8480, .f32⟩
  | 50 => ⟨S8480, .f32⟩
  | 51 => ⟨S8480, .f32⟩
  | 52 => ⟨S8480, .f32⟩
  | 53 => ⟨S8480, .f32⟩
  | 54 => ⟨S_, .f32⟩
  | 55 => ⟨S8480, .f32⟩
  | 56 => ⟨S8480, .f32⟩
  | 57 => ⟨S8480, .f32⟩
  | 58 => ⟨S8480, .f32⟩
  | 59 => ⟨S8480, .f32⟩
  | 60 => ⟨S8480, .f32⟩
  | 61 => ⟨S_, .f32⟩
  | 62 => ⟨S_, .f32⟩
  | 63 => ⟨S8480, .f32⟩
  | 64 => ⟨S8480, .f32⟩
  | 65 => ⟨S8480, .f32⟩
  | 66 => ⟨S8480, .f32⟩
  | 67 => ⟨S8480, .f32⟩
  | 68 => ⟨S8480, .f32⟩
  | 69 => ⟨S8480, .f32⟩
  | 70 => ⟨S8480, .f32⟩
  | 71 => ⟨S_, .f32⟩
  | 72 => ⟨S_, .f32⟩
  | 73 => ⟨S_, .f32⟩
  | 74 => ⟨S_, .f32⟩
  | 75 => ⟨S1, .f32⟩
  | 76 => ⟨S1, .f32⟩
  | 77 => ⟨S1, .f32⟩
  | 78 => ⟨S1, .f32⟩
  | 79 => ⟨S4, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2x128, .f32⟩
  | .local _ .vmem, ⟨11, _⟩ => ⟨S1x2x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x2x128, .f32⟩
  | .local _ .vmem, ⟨23, _⟩ => ⟨S1x2x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_cst : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst_0 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_cst_1 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_cst_2 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_cst_3 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_4 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v45 : Ref sig .tc := ⟨.hbm, 130, rfl⟩
abbrev main_call3_c : Ref sig .tc := ⟨.hbm, 131, rfl⟩
abbrev main_call3_v0 : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c_1 : Ref sig .tc := ⟨.hbm, 139, rfl⟩
abbrev main_call3_c_2 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_3 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_call3_cst : Ref sig .tc := ⟨.hbm, 151, rfl⟩
abbrev main_call3_v15 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_cst_5 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_cst_6 : Ref sig .tc := ⟨.hbm, 171, rfl⟩
abbrev main_v63 : Ref sig .tc := ⟨.hbm, 172, rfl⟩
abbrev main_v64 : Ref sig .tc := ⟨.hbm, 173, rfl⟩
abbrev main_v65 : Ref sig .tc := ⟨.hbm, 174, rfl⟩
abbrev main_cst_7 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_cst_8 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_cst_9 : Ref sig .tc := ⟨.hbm, 189, rfl⟩
abbrev main_v78 : Ref sig .tc := ⟨.hbm, 190, rfl⟩
abbrev main_v79 : Ref sig .tc := ⟨.hbm, 191, rfl⟩
abbrev main_v80 : Ref sig .tc := ⟨.hbm, 192, rfl⟩
abbrev main_v81 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_cst_10 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 15], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S8000000x3_0 : S8000000.BroadcastsInDim S8000000x3 (![0] : Fin 1 → Fin S8000000x3.rank)
  bcast_S_S8000000x3 : S_.BroadcastsInDim S8000000x3 (![] : Fin 0 → Fin S8000000x3.rank)
  reducesTo_S8000000x3_S8000000_d1 : S8000000x3.ReducesTo [1] S8000000
  slices_S8000000_S7864320_0 : S8000000.Slices ![0] S7864320
  shapeCasts_S7864320_S2x30720x128 : S7864320.ShapeCasts S2x30720x128
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S128 : S2048x128.Reduces [0] S128
  shapeCasts_S128_S1x128 : S128.ShapeCasts S1x128
  inb_S1x2x128_S1x1x128_0_0_0 : ∀ a, (![0, 0, 0] : Fin 3 → Nat) a + S1x1x128.size a ≤ S1x2x128.size a
  h_S1x1x128 : 0 < S1x1x128.numel
  shapeCasts_S1x1x128_S1x128 : S1x1x128.ShapeCasts S1x128
  shapeCasts_S1x128_S1x1x128 : S1x128.ShapeCasts S1x1x128
  inb_S1x2x128_S1x1x128_0_1_0 : ∀ a, (![0, 1, 0] : Fin 3 → Nat) a + S1x1x128.size a ≤ S1x2x128.size a
  slices_S2x2x128_S2x1x128_0_0_0 : S2x2x128.Slices ![0, 0, 0] S2x1x128
  shapeCasts_S2x1x128_S2x128 : S2x1x128.ShapeCasts S2x128
  reducesTo_S2x128_S_d0_1 : S2x128.ReducesTo [0, 1] S_
  slices_S2x2x128_S2x1x128_0_1_0 : S2x2x128.Slices ![0, 1, 0] S2x1x128
  slices_S8000000_S135680_7864320 : S8000000.Slices ![7864320] S135680
  bcast_S_S135680 : S_.BroadcastsInDim S135680 (![] : Fin 0 → Fin S135680.rank)
  reducesTo_S135680_S_d0 : S135680.ReducesTo [0] S_
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x3_0 : S500000.BroadcastsInDim S500000x3 (![0] : Fin 1 → Fin S500000x3.rank)
  bcast_S_S500000x3 : S_.BroadcastsInDim S500000x3 (![] : Fin 0 → Fin S500000x3.rank)
  reducesTo_S500000x3_S500000_d1 : S500000x3.ReducesTo [1] S500000
  slices_S500000_S491520_0 : S500000.Slices ![0] S491520
  shapeCasts_S491520_S2x1920x128 : S491520.ShapeCasts S2x1920x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  reduces_S128x128_S128 : S128x128.Reduces [0] S128
  slices_S500000_S8480_491520 : S500000.Slices ![491520] S8480
  bcast_S_S8480 : S_.BroadcastsInDim S8480 (![] : Fin 0 → Fin S8480.rank)
  reducesTo_S8480_S_d0 : S8480.ReducesTo [0] S_
  bcast_S_S1 : S_.BroadcastsInDim S1 (![] : Fin 0 → Fin S1.rank)
  concatenates_S1_S1_S1_S1_S4_d0 : Shape.Concatenates [S1, S1, S1, S1] S4 0
  gather_S100000x3_S8000000x1_S8000000x3_1_0_n_n_0_1_13_wf : GatherDims.WF S100000x3 S8000000x1 S8000000x3 [1] [0] [] [0] [] 1 ![1, 3]
  gather_S100000x3_S500000x1_S500000x3_1_0_n_n_0_1_13_wf : GatherDims.WF S100000x3 S500000x1 S500000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S2x30720x128.size a
  hwx0_0 : ∀ i : grid0.Coords, EltTy.bits .f32 = 32 ∨ (Rect.block (s := S2x30720x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S2x30720x128.size a
  hwx0_1 : ∀ i : grid0.Coords, EltTy.bits .f32 = 32 ∨ (Rect.block (s := S2x30720x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S2x30720x128.size a
  hwx0_2 : ∀ i : grid0.Coords, EltTy.bits .f32 = 32 ∨ (Rect.block (s := S2x30720x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S2x30720x128.size a
  hwx0_3 : ∀ i : grid0.Coords, EltTy.bits .f32 = 32 ∨ (Rect.block (s := S2x30720x128) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S2x30720x128.size a
  hwx0_4 : ∀ i : grid0.Coords, EltTy.bits .f32 = 32 ∨ (Rect.block (s := S2x30720x128) S1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x128.size a ≤ S2x2x128.size a
  hwx0_5 : ∀ i : grid0.Coords, EltTy.bits .f32 = 32 ∨ (Rect.block (s := S2x2x128) S1x2x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S2x1920x128.size a
  hwx1_0 : ∀ i : grid1.Coords, EltTy.bits .f32 = 32 ∨ (Rect.block (s := S2x1920x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S2x1920x128.size a
  hwx1_1 : ∀ i : grid1.Coords, EltTy.bits .f32 = 32 ∨ (Rect.block (s := S2x1920x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S2x1920x128.size a
  hwx1_2 : ∀ i : grid1.Coords, EltTy.bits .f32 = 32 ∨ (Rect.block (s := S2x1920x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S2x1920x128.size a
  hwx1_3 : ∀ i : grid1.Coords, EltTy.bits .f32 = 32 ∨ (Rect.block (s := S2x1920x128) S1x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x128.size a ≤ S2x1920x128.size a
  hwx1_4 : ∀ i : grid1.Coords, EltTy.bits .f32 = 32 ∨ (Rect.block (s := S2x1920x128) S1x128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x128.size a ≤ S2x2x128.size a
  hwx1_5 : ∀ i : grid1.Coords, EltTy.bits .f32 = 32 ∨ (Rect.block (s := S2x2x128) S1x2x128.size (cc1_transform_5 i) (hinb1_5 i)).WholeWords (EltTy.packing .f32)

variable [Facts₀]

def gather_S100000x3_S8000000x1_S8000000x3_1_0_n_n_0_1_13 : GatherDims S100000x3 S8000000x1 S8000000x3 where
  offsetDims := [1]
  collapsedSliceDims := [0]
  operandBatchingDims := []
  startIndicesBatchingDims := []
  startIndexMap := [0]
  indexVectorDim := 1
  sliceSizes := ![1, 3]
  wf := gather_S100000x3_S8000000x1_S8000000x3_1_0_n_n_0_1_13_wf
def gather_S100000x3_S500000x1_S500000x3_1_0_n_n_0_1_13 : GatherDims S100000x3 S500000x1 S500000x3 where
  offsetDims := [1]
  collapsedSliceDims := [0]
  operandBatchingDims := []
  startIndicesBatchingDims := []
  startIndexMap := [0]
  indexVectorDim := 1
  sliceSizes := ![1, 3]
  wf := gather_S100000x3_S500000x1_S500000x3_1_0_n_n_0_1_13_wf

abbrev win0_0 : Pipeline.Window sig grid0 :=
  Pipeline.Window.ofSpec (Memref.whole main_v6) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x2x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x2x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x3 : Shape := ⟨2, ![100000, 3]⟩
abbrev S8000000 : Shape := ⟨1, ![8000000]⟩
abbrev S500000 : Shape := ⟨1, ![500000]⟩
abbrev S_ : Shape := ⟨0, ![]⟩
abbrev S8000000x1 : Shape := ⟨2, ![8000000, 1]⟩
abbrev S8000000x3 : Shape := ⟨2, ![8000000, 3]⟩
abbrev S500000x1 : Shape := ⟨2, ![500000, 1]⟩
abbrev S500000x3 : Shape := ⟨2, ![500000, 3]⟩
abbrev S1 : Shape := ⟨1, ![1]⟩
abbrev S4 : Shape := ⟨1, ![4]⟩

abbrev nBuf : Space → Nat
  | .hbm => 100
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S8000000, .i32⟩
  | .hbm, ⟨2, _⟩ => ⟨S8000000, .i32⟩
  | .hbm, ⟨3, _⟩ => ⟨S8000000, .f32⟩
  | .hbm, ⟨4, _⟩ => ⟨S8000000, .f32⟩
  | .hbm, ⟨5, _⟩ => ⟨S8000000, .f32⟩
  | .hbm, ⟨6, _⟩ => ⟨S8000000, .f32⟩
  | .hbm, ⟨7, _⟩ => ⟨S500000, .i32⟩
  | .hbm, ⟨8, _⟩ => ⟨S500000, .i32⟩
  | .hbm, ⟨9, _⟩ => ⟨S500000, .f32⟩
  | .hbm, ⟨10, _⟩ => ⟨S500000, .f32⟩
  | .hbm, ⟨11, _⟩ => ⟨S500000, .f32⟩
  | .hbm, ⟨12, _⟩ => ⟨S500000, .f32⟩
  | .hbm, ⟨13, _⟩ => ⟨S_, .i32⟩
  | .hbm, ⟨14, _⟩ => ⟨S8000000, .i32⟩
  | .hbm, ⟨15, _⟩ => ⟨S8000000, .i1⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S8000000, .i32⟩
  | .hbm, ⟨20, _⟩ => ⟨S8000000x1, .i32⟩
  | .hbm, ⟨21, _⟩ => ⟨S8000000x3, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000x3, .f32⟩
  | .hbm, ⟨31, _⟩ => ⟨S8000000x3, .f32⟩
  | .hbm, ⟨32, _⟩ => ⟨S8000000x3, .f32⟩
  | .hbm, ⟨33, _⟩ => ⟨S_, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S8000000, .f32⟩
  | .hbm, ⟨40, _⟩ => ⟨S8000000, .f32⟩
  | .hbm, ⟨41, _⟩ => ⟨S8000000, .f32⟩
  | .hbm, ⟨42, _⟩ => ⟨S_, .f32⟩
  | .hbm, ⟨43, _⟩ => ⟨S_, .f32⟩
  | .hbm, ⟨44, _⟩ => ⟨S8000000, .f32⟩
  | .hbm, ⟨45, _⟩ => ⟨S8000000, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000, .f32⟩
  | .hbm, ⟨50, _⟩ => ⟨S8000000, .f32⟩
  | .hbm, ⟨51, _⟩ => ⟨S8000000, .f32⟩
  | .hbm, ⟨52, _⟩ => ⟨S_, .f32⟩
  | .hbm, ⟨53, _⟩ => ⟨S_, .f32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S_, .i32⟩
  | .hbm, ⟨58, _⟩ => ⟨S500000, .i32⟩
  | .hbm, ⟨59, _⟩ => ⟨S500000, .i32⟩
  | .hbm, ⟨60, _⟩ => ⟨S500000, .i32⟩
  | .hbm, ⟨61, _⟩ => ⟨S500000x1, .i32⟩
  | .hbm, ⟨62, _⟩ => ⟨S500000x3, .f32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x3, .f32⟩
  | .hbm, ⟨72, _⟩ => ⟨S500000x3, .f32⟩
  | .hbm, ⟨73, _⟩ => ⟨S500000x3, .f32⟩
  | .hbm, ⟨74, _⟩ => ⟨S_, .f32⟩
  | .hbm, ⟨75, _⟩ => ⟨S500000, .f32⟩
  | .hbm, ⟨76, _⟩ => ⟨S_, .f32⟩
  | .hbm, ⟨77, _⟩ => ⟨S500000, .f32⟩
  | .hbm, ⟨78, _⟩ => ⟨S500000, .f32⟩
  | .hbm, ⟨79, _⟩ => ⟨S500000, .f32⟩
  | .hbm, ⟨80, _⟩ => ⟨S500000, .f32⟩
  | .hbm, ⟨81, _⟩ => ⟨S500000, .f32⟩
  | .hbm, ⟨82, _⟩ => ⟨S500000, .f32⟩
  | .hbm, ⟨83, _⟩ => ⟨S_, .f32⟩
  | .hbm, ⟨84, _⟩ => ⟨S_, .f32⟩
  | .hbm, ⟨85, _⟩ => ⟨S500000, .f32⟩
  | .hbm, ⟨86, _⟩ => ⟨S500000, .f32⟩
  | .hbm, ⟨87, _⟩ => ⟨S500000, .f32⟩
  | .hbm, ⟨88, _⟩ => ⟨S500000, .f32⟩
  | .hbm, ⟨89, _⟩ => ⟨S500000, .f32⟩
  | .hbm, ⟨90, _⟩ => ⟨S500000, .f32⟩
  | .hbm, ⟨91, _⟩ => ⟨S500000, .f32⟩
  | .hbm, ⟨92, _⟩ => ⟨S500000, .f32⟩
  | .hbm, ⟨93, _⟩ => ⟨S_, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S1, .f32⟩
  | .hbm, ⟨98, _⟩ => ⟨S1, .f32⟩
  | .hbm, ⟨99, _⟩ => ⟨S4, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  reducesTo_S8000000x3_S8000000_d1 : S8000000x3.ReducesTo [1] S8000000
  h_S_ : 0 < S_.numel
  reducesTo_S8000000_S_d0 : S8000000.ReducesTo [0] S_
  bcast_S_S500000 : S_.BroadcastsInDim S500000 (![] : Fin 0 → Fin S500000.rank)
  bcast_S500000_S500000x1_0 : S500000.BroadcastsInDim S500000x1 (![0] : Fin 1 → Fin S500000x1.rank)
  reducesTo_S500000x3_S500000_d1 : S500000x3.ReducesTo [1] S500000
  reducesTo_S500000_S_d0 : S500000.ReducesTo [0] S_
  bcast_S_S1 : S_.BroadcastsInDim S1 (![] : Fin 0 → Fin S1.rank)
  concatenates_S1_S1_S1_S1_S4_d0 : Shape.Concatenates [S1, S1, S1, S1] S4 0
  gather_S100000x3_S8000000x1_S8000000x3_1_0_n_n_0_1_13_wf : GatherDims.WF S100000x3 S8000000x1 S8000000x3 [1] [0] [] [0] [] 1 ![1, 3]
  gather_S100000x3_S500000x1_S500000x3_1_0_n_n_0_1_13_wf : GatherDims.WF S100000x3 S500000x1 S500000x3 [1] [0] [] [0] [] 1 ![1, 3]

variable [Facts₀]

def gather_S100000x3_S8000000x1_S8000000x3_1_0_n_n_0_1_13 : GatherDims S100000x3 S8000000x1 S8000000x3 where
  offsetDims := [1]
  collapsedSliceDims := [0]
  operandBatchingDims := []
  startIndicesBatchingDims := []
  startIndexMap := [0]
  indexVectorDim := 1
  sliceSizes := ![1, 3]
  wf := gather_S100000x3_S8000000x1_S8000000x3_1_0_n_n_0_1_13_wf
def gather_S100000x3_S500000x1_S500000x3_1_0_n_n_0_1_13 : GatherDims S100000x3 S500000x1 S500000x3 where
  offsetDims := [1]
  collapsedSliceDims := [0]
  operandBatchingDims := []
  startIndicesBatchingDims := []
  startIndexMap := [0]
  indexVectorDim := 1
  sliceSizes := ![1, 3]
  wf := gather_S100000x3_S500000x1_S500000x3_1_0_n_n_0_1_13_wf

class Facts : Prop extends Facts₀ where

variable [Facts]
-- ==== Proof.BitsCall0Body.lean ====
/-
  Pallas call 0 of the pair-energy program: the per-point half of its run.

  The grid is (2, 15): the first axis picks one of the two halves of the pair list, the second walks the fifteen
  row-blocks of that half.  The one output window holds two rows of 128 lanes (row 0 the Coulomb partial sums,
  row 1 the van der Waals ones) and keeps the same block (c, 0, 0) for all fifteen points of a half; it is cleared
  at the first point of each half, added to at every point, and written back after the fifteenth.  Everything here
  is stated at a parameter V, the buffer contents when the call is entered.
-/
import proofs.«406529_j45191645888923_3_alg».proof.Proof.Gen.Kernel.Launch
import proofs.«406529_j45191645888923_3_alg».proof.Proof.Gen.Kernel.Skeleton
import proofs.«406529_j45191645888923_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Energy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point (it is fetched at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point (it is fetched at every point). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point (it is fetched at every point). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: "is this the first block of the half?" -/

/-- The condition of the body's conditional, from the grid coordinates. -/
abbrev cond0_0 (i : grid0.Coords) : Prop := (Scalar.cmpi .ne (Scalar.extui (Scalar.cmpi .eq (BitVec.ofNat 32 (i 1).val) 0#32)) 0#32) = 1#1
/-- It holds exactly at the first point of each half. -/
theorem hcond0_0 : ∀ t : Fin cfg0.N, cond0_0 (grid0.coords t) ↔ t.val % 15 = 0 :=
  (by decide +kernel : ∀ t : Fin grid0.N, cond0_0 (grid0.coords t) ↔ t.val % 15 = 0)

/-- One staging buffer of the output window, through which its contents are stated. -/
abbrev VO0_5 : View sig .tc .vmem S1x2x128 .f32 := (Memref.whole cc0_stg5_0 : Memref sig .tc .vmem S1x2x128 .f32).view
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x128 .f32 := win0_5.stage (cfg0.slots t 5)
abbrev hs0_5 (t : Fin cfg0.N) : (ms0_5 t).IsWhole := hstage0_5 ((cfg0.slots t 5).cast nbuf0_5)

/-! ## The body's run, case by case -/

set_option maxHeartbeats 4000000 in
/-- FIRST BLOCK OF A HALF (the branch taken): whatever the output buffer holds, the body clears it and then adds this
    block's column sums; the stores it makes are the witness. -/
noncomputable def kernelRun0_A (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : cond0_0 i)
    (x0 x1 x2 x3 x4 : Vec F S1x2048x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__energy_kernel i arg2 harg2 arg3 harg3 arg4 harg4 arg5 harg5 arg6 harg6 arg7 harg7) K } := by
  refine ⟨?_, fun E K => ?run⟩
  case run =>
    haveI : Fact (cond0_0 i) := ⟨hc0⟩
    simp only [cc0__energy_kernel_eq_skeleton]; unfold cc0__energy_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- A LATER BLOCK OF A HALF (the branch not taken): the body adds this block's column sums to what the output buffer
    held (xo5); the stores it makes are the witness. -/
noncomputable def kernelRun0_B (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : ¬cond0_0 i)
    (x0 x1 x2 x3 x4 : Vec F S1x2048x128 .f32) (xo5 : Vec F S1x2x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__energy_kernel i arg2 harg2 arg3 harg3 arg4 harg4 arg5 harg5 arg6 harg6 arg7 harg7) K } := by
  refine ⟨?_, fun E K => ?run⟩
  case run =>
    haveI : Fact (¬cond0_0 i) := ⟨hc0⟩
    simp only [cc0__energy_kernel_eq_skeleton]; unfold cc0__energy_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Energy

end
-- ==== Proof.BitsCall0.lean ====
/-
  Pallas call 0 of the pair-energy program: what the output window's buffer holds after each grid point, the
  call's bookkeeping record, and the per-point obligation of the launch theorem.

  After point t the buffer holds the running column sums of the blocks seen so far in the current half: the first
  point of a half (t ≡ 0 mod 15) starts from a cleared buffer, every later point adds to what the point before left
  (the buffer is written back only after the fifteenth point, t ≡ 14 mod 15, so nothing disturbs it in between).
-/
import proofs.«406529_j45191645888923_3_alg».proof.Proof.BitsCall0Body

set_option maxRecDepth 16384

noncomputable section

namespace Cert.Kernel.Energy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the first-block case the body's stores tile the output buffer, so they cover it. -/
theorem cover0_A_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : cond0_0 i)
    (x0 x1 x2 x3 x4 : Vec F S1x2048x128 .f32) (y : S1x2x128.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S1x2x128.size (by sl_kernel_rfl) y

/-- What the first-block case leaves in the output buffer: its stores read back. -/
def out0_A_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : cond0_0 i)
    (x0 x1 x2 x3 x4 : Vec F S1x2048x128 .f32) : Vec F S1x2x128 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

/-- In the later-block case the body's stores tile the output buffer too. -/
theorem cover0_B_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : ¬cond0_0 i)
    (x0 x1 x2 x3 x4 : Vec F S1x2048x128 .f32) (xo5 : Vec F S1x2x128 .f32) (y : S1x2x128.Idx) :
    ∃ pc ∈ (kernelRun0_B c i arg2 harg2 arg3 harg3 arg4 harg4 arg5 harg5 arg6 harg6 arg7 harg7 hc0 x0 x1 x2 x3 x4 xo5).1, y ∈ pc.1.set :=
  View.cover_of_tiledL (kernelRun0_B c i arg2 harg2 arg3 harg3 arg4 harg4 arg5 harg5 arg6 harg6 arg7 harg7 hc0 x0 x1 x2 x3 x4 xo5).1 S1x1x128.size (by sl_kernel_rfl) y

/-- What the later-block case leaves in the output buffer: its stores read back. -/
def out0_B_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : ¬cond0_0 i)
    (x0 x1 x2 x3 x4 : Vec F S1x2048x128 .f32) (xo5 : Vec F S1x2x128 .f32) : Vec F S1x2x128 .f32 :=
  VO0_5.read (Elt F) (VO0_5.writes (Elt F) VO0_5.junk (kernelRun0_B c i arg2 harg2 arg3 harg3 arg4 harg4 arg5 harg5 arg6 harg6 arg7 harg7 hc0 x0 x1 x2 x3 x4 xo5).1)

/-! ## What the output buffer holds after each point -/

/-- THE ACCUMULATION, by recursion on the point: a first point of a half clears and adds, a later point adds to what
    the point before left. -/
def outsAt0 (c : Dev nD) : (n : ℕ) → n < cfg0.N → Vec F S1x2x128 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _))
      (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 15 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0)
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h))
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn))

/-- At a first point of a half: the first-block contents. -/
theorem outsAt0_A (c : Dev nD) (t : Fin cfg0.N) (h0 : t.val % 15 = 0) :
    outsAt0 V c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
      (iblk0 V c 0 t) (iblk0 V c 1 t) (iblk0 V c 2 t) (iblk0 V c 3 t) (iblk0 V c 4 t) := by
  obtain ⟨n, hn⟩ := t
  cases n with
  | zero => exact rfl
  | succ n => exact (dif_pos h0).trans rfl

/-- At a later point of a half: the later-block contents over what the point before left. -/
theorem outsAt0_B (c : Dev nD) (t : Fin cfg0.N) (h0 : ¬t.val % 15 = 0) :
    outsAt0 V c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
      (iblk0 V c 0 t) (iblk0 V c 1 t) (iblk0 V c 2 t) (iblk0 V c 3 t) (iblk0 V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's bookkeeping record -/

/-- The arrays as the call finds them; after the body at point t each input buffer at its block and the output buffer
    at the running sums; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a later point of a half the output buffer still holds what the point before left: it was not written back in
    between. -/
theorem before0_5_B (c : Dev nD) (t : Fin cfg0.N) (h0 : ¬t.val % 15 = 0) (d) :
    (dat0 V c).before 5 t d = (outsAt0 V c (t.val - 1) (Nat.lt_of_le_of_lt (Nat.sub_le _ _) t.isLt)) := by
  have hN : t.val < 30 := lt_of_lt_of_eq t.isLt (show cfg0.N = 30 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The per-point obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks; the point is a first or a later block of its half;
    in the later case the output buffer holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 30 := lt_of_lt_of_eq t.isLt (show cfg0.N = 30 from N_0)
  by_cases h0 : t.val % 15 = 0
  · rw [outsAt0_A V c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t) (iblk0 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B V c t h0]
    simp only [before0_5_B V c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) (iblk0 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

/-- The launch theorem's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Energy

end
-- ==== Proof.BitsCall1Body.lean ====
/-
  Pallas call 1 of the pair-energy program: the per-point half of its run.

  The grid is (2, 15): the first axis picks one of the two halves of the pair list, the second walks the fifteen
  row-blocks of that half.  The one output window holds two rows of 128 lanes (row 0 the Coulomb partial sums,
  row 1 the van der Waals ones) and keeps the same block (c, 0, 0) for all fifteen points of a half; it is cleared
  at the first point of each half, added to at every point, and written back after the fifteenth.  Everything here
  is stated at a parameter V, the buffer contents when the call is entered.
-/
import proofs.«406529_j45191645888923_3_alg».proof.Proof.Gen.Kernel.Launch
import proofs.«406529_j45191645888923_3_alg».proof.Proof.Gen.Kernel.Skeleton
import proofs.«406529_j45191645888923_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Energy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point (it is fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point (it is fetched at every point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point (it is fetched at every point). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's one branch: "is this the first block of the half?" -/

/-- The condition of the body's conditional, from the grid coordinates. -/
abbrev cond1_0 (i : grid1.Coords) : Prop := (Scalar.cmpi .ne (Scalar.extui (Scalar.cmpi .eq (BitVec.ofNat 32 (i 1).val) 0#32)) 0#32) = 1#1
/-- It holds exactly at the first point of each half. -/
theorem hcond1_0 : ∀ t : Fin cfg1.N, cond1_0 (grid1.coords t) ↔ t.val % 15 = 0 :=
  (by decide +kernel : ∀ t : Fin grid1.N, cond1_0 (grid1.coords t) ↔ t.val % 15 = 0)

/-- One staging buffer of the output window, through which its contents are stated. -/
abbrev VO1_5 : View sig .tc .vmem S1x2x128 .f32 := (Memref.whole cc1_stg5_0 : Memref sig .tc .vmem S1x2x128 .f32).view
abbrev ms1_0 (t : Fin cfg1.N) : Memref sig .tc .vmem S1x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2x128 .f32 := win1_5.stage (cfg1.slots t 5)
abbrev hs1_5 (t : Fin cfg1.N) : (ms1_5 t).IsWhole := hstage1_5 ((cfg1.slots t 5).cast nbuf1_5)

/-! ## The body's run, case by case -/

set_option maxHeartbeats 4000000 in
/-- FIRST BLOCK OF A HALF (the branch taken): whatever the output buffer holds, the body clears it and then adds this
    block's column sums; the stores it makes are the witness. -/
noncomputable def kernelRun1_A (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : cond1_0 i)
    (x0 x1 x2 x3 x4 : Vec F S1x128x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__energy_kernel i arg2 harg2 arg3 harg3 arg4 harg4 arg5 harg5 arg6 harg6 arg7 harg7) K } := by
  refine ⟨?_, fun E K => ?run⟩
  case run =>
    haveI : Fact (cond1_0 i) := ⟨hc0⟩
    simp only [cc1__energy_kernel_eq_skeleton]; unfold cc1__energy_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- A LATER BLOCK OF A HALF (the branch not taken): the body adds this block's column sums to what the output buffer
    held (xo5); the stores it makes are the witness. -/
noncomputable def kernelRun1_B (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : ¬cond1_0 i)
    (x0 x1 x2 x3 x4 : Vec F S1x128x128 .f32) (xo5 : Vec F S1x2x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__energy_kernel i arg2 harg2 arg3 harg3 arg4 harg4 arg5 harg5 arg6 harg6 arg7 harg7) K } := by
  refine ⟨?_, fun E K => ?run⟩
  case run =>
    haveI : Fact (¬cond1_0 i) := ⟨hc0⟩
    simp only [cc1__energy_kernel_eq_skeleton]; unfold cc1__energy_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Energy

end
-- ==== Proof.BitsCall1.lean ====
/-
  Pallas call 1 of the pair-energy program: what the output window's buffer holds after each grid point, the
  call's bookkeeping record, and the per-point obligation of the launch theorem.

  After point t the buffer holds the running column sums of the blocks seen so far in the current half: the first
  point of a half (t ≡ 0 mod 15) starts from a cleared buffer, every later point adds to what the point before left
  (the buffer is written back only after the fifteenth point, t ≡ 14 mod 15, so nothing disturbs it in between).
-/
import proofs.«406529_j45191645888923_3_alg».proof.Proof.BitsCall1Body

set_option maxRecDepth 16384

noncomputable section

namespace Cert.Kernel.Energy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the first-block case the body's stores tile the output buffer, so they cover it. -/
theorem cover1_A_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : cond1_0 i)
    (x0 x1 x2 x3 x4 : Vec F S1x128x128 .f32) (y : S1x2x128.Idx) :
    ∃ pc ∈ (kernelRun1_A c i arg2 harg2 arg3 harg3 arg4 harg4 arg5 harg5 arg6 harg6 arg7 harg7 hc0 x0 x1 x2 x3 x4).1, y ∈ pc.1.set :=
  View.cover_of_tiledL (kernelRun1_A c i arg2 harg2 arg3 harg3 arg4 harg4 arg5 harg5 arg6 harg6 arg7 harg7 hc0 x0 x1 x2 x3 x4).1 S1x2x128.size (by sl_kernel_rfl) y

/-- What the first-block case leaves in the output buffer: its stores read back. -/
def out1_A_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : cond1_0 i)
    (x0 x1 x2 x3 x4 : Vec F S1x128x128 .f32) : Vec F S1x2x128 .f32 :=
  VO1_5.read (Elt F) (VO1_5.writes (Elt F) VO1_5.junk (kernelRun1_A c i arg2 harg2 arg3 harg3 arg4 harg4 arg5 harg5 arg6 harg6 arg7 harg7 hc0 x0 x1 x2 x3 x4).1)

/-- In the later-block case the body's stores tile the output buffer too. -/
theorem cover1_B_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : ¬cond1_0 i)
    (x0 x1 x2 x3 x4 : Vec F S1x128x128 .f32) (xo5 : Vec F S1x2x128 .f32) (y : S1x2x128.Idx) :
    ∃ pc ∈ (kernelRun1_B c i arg2 harg2 arg3 harg3 arg4 harg4 arg5 harg5 arg6 harg6 arg7 harg7 hc0 x0 x1 x2 x3 x4 xo5).1, y ∈ pc.1.set :=
  View.cover_of_tiledL (kernelRun1_B c i arg2 harg2 arg3 harg3 arg4 harg4 arg5 harg5 arg6 harg6 arg7 harg7 hc0 x0 x1 x2 x3 x4 xo5).1 S1x1x128.size (by sl_kernel_rfl) y

/-- What the later-block case leaves in the output buffer: its stores read back. -/
def out1_B_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : ¬cond1_0 i)
    (x0 x1 x2 x3 x4 : Vec F S1x128x128 .f32) (xo5 : Vec F S1x2x128 .f32) : Vec F S1x2x128 .f32 :=
  VO1_5.read (Elt F) (VO1_5.writes (Elt F) VO1_5.junk (kernelRun1_B c i arg2 harg2 arg3 harg3 arg4 harg4 arg5 harg5 arg6 harg6 arg7 harg7 hc0 x0 x1 x2 x3 x4 xo5).1)

/-! ## What the output buffer holds after each point -/

/-- THE ACCUMULATION, by recursion on the point: a first point of a half clears and adds, a later point adds to what
    the point before left. -/
def outsAt1 (c : Dev nD) : (n : ℕ) → n < cfg1.N → Vec F S1x2x128 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _))
      (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 15 = 0 then
      out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0)
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h))
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- At a first point of a half: the first-block contents. -/
theorem outsAt1_A (c : Dev nD) (t : Fin cfg1.N) (h0 : t.val % 15 = 0) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0)
      (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

/-- At a later point of a half: the later-block contents over what the point before left. -/
theorem outsAt1_B (c : Dev nD) (t : Fin cfg1.N) (h0 : ¬t.val % 15 = 0) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h))
      (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's bookkeeping record -/

/-- The arrays as the call finds them; after the body at point t each input buffer at its block and the output buffer
    at the running sums; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- At a later point of a half the output buffer still holds what the point before left: it was not written back in
    between. -/
theorem before1_5_B (c : Dev nD) (t : Fin cfg1.N) (h0 : ¬t.val % 15 = 0) (d) :
    (dat1 V c).before 5 t d = (outsAt1 V c (t.val - 1) (Nat.lt_of_le_of_lt (Nat.sub_le _ _) t.isLt)) := by
  have hN : t.val < 30 := lt_of_lt_of_eq t.isLt (show cfg1.N = 30 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The per-point obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; the point is a first or a later block of its half;
    in the later case the output buffer holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 30 := lt_of_lt_of_eq t.isLt (show cfg1.N = 30 from N_1)
  by_cases h0 : t.val % 15 = 0
  · rw [outsAt1_A V c t h0]
    unfold out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_5 c _ _ _ _ _ _ _ _ _ _ _ _ _ _ _ _ _ _ _)
  · rw [outsAt1_B V c t h0]
    simp only [before1_5_B V c t h0]
    unfold out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _)

/-- The launch theorem's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Energy

end
-- ==== Proof.BitsRun.lean ====
/-
  The whole run of the pair-energy program: its host stretches and its two Pallas calls, in order, from the launch to
  the return.  The outcome is stated for EVERY buffer no kernel scopes: at the end each holds what the fold below
  computes from the launch memory (a host stretch applies its operations; a Pallas call replaces its output array
  by what its write-backs leave and changes nothing else).  The frame statement (the arguments end unchanged) and the
  value of the result are both read off this one run.
-/
import proofs.«406529_j45191645888923_3_alg».proof.Proof.BitsCall0
import proofs.«406529_j45191645888923_3_alg».proof.Proof.BitsCall1
import proofs.«406529_j45191645888923_3_alg».proof.Proof.Gen.Kernel.Regions
import Idealize.ShloMosaic.Lib.Pipeline.RegionsLoop
import Idealize.ShloMosaic.Lib.Pipeline.FrameSuffix

set_option maxRecDepth 16384

noncomputable section

namespace Cert.Kernel.Energy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave -/

/-- The buffers as call 0 finds them, read at the TensorCore's references. -/
abbrev E3 : (c : Dev nD) → (b : Ref sig .tc) → Buf (Elt F) ((c : Thread nD τ).loc b) := fun c b => V3 m c b

/-- What call 0 leaves: its output array at what its write-backs leave (asked for at any stage number). -/
def outs0 : Outs (F := F) := fun _ r c =>
  Pipeline.withArrays spec0 c (V3 m c) (fun w => (dat0 (E3 m) c).arrAt w cfg0.N) (Proc.devRef .tc r)

/-- The buffers as call 1 finds them. -/
abbrev E8 : (c : Dev nD) → (b : Ref sig .tc) → Buf (Elt F) ((c : Thread nD τ).loc b) := fun c b => V8 m (outs0 m) c b

/-- What both calls leave: call 1's output array asked for at stage 9, call 0's otherwise. -/
def outs : Outs (F := F) := fun J r c =>
  match J with
  | 9 => Pipeline.withArrays spec1 c (V8 m (outs0 m) c) (fun w => (dat1 (E8 m) c).arrAt w cfg1.N) (Proc.devRef .tc r)
  | _ => outs0 m J r c

theorem outs_4 (c : Dev nD) : outs m 4 main_v15 c = (dat0 (E3 m) c).arrAt 5 cfg0.N := by
  show Pipeline.withArrays spec0 c (V3 m c) (fun w => (dat0 (E3 m) c).arrAt w cfg0.N) (Proc.devRef .tc (Pipeline.arrRef spec0 5)) = _
  exact Pipeline.withArrays_arr spec0 launch0.win.arr_inj c _ _ 5

theorem V8_outs (c : Dev nD) : V8 m (outs m) c = V8 m (outs0 m) c := rfl

theorem outs_9 (c : Dev nD) : outs m 9 main_v60 c = (dat1 (E8 m) c).arrAt 5 cfg1.N := by
  show Pipeline.withArrays spec1 c (V8 m (outs0 m) c) (fun w => (dat1 (E8 m) c).arrAt w cfg1.N) (Proc.devRef .tc (Pipeline.arrRef spec1 5)) = _
  exact Pipeline.withArrays_arr spec1 launch1.win.arr_inj c _ _ 5

/-- The buffers as call 0 leaves them, read at the TensorCore's references. -/
abbrev E3x : (c : Dev nD) → (b : Ref sig .tc) → Buf (Elt F) ((c : Thread nD τ).loc b) := fun c b => V4 m (outs m) c b
/-- The buffers as call 1 leaves them. -/
abbrev E8x : (c : Dev nD) → (b : Ref sig .tc) → Buf (Elt F) ((c : Thread nD τ).loc b) := fun c b => V9 m (outs m) c b

/-- Every window of call 0 but the last is an input window, and its array is not the output array. -/
theorem isIn0 : ∀ w : Fin cfg0.W, w ≠ 5 → (cfg0.win w).isOut = false := by decide
theorem arr_ne0 : ∀ w : Fin cfg0.W, w ≠ 5 → Pipeline.arrRef spec0 w ∉ ([main_v15] : List (Ref sig .tc)) := by decide

/-- At call 0's exit each of its arrays holds what the write-backs leave: the output array by construction, an input
    array what it held at entry. -/
theorem hF0 (c : Dev nD) (w : Fin cfg0.W) : (dat0 (E3 m) c).arrAt w cfg0.N = E3x m c (Pipeline.arrRef spec0 w) := by
  by_cases h5 : w = 5
  · subst h5
    show _ = Function.update (V3 m c) (Proc.devRef .tc main_v15) (outs m 4 main_v15 c) (Proc.devRef .tc main_v15)
    rw [Function.update_self, outs_4]
  · exact ((dat0 (E3 m) c).arrAt_in w (isIn0 w h5) _).trans ((A_eq0 (E3 m) c w).trans (V4_of m (outs m) c _ (arr_ne0 w h5)).symm)

theorem arrRef0_5 : Pipeline.arrRef spec0 (5 : Fin 6) = main_v15 := rfl
theorem hrest0 (c : Dev nD) : ∀ b, b ∉ Finset.univ.image (Pipeline.arrRef spec0) → E3x m c b = E3 m c b := by
  intro b hb
  have hne : b ∉ ([main_v15] : List (Ref sig .tc)) := fun h =>
    hb (Finset.mem_image.mpr ⟨(5 : Fin 6), Finset.mem_univ _, arrRef0_5.trans (List.mem_singleton.mp h).symm⟩)
  exact V4_of m (outs m) c b hne

theorem isIn1 : ∀ w : Fin cfg1.W, w ≠ 5 → (cfg1.win w).isOut = false := by decide
theorem arr_ne1 : ∀ w : Fin cfg1.W, w ≠ 5 → Pipeline.arrRef spec1 w ∉ ([main_v60] : List (Ref sig .tc)) := by decide

theorem hF1 (c : Dev nD) (w : Fin cfg1.W) : (dat1 (E8 m) c).arrAt w cfg1.N = E8x m c (Pipeline.arrRef spec1 w) := by
  by_cases h5 : w = 5
  · subst h5
    show _ = Function.update (V8 m (outs m) c) (Proc.devRef .tc main_v60) (outs m 9 main_v60 c) (Proc.devRef .tc main_v60)
    rw [Function.update_self, outs_9]
  · exact ((dat1 (E8 m) c).arrAt_in w (isIn1 w h5) _).trans ((A_eq1 (E8 m) c w).trans (V9_of m (outs m) c _ (arr_ne1 w h5)).symm)

theorem arrRef1_5 : Pipeline.arrRef spec1 (5 : Fin 6) = main_v60 := rfl
theorem hrest1 (c : Dev nD) : ∀ b, b ∉ Finset.univ.image (Pipeline.arrRef spec1) → E8x m c b = E8 m c b := by
  intro b hb
  have hne : b ∉ ([main_v60] : List (Ref sig .tc)) := fun h =>
    hb (Finset.mem_image.mpr ⟨(5 : Fin 6), Finset.mem_univ _, arrRef1_5.trans (List.mem_singleton.mp h).symm⟩)
  exact V9_of m (outs m) c b hne

/-! ## The bookkeeping family and what rides beside the buffers -/

/-- Both calls' records, each at its call's entry contents. -/
def pdats : (p : Fin 2) → (c : Dev nD) → Dat τ (Elt F) Unit ℕ (UR sig nD τ) ℕ (cfgs p) c
  | ⟨0, _⟩ => fun c => dat0 (E3 m) c
  | ⟨1, _⟩ => fun c => dat1 (E8 m) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev Ev : Fin 3 → Dev nD → sProp 𝕄 := fun _ c => R c

set_option backward.isDefEq.respectTransparency.types false in
/-- Pallas call 0 as a segment: entered with every unscoped buffer at `V3 m`, left with them at `V4 m (outs m)`. Its arrays are
    split out of the unscoped buffers on entry and put back, at what the write-backs left, on exit; the generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E3x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `V8 m (outs m)`, left with them at `V9 m (outs m)`. Its arrays are
    split out of the unscoped buffers on entry and put back, at what the write-backs left, on exit; the generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m c) fun _ => rfl
    rw [Pipeline.unscopedBufs_held] at hsplit
    rw [← V8_outs m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m c) (E8x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (V10 m (outs m) c) ∗ ∃ r, prngReg c r)

/-- The last host stretch leaves the buffers, the register and the (empty) debt: regrouped as the launch theorem wants. -/
theorem last_chain (c : Dev nD) :
    (iprop(StableHlo.held (c : Thread nD τ) (Pipeline.ucRefs τ sig) (V10 m (outs m) c) ∗ R c) : sProp 𝕄)
      ⊢ iprop(Tlast m c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN: from any memory with zero counters every weakly fair execution of the program terminates, nothing
    faulting, and at the end every unscoped buffer holds what the fold computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ 𝒱₀ L lv m ρ main
    (segs m (outs m) 𝒱₀ L lv (Ev (F := F)) () (pdats m) (reg0 m) (reg1 m))
    (fun c Q => by
      rewrite [main_chain c, Seg.run_eq_chain,
        show (segs m (outs m) 𝒱₀ L lv (Ev (F := F)) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := Tlast m)
    (hch := fun c => ⟨.rfl, .rfl, .rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun s h => h)

/-- THE FRAME, at any instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c),
     (h c _ (mem_uc main_arg9 (by decide))).trans (V10_main_arg9 m (outs m) c),
     (h c _ (mem_uc main_arg10 (by decide))).trans (V10_main_arg10 m (outs m) c),
     (h c _ (mem_uc main_arg11 (by decide))).trans (V10_main_arg11 m (outs m) c),
     (h c _ (mem_uc main_arg12 (by decide))).trans (V10_main_arg12 m (outs m) c)⟩) (run_all m ρ)

end Cert.Kernel.Energy

end
-- ==== Proof.IdealCall0Body.lean ====
/-
  Pallas call 0 of the pair-energy program: the per-point half of its run.

  The grid is (2, 15): the first axis picks one of the two halves of the pair list, the second walks the fifteen
  row-blocks of that half.  The one output window holds two rows of 128 lanes (row 0 the Coulomb partial sums,
  row 1 the van der Waals ones) and keeps the same block (c, 0, 0) for all fifteen points of a half; it is cleared
  at the first point of each half, added to at every point, and written back after the fifteenth.  Everything here
  is stated at a parameter V, the buffer contents when the call is entered.
-/
import proofs.«406529_j45191645888923_3_alg».proof.Proof.Gen.KernelIdeal.Launch
import proofs.«406529_j45191645888923_3_alg».proof.Proof.Gen.KernelIdeal.Skeleton
import proofs.«406529_j45191645888923_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Energy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point (it is fetched at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point (it is fetched at every point). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point (it is fetched at every point). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: "is this the first block of the half?" -/

/-- The condition of the body's conditional, from the grid coordinates. -/
abbrev cond0_0 (i : grid0.Coords) : Prop := (Scalar.cmpi .ne (Scalar.extui (Scalar.cmpi .eq (BitVec.ofNat 32 (i 1).val) 0#32)) 0#32) = 1#1
/-- It holds exactly at the first point of each half. -/
theorem hcond0_0 : ∀ t : Fin cfg0.N, cond0_0 (grid0.coords t) ↔ t.val % 15 = 0 :=
  (by decide +kernel : ∀ t : Fin grid0.N, cond0_0 (grid0.coords t) ↔ t.val % 15 = 0)

/-- One staging buffer of the output window, through which its contents are stated. -/
abbrev VO0_5 : View sig .tc .vmem S1x2x128 .f32 := (Memref.whole cc0_stg5_0 : Memref sig .tc .vmem S1x2x128 .f32).view
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x128 .f32 := win0_5.stage (cfg0.slots t 5)
abbrev hs0_5 (t : Fin cfg0.N) : (ms0_5 t).IsWhole := hstage0_5 ((cfg0.slots t 5).cast nbuf0_5)

/-! ## The body's run, case by case -/

set_option maxHeartbeats 4000000 in
/-- FIRST BLOCK OF A HALF (the branch taken): whatever the output buffer holds, the body clears it and then adds this
    block's column sums; the stores it makes are the witness. -/
noncomputable def kernelRun0_A (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : cond0_0 i)
    (x0 x1 x2 x3 x4 : Vec F S1x2048x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__energy_kernel i arg2 harg2 arg3 harg3 arg4 harg4 arg5 harg5 arg6 harg6 arg7 harg7) K } := by
  refine ⟨?_, fun E K => ?run⟩
  case run =>
    haveI : Fact (cond0_0 i) := ⟨hc0⟩
    simp only [cc0__energy_kernel_eq_skeleton]; unfold cc0__energy_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- A LATER BLOCK OF A HALF (the branch not taken): the body adds this block's column sums to what the output buffer
    held (xo5); the stores it makes are the witness. -/
noncomputable def kernelRun0_B (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : ¬cond0_0 i)
    (x0 x1 x2 x3 x4 : Vec F S1x2048x128 .f32) (xo5 : Vec F S1x2x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__energy_kernel i arg2 harg2 arg3 harg3 arg4 harg4 arg5 harg5 arg6 harg6 arg7 harg7) K } := by
  refine ⟨?_, fun E K => ?run⟩
  case run =>
    haveI : Fact (¬cond0_0 i) := ⟨hc0⟩
    simp only [cc0__energy_kernel_eq_skeleton]; unfold cc0__energy_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Energy

end
-- ==== Proof.IdealCall0.lean ====
/-
  Pallas call 0 of the pair-energy program: what the output window's buffer holds after each grid point, the
  call's bookkeeping record, and the per-point obligation of the launch theorem.

  After point t the buffer holds the running column sums of the blocks seen so far in the current half: the first
  point of a half (t ≡ 0 mod 15) starts from a cleared buffer, every later point adds to what the point before left
  (the buffer is written back only after the fifteenth point, t ≡ 14 mod 15, so nothing disturbs it in between).
-/
import proofs.«406529_j45191645888923_3_alg».proof.Proof.IdealCall0Body

set_option maxRecDepth 16384

noncomputable section

namespace Cert.KernelIdeal.Energy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the first-block case the body's stores tile the output buffer, so they cover it. -/
theorem cover0_A_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : cond0_0 i)
    (x0 x1 x2 x3 x4 : Vec F S1x2048x128 .f32) (y : S1x2x128.Idx) :
    ∃ pc ∈ (kernelRun0_A c i arg2 harg2 arg3 harg3 arg4 harg4 arg5 harg5 arg6 harg6 arg7 harg7 hc0 x0 x1 x2 x3 x4).1, y ∈ pc.1.set :=
  View.cover_of_tiledL (kernelRun0_A c i arg2 harg2 arg3 harg3 arg4 harg4 arg5 harg5 arg6 harg6 arg7 harg7 hc0 x0 x1 x2 x3 x4).1 S1x2x128.size (by sl_kernel_rfl) y

/-- What the first-block case leaves in the output buffer: its stores read back. -/
def out0_A_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : cond0_0 i)
    (x0 x1 x2 x3 x4 : Vec F S1x2048x128 .f32) : Vec F S1x2x128 .f32 :=
  VO0_5.read (Elt F) (VO0_5.writes (Elt F) VO0_5.junk (kernelRun0_A c i arg2 harg2 arg3 harg3 arg4 harg4 arg5 harg5 arg6 harg6 arg7 harg7 hc0 x0 x1 x2 x3 x4).1)

/-- In the later-block case the body's stores tile the output buffer too. -/
theorem cover0_B_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : ¬cond0_0 i)
    (x0 x1 x2 x3 x4 : Vec F S1x2048x128 .f32) (xo5 : Vec F S1x2x128 .f32) (y : S1x2x128.Idx) :
    ∃ pc ∈ (kernelRun0_B c i arg2 harg2 arg3 harg3 arg4 harg4 arg5 harg5 arg6 harg6 arg7 harg7 hc0 x0 x1 x2 x3 x4 xo5).1, y ∈ pc.1.set :=
  View.cover_of_tiledL (kernelRun0_B c i arg2 harg2 arg3 harg3 arg4 harg4 arg5 harg5 arg6 harg6 arg7 harg7 hc0 x0 x1 x2 x3 x4 xo5).1 S1x1x128.size (by sl_kernel_rfl) y

/-- What the later-block case leaves in the output buffer: its stores read back. -/
def out0_B_5 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2x128 .f32) (harg7 : arg7.IsWhole) (hc0 : ¬cond0_0 i)
    (x0 x1 x2 x3 x4 : Vec F S1x2048x128 .f32) (xo5 : Vec F S1x2x128 .f32) : Vec F S1x2x128 .f32 :=
  VO0_5.read (Elt F) (VO0_5.writes (Elt F) VO0_5.junk (kernelRun0_B c i arg2 harg2 arg3 harg3 arg4 harg4 arg5 harg5 arg6 harg6 arg7 harg7 hc0 x0 x1 x2 x3 x4 xo5).1)

/-! ## What the output buffer holds after each point -/

/-- THE ACCUMULATION, by recursion on the point: a first point of a half clears and adds, a later point adds to what
    the point before left. -/
def outsAt0 (c : Dev nD) : (n : ℕ) → n < cfg0.N → Vec F S1x2x128 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _))
      (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) % 15 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0)
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h))
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn))

/-- At a first point of a half: the first-block contents. -/
theorem outsAt0_A (c : Dev nD) (t : Fin cfg0.N) (h0 : t.val % 15 = 0) :
    outsAt0 V c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
      (iblk0 V c 0 t) (iblk0 V c 1 t) (iblk0 V c 2 t) (iblk0 V c 3 t) (iblk0 V c 4 t) := by
  obtain ⟨n, hn⟩ := t
  cases n with
  | zero => exact rfl
  | succ n => exact (dif_pos h0).trans rfl

/-- At a later point of a half: the later-block contents over what the point before left. -/
theorem outsAt0_B (c : Dev nD) (t : Fin cfg0.N) (h0 : ¬t.val % 15 = 0) :
    outsAt0 V c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
      (iblk0 V c 0 t) (iblk0 V c 1 t) (iblk0 V c 2 t) (iblk0 V c 3 t) (iblk0 V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's bookkeeping record -/

/-- The arrays as the call finds them; after the body at point t each input buffer at its block and the output buffer
    at the running sums; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a later point of a half the output buffer still holds what the point before left: it was not written back in
    between. -/
theorem before0_5_B (c : Dev nD) (t : Fin cfg0.N) (h0 : ¬t.val % 15 = 0) (d) :
    (dat0 V c).before 5 t d = (outsAt0 V c (t.val - 1) (Nat.lt_of_le_of_lt (Nat.sub_le _ _) t.isLt)) := by
  have hN : t.val < 30 := lt_of_lt_of_eq t.isLt (show cfg0.N = 30 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The per-point obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' buffers hold their blocks; the point is a first or a later block of its half;
    in the later case the output buffer holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 30 := lt_of_lt_of_eq t.isLt (show cfg0.N = 30 from N_0)
  by_cases h0 : t.val % 15 = 0
  · rw [outsAt0_A V c t h0]
    unfold out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t) (iblk0 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _)
  · rw [outsAt0_B V c t h0]
    simp only [before0_5_B V c t h0]
    unfold out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) (iblk0 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _)

/-- The launch theorem's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Energy

end
-- ==== Proof.IdealCall1Body.lean ====
/-
  Pallas call 1 of the pair-energy program: the per-point half of its run.

  The grid is (2, 15): the first axis picks one of the two halves of the pair list, the second walks the fifteen
  row-blocks of that half.  The one output window holds two rows of 128 lanes (row 0 the Coulomb partial sums,
  row 1 the van der Waals ones) and keeps the same block (c, 0, 0) for all fifteen points of a half; it is cleared
  at the first point of each half, added to at every point, and written back after the fifteenth.  Everything here
  is stated at a parameter V, the buffer contents when the call is entered.
-/
import proofs.«406529_j45191645888923_3_alg».proof.Proof.Gen.KernelIdeal.Launch
import proofs.«406529_j45191645888923_3_alg».proof.Proof.Gen.KernelIdeal.Skeleton
import proofs.«406529_j45191645888923_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Energy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point (it is fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point (it is fetched at every point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point (it is fetched at every point). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's one branch: "is this the first block of the half?" -/

/-- The condition of the body's conditional, from the grid coordinates. -/
abbrev cond1_0 (i : grid1.Coords) : Prop := (Scalar.cmpi .ne (Scalar.extui (Scalar.cmpi .eq (BitVec.ofNat 32 (i 1).val) 0#32)) 0#32) = 1#1
/-- It holds exactly at the first point of each half. -/
theorem hcond1_0 : ∀ t : Fin cfg1.N, cond1_0 (grid1.coords t) ↔ t.val % 15 = 0 :=
  (by decide +kernel : ∀ t : Fin grid1.N, cond1_0 (grid1.coords t) ↔ t.val % 15 = 0)

/-- One staging buffer of the output window, through which its contents are stated. -/
abbrev VO1_5 : View sig .tc .vmem S1x2x128 .f32 := (Memref.whole cc1_stg5_0 : Memref sig .tc .vmem S1x2x128 .f32).view
abbrev ms1_0 (t : Fin cfg1.N) : Memref sig .tc .vmem S1x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2x128 .f32 := win1_5.stage (cfg1.slots t 5)
abbrev hs1_5 (t : Fin cfg1.N) : (ms1_5 t).IsWhole := hstage1_5 ((cfg1.slots t 5).cast nbuf1_5)

/-! ## The body's run, case by case -/

set_option maxHeartbeats 4000000 in
/-- FIRST BLOCK OF A HALF (the branch taken): whatever the output buffer holds, the body clears it and then adds this
    block's column sums; the stores it makes are the witness. -/
noncomputable def kernelRun1_A (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : cond1_0 i)
    (x0 x1 x2 x3 x4 : Vec F S1x128x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__energy_kernel i arg2 harg2 arg3 harg3 arg4 harg4 arg5 harg5 arg6 harg6 arg7 harg7) K } := by
  refine ⟨?_, fun E K => ?run⟩
  case run =>
    haveI : Fact (cond1_0 i) := ⟨hc0⟩
    simp only [cc1__energy_kernel_eq_skeleton]; unfold cc1__energy_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 4000000 in
/-- A LATER BLOCK OF A HALF (the branch not taken): the body adds this block's column sums to what the output buffer
    held (xo5); the stores it makes are the witness. -/
noncomputable def kernelRun1_B (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : ¬cond1_0 i)
    (x0 x1 x2 x3 x4 : Vec F S1x128x128 .f32) (xo5 : Vec F S1x2x128 .f32) :
    { L5 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__energy_kernel i arg2 harg2 arg3 harg3 arg4 harg4 arg5 harg5 arg6 harg6 arg7 harg7) K } := by
  refine ⟨?_, fun E K => ?run⟩
  case run =>
    haveI : Fact (¬cond1_0 i) := ⟨hc0⟩
    simp only [cc1__energy_kernel_eq_skeleton]; unfold cc1__energy_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Energy

end
-- ==== Proof.IdealCall1.lean ====
/-
  Pallas call 1 of the pair-energy program: what the output window's buffer holds after each grid point, the
  call's bookkeeping record, and the per-point obligation of the launch theorem.

  After point t the buffer holds the running column sums of the blocks seen so far in the current half: the first
  point of a half (t ≡ 0 mod 15) starts from a cleared buffer, every later point adds to what the point before left
  (the buffer is written back only after the fifteenth point, t ≡ 14 mod 15, so nothing disturbs it in between).
-/
import proofs.«406529_j45191645888923_3_alg».proof.Proof.IdealCall1Body

set_option maxRecDepth 16384

noncomputable section

namespace Cert.KernelIdeal.Energy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- In the first-block case the body's stores tile the output buffer, so they cover it. -/
theorem cover1_A_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : cond1_0 i)
    (x0 x1 x2 x3 x4 : Vec F S1x128x128 .f32) (y : S1x2x128.Idx) :
    ∃ pc ∈ (kernelRun1_A c i arg2 harg2 arg3 harg3 arg4 harg4 arg5 harg5 arg6 harg6 arg7 harg7 hc0 x0 x1 x2 x3 x4).1, y ∈ pc.1.set :=
  View.cover_of_tiledL (kernelRun1_A c i arg2 harg2 arg3 harg3 arg4 harg4 arg5 harg5 arg6 harg6 arg7 harg7 hc0 x0 x1 x2 x3 x4).1 S1x2x128.size (by sl_kernel_rfl) y

/-- What the first-block case leaves in the output buffer: its stores read back. -/
def out1_A_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : cond1_0 i)
    (x0 x1 x2 x3 x4 : Vec F S1x128x128 .f32) : Vec F S1x2x128 .f32 :=
  VO1_5.read (Elt F) (VO1_5.writes (Elt F) VO1_5.junk (kernelRun1_A c i arg2 harg2 arg3 harg3 arg4 harg4 arg5 harg5 arg6 harg6 arg7 harg7 hc0 x0 x1 x2 x3 x4).1)

/-- In the later-block case the body's stores tile the output buffer too. -/
theorem cover1_B_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : ¬cond1_0 i)
    (x0 x1 x2 x3 x4 : Vec F S1x128x128 .f32) (xo5 : Vec F S1x2x128 .f32) (y : S1x2x128.Idx) :
    ∃ pc ∈ (kernelRun1_B c i arg2 harg2 arg3 harg3 arg4 harg4 arg5 harg5 arg6 harg6 arg7 harg7 hc0 x0 x1 x2 x3 x4 xo5).1, y ∈ pc.1.set :=
  View.cover_of_tiledL (kernelRun1_B c i arg2 harg2 arg3 harg3 arg4 harg4 arg5 harg5 arg6 harg6 arg7 harg7 hc0 x0 x1 x2 x3 x4 xo5).1 S1x1x128.size (by sl_kernel_rfl) y

/-- What the later-block case leaves in the output buffer: its stores read back. -/
def out1_B_5 (c : Dev nD) (i : grid1.Coords) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x2x128 .f32) (harg7 : arg7.IsWhole) (hc0 : ¬cond1_0 i)
    (x0 x1 x2 x3 x4 : Vec F S1x128x128 .f32) (xo5 : Vec F S1x2x128 .f32) : Vec F S1x2x128 .f32 :=
  VO1_5.read (Elt F) (VO1_5.writes (Elt F) VO1_5.junk (kernelRun1_B c i arg2 harg2 arg3 harg3 arg4 harg4 arg5 harg5 arg6 harg6 arg7 harg7 hc0 x0 x1 x2 x3 x4 xo5).1)

/-! ## What the output buffer holds after each point -/

/-- THE ACCUMULATION, by recursion on the point: a first point of a half clears and adds, a later point adds to what
    the point before left. -/
def outsAt1 (c : Dev nD) : (n : ℕ) → n < cfg1.N → Vec F S1x2x128 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _))
      (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 15 = 0 then
      out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0)
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h))
        (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- At a first point of a half: the first-block contents. -/
theorem outsAt1_A (c : Dev nD) (t : Fin cfg1.N) (h0 : t.val % 15 = 0) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0)
      (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

/-- At a later point of a half: the later-block contents over what the point before left. -/
theorem outsAt1_B (c : Dev nD) (t : Fin cfg1.N) (h0 : ¬t.val % 15 = 0) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h))
      (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's bookkeeping record -/

/-- The arrays as the call finds them; after the body at point t each input buffer at its block and the output buffer
    at the running sums; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- At a later point of a half the output buffer still holds what the point before left: it was not written back in
    between. -/
theorem before1_5_B (c : Dev nD) (t : Fin cfg1.N) (h0 : ¬t.val % 15 = 0) (d) :
    (dat1 V c).before 5 t d = (outsAt1 V c (t.val - 1) (Nat.lt_of_le_of_lt (Nat.sub_le _ _) t.isLt)) := by
  have hN : t.val < 30 := lt_of_lt_of_eq t.isLt (show cfg1.N = 30 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The per-point obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; the point is a first or a later block of its half;
    in the later case the output buffer holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 30 := lt_of_lt_of_eq t.isLt (show cfg1.N = 30 from N_1)
  by_cases h0 : t.val % 15 = 0
  · rw [outsAt1_A V c t h0]
    unfold out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_5 c _ _ _ _ _ _ _ _ _ _ _ _ _ _ _ _ _ _ _)
  · rw [outsAt1_B V c t h0]
    simp only [before1_5_B V c t h0]
    unfold out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _)

/-- The launch theorem's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Energy

end
-- ==== Proof.IdealRun.lean ====
/-
  The whole run of the pair-energy program: its host stretches and its two Pallas calls, in order, from the launch to
  the return.  The outcome is stated for EVERY buffer no kernel scopes: at the end each holds what the fold below
  computes from the launch memory (a host stretch applies its operations; a Pallas call replaces its output array
  by what its write-backs leave and changes nothing else).  The frame statement (the arguments end unchanged) and the
  value of the result are both read off this one run.
-/
import proofs.«406529_j45191645888923_3_alg».proof.Proof.IdealCall0
import proofs.«406529_j45191645888923_3_alg».proof.Proof.IdealCall1
import proofs.«406529_j45191645888923_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Energy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave -/

/-- The buffers as call 0 finds them, read at the TensorCore's references. -/
abbrev E3 : (c : Dev nD) → (b : Ref sig .tc) → Buf (Elt F) ((c : Thread nD τ).loc b) := fun c b => V3 m c b

/-- What call 0 leaves: its output array at what its write-backs leave (asked for at any stage number). -/
def outs0 : Outs (F := F) := fun _ r c =>
  Pipeline.withArrays spec0 c (V3 m c) (fun w => (dat0 (E3 m) c).arrAt w cfg0.N) (Proc.devRef .tc r)

/-- The buffers as call 1 finds them. -/
abbrev E8 : (c : Dev nD) → (b : Ref sig .tc) → Buf (Elt F) ((c : Thread nD τ).loc b) := fun c b => V8 m (outs0 m) c b

/-- What both calls leave: call 1's output array asked for at stage 9, call 0's otherwise. -/
def outs : Outs (F := F) := fun J r c =>
  match J with
  | 9 => Pipeline.withArrays spec1 c (V8 m (outs0 m) c) (fun w => (dat1 (E8 m) c).arrAt w cfg1.N) (Proc.devRef .tc r)
  | _ => outs0 m J r c

theorem outs_4 (c : Dev nD) : outs m 4 main_v15 c = (dat0 (E3 m) c).arrAt 5 cfg0.N := by
  show Pipeline.withArrays spec0 c (V3 m c) (fun w => (dat0 (E3 m) c).arrAt w cfg0.N) (Proc.devRef .tc (Pipeline.arrRef spec0 5)) = _
  exact Pipeline.withArrays_arr spec0 launch0.win.arr_inj c _ _ 5

theorem V8_outs (c : Dev nD) : V8 m (outs m) c = V8 m (outs0 m) c := rfl

theorem outs_9 (c : Dev nD) : outs m 9 main_v60 c = (dat1 (E8 m) c).arrAt 5 cfg1.N := by
  show Pipeline.withArrays spec1 c (V8 m (outs0 m) c) (fun w => (dat1 (E8 m) c).arrAt w cfg1.N) (Proc.devRef .tc (Pipeline.arrRef spec1 5)) = _
  exact Pipeline.withArrays_arr spec1 launch1.win.arr_inj c _ _ 5

/-- The buffers as call 0 leaves them, read at the TensorCore's references. -/
abbrev E3x : (c : Dev nD) → (b : Ref sig .tc) → Buf (Elt F) ((c : Thread nD τ).loc b) := fun c b => V4 m (outs m) c b
/-- The buffers as call 1 leaves them. -/
abbrev E8x : (c : Dev nD) → (b : Ref sig .tc) → Buf (Elt F) ((c : Thread nD τ).loc b) := fun c b => V9 m (outs m) c b

/-- Every window of call 0 but the last is an input window, and its array is not the output array. -/
theorem isIn0 : ∀ w : Fin cfg0.W, w ≠ 5 → (cfg0.win w).isOut = false := by decide
theorem arr_ne0 : ∀ w : Fin cfg0.W, w ≠ 5 → Pipeline.arrRef spec0 w ∉ ([main_v15] : List (Ref sig .tc)) := by decide

/-- At call 0's exit each of its arrays holds what the write-backs leave: the output array by construction, an input
    array what it held at entry. -/
theorem hF0 (c : Dev nD) (w : Fin cfg0.W) : (dat0 (E3 m) c).arrAt w cfg0.N = E3x m c (Pipeline.arrRef spec0 w) := by
  by_cases h5 : w = 5
  · subst h5
    show _ = Function.update (V3 m c) (Proc.devRef .tc main_v15) (outs m 4 main_v15 c) (Proc.devRef .tc main_v15)
    rw [Function.update_self, outs_4]
  · exact ((dat0 (E3 m) c).arrAt_in w (isIn0 w h5) _).trans ((A_eq0 (E3 m) c w).trans (V4_of m (outs m) c _ (arr_ne0 w h5)).symm)

theorem arrRef0_5 : Pipeline.arrRef spec0 (5 : Fin 6) = main_v15 := rfl
theorem hrest0 (c : Dev nD) : ∀ b, b ∉ Finset.univ.image (Pipeline.arrRef spec0) → E3x m c b = E3 m c b := by
  intro b hb
  have hne : b ∉ ([main_v15] : List (Ref sig .tc)) := fun h =>
    hb (Finset.mem_image.mpr ⟨(5 : Fin 6), Finset.mem_univ _, arrRef0_5.trans (List.mem_singleton.mp h).symm⟩)
  exact V4_of m (outs m) c b hne

theorem isIn1 : ∀ w : Fin cfg1.W, w ≠ 5 → (cfg1.win w).isOut = false := by decide
theorem arr_ne1 : ∀ w : Fin cfg1.W, w ≠ 5 → Pipeline.arrRef spec1 w ∉ ([main_v60] : List (Ref sig .tc)) := by decide

theorem hF1 (c : Dev nD) (w : Fin cfg1.W) : (dat1 (E8 m) c).arrAt w cfg1.N = E8x m c (Pipeline.arrRef spec1 w) := by
  by_cases h5 : w = 5
  · subst h5
    show _ = Function.update (V8 m (outs m) c) (Proc.devRef .tc main_v60) (outs m 9 main_v60 c) (Proc.devRef .tc main_v60)
    rw [Function.update_self, outs_9]
  · exact ((dat1 (E8 m) c).arrAt_in w (isIn1 w h5) _).trans ((A_eq1 (E8 m) c w).trans (V9_of m (outs m) c _ (arr_ne1 w h5)).symm)

theorem arrRef1_5 : Pipeline.arrRef spec1 (5 : Fin 6) = main_v60 := rfl
theorem hrest1 (c : Dev nD) : ∀ b, b ∉ Finset.univ.image (Pipeline.arrRef spec1) → E8x m c b = E8 m c b := by
  intro b hb
  have hne : b ∉ ([main_v60] : List (Ref sig .tc)) := fun h =>
    hb (Finset.mem_image.mpr ⟨(5 : Fin 6), Finset.mem_univ _, arrRef1_5.trans (List.mem_singleton.mp h).symm⟩)
  exact V9_of m (outs m) c b hne

/-! ## The bookkeeping family and what rides beside the buffers -/

/-- Both calls' records, each at its call's entry contents. -/
def pdats : (p : Fin 2) → (c : Dev nD) → Dat τ (Elt F) Unit ℕ (UR sig nD τ) ℕ (cfgs p) c
  | ⟨0, _⟩ => fun c => dat0 (E3 m) c
  | ⟨1, _⟩ => fun c => dat1 (E8 m) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev Ev : Fin 3 → Dev nD → sProp 𝕄 := fun _ c => R c

set_option backward.isDefEq.respectTransparency.types false in
/-- Pallas call 0 as a segment: entered with every unscoped buffer at `V3 m`, left with them at `V4 m (outs m)`. Its arrays are
    split out of the unscoped buffers on entry and put back, at what the write-backs left, on exit; the generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E3x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `V8 m (outs m)`, left with them at `V9 m (outs m)`. Its arrays are
    split out of the unscoped buffers on entry and put back, at what the write-backs left, on exit; the generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E8 m c) fun _ => rfl
    rw [Pipeline.unscopedBufs_held] at hsplit
    rw [← V8_outs m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E8 m c) (E8x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tlast (c : Dev nD) : sProp 𝕄 := iprop(StableHlo.held (c : Thread nD τ) (Pipeline.ucRefs τ sig) (V10 m (outs m) c) ∗ ∃ r, prngReg c r)

/-- The last host stretch leaves the buffers, the register and the (empty) debt: regrouped as the launch theorem wants. -/
theorem last_chain (c : Dev nD) :
    (iprop(StableHlo.held (c : Thread nD τ) (Pipeline.ucRefs τ sig) (V10 m (outs m) c) ∗ R c) : sProp 𝕄)
      ⊢ iprop(Tlast m c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- THE RUN: from any memory with zero counters every weakly fair execution of the program terminates, nothing
    faulting, and at the end every unscoped buffer holds what the fold computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ 𝒱₀ L lv m ρ main
    (segs m (outs m) 𝒱₀ L lv (Ev (F := F)) () (pdats m) (reg0 m) (reg1 m))
    (fun c Q => by
      rewrite [main_chain c, Seg.run_eq_chain,
        show (segs m (outs m) 𝒱₀ L lv (Ev (F := F)) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := Tlast m)
    (hch := fun c => ⟨.rfl, .rfl, .rfl, .rfl, .rfl, .rfl, .rfl, .rfl, .rfl, .rfl, last_chain m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun s h => h)

/-- THE FRAME, at any instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (V10_main_arg0 m (outs m) c),
     (h c _ (mem_uc main_arg1 (by decide))).trans (V10_main_arg1 m (outs m) c),
     (h c _ (mem_uc main_arg2 (by decide))).trans (V10_main_arg2 m (outs m) c),
     (h c _ (mem_uc main_arg3 (by decide))).trans (V10_main_arg3 m (outs m) c),
     (h c _ (mem_uc main_arg4 (by decide))).trans (V10_main_arg4 m (outs m) c),
     (h c _ (mem_uc main_arg5 (by decide))).trans (V10_main_arg5 m (outs m) c),
     (h c _ (mem_uc main_arg6 (by decide))).trans (V10_main_arg6 m (outs m) c),
     (h c _ (mem_uc main_arg7 (by decide))).trans (V10_main_arg7 m (outs m) c),
     (h c _ (mem_uc main_arg8 (by decide))).trans (V10_main_arg8 m (outs m) c),
     (h c _ (mem_uc main_arg9 (by decide))).trans (V10_main_arg9 m (outs m) c),
     (h c _ (mem_uc main_arg10 (by decide))).trans (V10_main_arg10 m (outs m) c),
     (h c _ (mem_uc main_arg11 (by decide))).trans (V10_main_arg11 m (outs m) c),
     (h c _ (mem_uc main_arg12 (by decide))).trans (V10_main_arg12 m (outs m) c)⟩) (run_all m ρ)

end Cert.KernelIdeal.Energy

end
-- ==== Proof.Spec.lean ====
/-
  The pair-energy function, stated once.

  For a pair at squared distance r² with Coulomb coefficient q and van der Waals coefficients a, b6, b10:
      Coulomb term        q · √(1/r²)
      van der Waals term  a · u · u − b6 · u − b10 · u · (1/r²) · (1/r²),   u = (1/r²)³
  (the 12-6 and 12-10 forms share the a/r¹² part).  A pass over a list of pairs returns the two totals; the program
  returns the four totals of its two passes as a vector of length four.  All arithmetic is on the extended reals; the
  float words for 1.0 and 0.0 are kept as words (the same words occur on both sides of the certificate).
-/
import Idealize.ShloMosaic.PureOps.Ideal
import Idealize.ShloMosaic.PureOps.Ideal.Laws
import Idealize.ShloMosaic.Lib.ValueIdx

noncomputable section

namespace Cert.PairEnergy

open Idealize.ShloMosaic

/-- The word of 1.0, read on the extended reals. -/
abbrev one : EReal := Ideal.ofBits .f32 0x3F800000#32
/-- The word of 0.0, read on the extended reals. -/
abbrev zero : EReal := Ideal.ofBits .f32 0x00000000#32

theorem zero_eq : zero = 0 := Ideal.ofBits_zero_f32

/-- 1/r². -/
def inv (r2 : EReal) : EReal := Ideal.div one r2

/-- The Coulomb term of one pair: q · √(1/r²). -/
def tc (r2 q : EReal) : EReal := q * Ideal.sqrt (inv r2)

/-- The van der Waals term of one pair. -/
def tv (r2 a b6 b10 : EReal) : EReal :=
  a * (inv r2 * inv r2 * inv r2) * (inv r2 * inv r2 * inv r2) - b6 * (inv r2 * inv r2 * inv r2)
    - b10 * (inv r2 * inv r2 * inv r2) * inv r2 * inv r2

/-- A total over an index set as a host reduction states it: the initial word 0.0 plus the sum. -/
def total {ι : Type} [Fintype ι] (f : ι → EReal) : EReal := zero + ∑ i, f i

theorem total_eq {ι : Type} [Fintype ι] (f : ι → EReal) : total f = ∑ i, f i := by
  unfold total; rw [zero_eq, zero_add]

abbrev S_ : Shape := ⟨0, ![]⟩
abbrev S1 : Shape := ⟨1, ![1]⟩
abbrev S4 : Shape := ⟨1, ![4]⟩

/-- Four scalars packed into a vector of length four, as both programs do it: each broadcast to length one, the four
    concatenated. -/
def pack (hb : S_.BroadcastsInDim S1 (![] : Fin 0 → Fin S1.rank)) (hc : Shape.Concatenates [S1, S1, S1, S1] S4 0)
    (e0 e1 e2 e3 : FVec Ideal S_ .f32) : FVec Ideal S4 .f32 :=
  concatenate S4 0 [⟨S1, broadcastInDim S1 ![] hb e0⟩, ⟨S1, broadcastInDim S1 ![] hb e1⟩, ⟨S1, broadcastInDim S1 ![] hb e2⟩,
    ⟨S1, broadcastInDim S1 ![] hb e3⟩] hc

end Cert.PairEnergy

end
-- ==== Proof.SpecR2.lean ====
/-
  The squared distance of a pair, stated once, and the index range the pair lists live in.

  A pair list gives, per pair, two row numbers into the coordinate table x : [100000, 3].  A negative row number counts
  from the end (100000 is added), the row is looked up, and the squared distance is the sum over the three
  coordinates of the squared difference.  The lookup is the host's row gather at start indices [n, 1].
-/
import proofs.«406529_j45191645888923_3_alg».proof.Proof.Spec

noncomputable section

namespace Cert.PairEnergy

open Idealize.ShloMosaic

abbrev Sx : Shape := ⟨2, ![100000, 3]⟩
abbrev Sn (n : ℕ) : Shape := ⟨1, ![n]⟩
abbrev Sn1 (n : ℕ) : Shape := ⟨2, ![n, 1]⟩
abbrev Sn3 (n : ℕ) : Shape := ⟨2, ![n, 3]⟩

/-- The start indices of the row lookup: a negative row number wrapped by adding 100000, then laid out as a column. -/
def starts {n : ℕ} (hb0 : S_.BroadcastsInDim (Sn n) (![] : Fin 0 → Fin (Sn n).rank))
    (hb1 : (Sn n).BroadcastsInDim (Sn1 n) (![0] : Fin 1 → Fin (Sn1 n).rank)) (p : IVec (Sn n) 32) : IVec (Sn1 n) 32 :=
  broadcastInDim (Sn1 n) ![0] hb1
    (select (cmpi .slt p (broadcastInDim (Sn n) ![] hb0 (constantI S_ 32 0#32)))
      (addi p (broadcastInDim (Sn n) ![] hb0 (constantI S_ 32 100000#32))) p)

/-- The rows of x the list p names. -/
def rowsOf {n : ℕ} (hb0 : S_.BroadcastsInDim (Sn n) (![] : Fin 0 → Fin (Sn n).rank))
    (hb1 : (Sn n).BroadcastsInDim (Sn1 n) (![0] : Fin 1 → Fin (Sn1 n).rank)) (D : GatherDims Sx (Sn1 n) (Sn3 n))
    (x : FVec Ideal Sx .f32) (p : IVec (Sn n) 32) : FVec Ideal (Sn3 n) .f32 :=
  Host.gather D x (starts hb0 hb1 p)

/-- The squared distances of the pairs (pi, pj): per pair, 0.0 plus the sum over the coordinates of (xᵢ − xⱼ)². -/
def r2of {n : ℕ} (hb0 : S_.BroadcastsInDim (Sn n) (![] : Fin 0 → Fin (Sn n).rank))
    (hb1 : (Sn n).BroadcastsInDim (Sn1 n) (![0] : Fin 1 → Fin (Sn1 n).rank)) (D : GatherDims Sx (Sn1 n) (Sn3 n))
    (hred : (Sn3 n).ReducesTo [1] (Sn n)) (hS : 0 < S_.numel)
    (x : FVec Ideal Sx .f32) (pi pj : IVec (Sn n) 32) : FVec Ideal (Sn n) .f32 :=
  Host.reduceAdd (mulf (subf (rowsOf hb0 hb1 D x pi) (rowsOf hb0 hb1 D x pj)) (subf (rowsOf hb0 hb1 D x pi) (rowsOf hb0 hb1 D x pj)))
    (constant S_ .f32 0x00000000#32) hred hS

/-- Every row number of the list lies in the table: 0 ≤ p < 100000, read as signed words. -/
def InRange {n : ℕ} (p : IVec (Sn n) 32) : Prop := ∀ i : (Sn n).Idx, 0 ≤ (p i).toInt ∧ (p i).toInt < 100000

end Cert.PairEnergy

end
-- ==== Proof.PairSums.lean ====
/-
  Sums of a per-pair term re-grouped the way the kernel walks the pair list.

  The kernel splits a list of N = 2·15·R·128 + T pairs into a tiled prefix and a tail of T pairs.  The prefix is read as
  an array [2, 15·R, 128]: half c, row ρ, lane l hold pair (c·15·R + ρ)·128 + l; rows come in fifteen blocks of R, so
  block k of half c holds rows k·R … k·R + R − 1.  Per half and lane the kernel keeps a running sum over the fifteen
  blocks of each block's column sum.  Over a commutative monoid all of this is one sum over the pairs.
-/
import Idealize.ShloMosaic.Lib.ValueIdx
import Mathlib.Algebra.BigOperators.Fin
import Mathlib.Algebra.BigOperators.Intervals

noncomputable section

namespace Cert.PairEnergy

open Idealize.ShloMosaic

variable {M : Type} [AddCommMonoid M]

/-- A rank-1 index set is its one coordinate's range. -/
private def idxEquiv1 {n : ℕ} : (⟨1, ![n]⟩ : Shape).Idx ≃ Fin n where
  toFun i := i 0
  invFun p := ValueIdx.ix1 p
  left_inv i := (ValueIdx.eq_ix1 i).symm
  right_inv _ := rfl

/-- A sum over a rank-1 index type is the sum over its one coordinate. -/
theorem sum_idx1 {n : ℕ} (f : (⟨1, ![n]⟩ : Shape).Idx → M) : ∑ i, f i = ∑ p : Fin n, f (ValueIdx.ix1 p) :=
  (Equiv.sum_comp (idxEquiv1 (n := n)).symm f).symm

/-- The running sum as the kernel keeps it: start from `z` plus block 0, then add block after block. -/
def runSum (z : M) (f : ℕ → M) : ℕ → M
  | 0 => z + f 0
  | n + 1 => runSum z f n + f (n + 1)

/-- From zero, the running sum after block n is the sum of blocks 0 … n. -/
theorem runSum_zero (f : ℕ → M) (n : ℕ) : runSum 0 f n = ∑ k ∈ Finset.range (n + 1), f k := by
  induction n with
  | zero => rw [runSum, zero_add, Finset.sum_range_one]
  | succ n ih => rw [runSum, ih, Finset.sum_range_succ _ (n + 1)]

/-- After the fifteenth block: the sum over the fifteen blocks. -/
theorem runSum_fifteen (f : ℕ → M) : runSum 0 f 14 = ∑ k : Fin 15, f k.val := by
  rw [runSum_zero, Fin.sum_univ_eq_sum_range]

/-- A sum over a·b consecutive naturals, cut into a runs of b: position i·b + j is place j of run i. -/
private theorem sum_fin_mul (a b : ℕ) (h : ℕ → M) :
    ∑ p : Fin (a * b), h p.val = ∑ i : Fin a, ∑ j : Fin b, h (i.val * b + j.val) := by
  rw [← Equiv.sum_comp finProdFinEquiv, Fintype.sum_prod_type]
  refine Finset.sum_congr rfl fun i _ => Finset.sum_congr rfl fun j _ => ?_
  rw [finProdFinEquiv_apply_val, Nat.mul_comm, Nat.add_comm]

/-- THE SPLIT: the tiled prefix summed half by half, lane by lane, block by block, row by row, plus the tail, is the sum
    over all the pairs. -/
theorem sum_split (R T : ℕ) (g : ℕ → M) :
    (∑ c : Fin 2, ∑ l : Fin 128, ∑ k : Fin 15, ∑ r : Fin R, g (((c.val * 15 + k.val) * R + r.val) * 128 + l.val))
      + ∑ q : Fin T, g (2 * 15 * R * 128 + q.val)
    = ∑ p : Fin (2 * 15 * R * 128 + T), g p.val := by
  rw [Fin.sum_univ_add]
  -- the tail, position 2·15·R·128 + q, already stands as stated; what is left is the prefix
  congr 1
  -- the prefix: cut the 2·15·R·128 positions into rows of 128, the rows into blocks of R, the blocks into halves of 15,
  -- then carry the lane sum outward past the rows and the blocks
  simp only [Fin.coe_castAdd]
  rw [sum_fin_mul (2 * 15 * R) 128 g,
    sum_fin_mul (2 * 15) R (fun n => ∑ l : Fin 128, g (n * 128 + l.val)),
    sum_fin_mul 2 15 (fun n => ∑ r : Fin R, ∑ l : Fin 128, g ((n * R + r.val) * 128 + l.val))]
  refine Finset.sum_congr rfl fun c _ => ?_
  rw [Finset.sum_comm]
  refine Finset.sum_congr rfl fun k _ => ?_
  rw [Finset.sum_comm]

end Cert.PairEnergy

end
-- ==== Proof.IdealHost.lean ====
/-
  The pair-energy program on the extended reals: its result, read back through the host operations around the calls.

  Each pass returns two totals.  A total is the sum, over the two halves and the 128 lanes, of the row the Pallas call
  left in its output array, plus the host's own total over the tail of the pair list the tiles do not reach; the four
  totals are packed into a vector of length four.
-/
import proofs.«406529_j45191645888923_3_alg».proof.Proof.IdealRun
import proofs.«406529_j45191645888923_3_alg».proof.Proof.SpecR2
import proofs.«406529_j45191645888923_3_alg».proof.Proof.PairSums
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Energy

open Cert.KernelIdeal Cert.KernelIdeal.Gen
open Idealize.ShloMosaic Idealize.ShloMosaic.TcCoe Idealize.ShloMosaic.ValueIdx Idealize.SL.Sem Idealize.ShloMosaic.StableHlo
open Cert.PairEnergy (tc tv zero total pack r2of InRange)

variable (m : (ℓ : Loc nD τ sig) → Buf (Elt Ideal) ℓ) (c0 : Dev nD)

/-- The pair at place q of the first pass's tail. -/
def tl8 (q : Fin 135680) : Fin 8000000 := ⟨7864320 + q.val, by omega⟩
/-- The pair at place q of the second pass's tail. -/
def tl5 (q : Fin 8480) : Fin 500000 := ⟨491520 + q.val, by omega⟩

/-- The calls' output arrays and the squared-distance arrays the program computed, at their literal types. -/
abbrev A0 : Vec Ideal S2x2x128 .f32 := outs m 4 main_v15 c0
abbrev A1 : Vec Ideal S2x2x128 .f32 := outs m 9 main_v60 c0
abbrev R8 : FVec Ideal S8000000 .f32 := V3 m c0 main_v4
abbrev R5 : FVec Ideal S500000 .f32 := V8 m (outs m) c0 main_v49

/-! ## Reading the layout operations at an index -/

section Layout
variable {α : Type}

/-- Row o of a [2, 2, 128] array, cut out and flattened to [2, 128], reads at (c, l) the array at (c, o, l). -/
theorem row_apply (o : ℕ) (h : S2x2x128.Slices ![0, o, 0] S2x1x128) (r : Fin 2) (hr : r.val = o)
    (A : S2x2x128.Idx → α) (c : Fin 2) (l : Fin 128) :
    shapeCast S2x128 (extractStridedSlice S2x1x128 ![0, o, 0] A h) shapeCasts_S2x1x128_S2x128 (ix2 c l) = A (ix3 c r l) := by
  rw [shapeCast_apply _ shapeCasts_S2x1x128_S2x128 (ix2 c l) (ix3 c (0 : Fin 1) l) (by
    rw [Shape.rowMajor_val_three, Shape.rowMajor_val_two]
    show (c.val * 1 + 0) * 128 + l.val = c.val * 128 + l.val
    omega)]
  exact slice3_axis1_apply o A h c (0 : Fin 1) l r (by rw [hr]; rfl)

/-- The tail of a list from place off on reads at q the list at off + q. -/
theorem tail_apply {N n : ℕ} (off : ℕ) (h : (⟨1, ![N]⟩ : Shape).Slices ![off] ⟨1, ![n]⟩) (X : (⟨1, ![N]⟩ : Shape).Idx → α)
    (q : Fin n) (k : Fin N) (hk : k.val = off + q.val) :
    extractStridedSlice ⟨1, ![n]⟩ ![off] X h (ix1 q) = X (ix1 k) :=
  extractStridedSlice_apply _ _ _ _ _ (fun a => by match a with | ⟨0, _⟩ => exact hk)

end Layout

/-! ## The host's totals -/

/-- The total over a [2, 128] array: the initial word 0.0 plus the sum over halves and lanes. -/
theorem total2 (x : FVec Ideal S2x128 .f32) (i : S_.Idx) :
    Host.reduceAdd x (constant S_ .f32 0x00000000#32) reducesTo_S2x128_S_d0_1 h_S_ i
      = zero + ∑ c : Fin 2, ∑ l : Fin 128, x (ix2 c l) := by
  simp only [Host.reduceAdd, Ideal.hostReduceAdd_def]
  rw [Ideal.hostReduceAdd_total reducesTo_S2x128_S_d0_1 (fun b => b.elim0) x _ i, sum_idx2]
  rfl

/-- The total over a list: the initial word 0.0 plus the sum over its places. -/
theorem total1 {n : ℕ} (hr : (⟨1, ![n]⟩ : Shape).ReducesTo [0] S_) (x : FVec Ideal ⟨1, ![n]⟩ .f32) (i : S_.Idx) :
    Host.reduceAdd x (constant S_ .f32 0x00000000#32) hr h_S_ i = zero + ∑ q : Fin n, x (ix1 q) := by
  simp only [Host.reduceAdd, Ideal.hostReduceAdd_def]
  rw [Ideal.hostReduceAdd_total hr (fun b => b.elim0) x _ i, Cert.PairEnergy.sum_idx1]
  rfl

/-! ## The per-pair terms as the host computes them -/

section Terms
variable {n : ℕ} (hb : S_.BroadcastsInDim (⟨1, ![n]⟩ : Shape) (![] : Fin 0 → Fin (⟨1, ![n]⟩ : Shape).rank))

/-- 1/r² as the host computes it: the word 1.0 broadcast, divided by r². -/
theorem inv_apply (r : FVec Ideal ⟨1, ![n]⟩ .f32) (j : (⟨1, ![n]⟩ : Shape).Idx) :
    Host.divf (broadcastInDim ⟨1, ![n]⟩ ![] hb (constant S_ .f32 0x3F800000#32)) r j = Cert.PairEnergy.inv (r j) := rfl

/-- The Coulomb term: q · √(1/r²). -/
theorem tc_apply (r q : FVec Ideal ⟨1, ![n]⟩ .f32) (j : (⟨1, ![n]⟩ : Shape).Idx) :
    mulf q (Host.sqrt (Host.divf (broadcastInDim ⟨1, ![n]⟩ ![] hb (constant S_ .f32 0x3F800000#32)) r)) j
      = tc (r j) (q j) := rfl

/-- The van der Waals term, with u = (1/r²)³: a·u·u − b6·u − b10·u·(1/r²)·(1/r²). -/
theorem tv_apply (r a b6 b10 : FVec Ideal ⟨1, ![n]⟩ .f32) (j : (⟨1, ![n]⟩ : Shape).Idx) :
    subf
      (subf
        (mulf (mulf a (mulf (mulf (Host.divf (broadcastInDim ⟨1, ![n]⟩ ![] hb (constant S_ .f32 0x3F800000#32)) r) (Host.divf (broadcastInDim ⟨1, ![n]⟩ ![] hb (constant S_ .f32 0x3F800000#32)) r)) (Host.divf (broadcastInDim ⟨1, ![n]⟩ ![] hb (constant S_ .f32 0x3F800000#32)) r)))
          (mulf (mulf (Host.divf (broadcastInDim ⟨1, ![n]⟩ ![] hb (constant S_ .f32 0x3F800000#32)) r) (Host.divf (broadcastInDim ⟨1, ![n]⟩ ![] hb (constant S_ .f32 0x3F800000#32)) r)) (Host.divf (broadcastInDim ⟨1, ![n]⟩ ![] hb (constant S_ .f32 0x3F800000#32)) r)))
        (mulf b6 (mulf (mulf (Host.divf (broadcastInDim ⟨1, ![n]⟩ ![] hb (constant S_ .f32 0x3F800000#32)) r) (Host.divf (broadcastInDim ⟨1, ![n]⟩ ![] hb (constant S_ .f32 0x3F800000#32)) r)) (Host.divf (broadcastInDim ⟨1, ![n]⟩ ![] hb (constant S_ .f32 0x3F800000#32)) r))))
      (mulf (mulf (mulf b10 (mulf (mulf (Host.divf (broadcastInDim ⟨1, ![n]⟩ ![] hb (constant S_ .f32 0x3F800000#32)) r) (Host.divf (broadcastInDim ⟨1, ![n]⟩ ![] hb (constant S_ .f32 0x3F800000#32)) r)) (Host.divf (broadcastInDim ⟨1, ![n]⟩ ![] hb (constant S_ .f32 0x3F800000#32)) r)))
          (Host.divf (broadcastInDim ⟨1, ![n]⟩ ![] hb (constant S_ .f32 0x3F800000#32)) r))
        (Host.divf (broadcastInDim ⟨1, ![n]⟩ ![] hb (constant S_ .f32 0x3F800000#32)) r)) j
      = tv (r j) (a j) (b6 j) (b10 j) := rfl

end Terms

/-! ## One total of one pass: the call's row summed, plus the host's total over the tail -/

section Scalars
variable {N n : ℕ} (o : ℕ) (hs : S2x2x128.Slices ![0, o, 0] S2x1x128) (r : Fin 2) (hr : r.val = o)
  (off : ℕ) (h : (⟨1, ![N]⟩ : Shape).Slices ![off] ⟨1, ![n]⟩)
  (hb : S_.BroadcastsInDim (⟨1, ![n]⟩ : Shape) (![] : Fin 0 → Fin (⟨1, ![n]⟩ : Shape).rank))
  (hred : (⟨1, ![n]⟩ : Shape).ReducesTo [0] S_) (t : Fin n → Fin N) (ht : ∀ q, (t q).val = off + q.val)
  (A : FVec Ideal S2x2x128 .f32)

include hr ht in
/-- The Coulomb total. -/
theorem coulomb_scalar (R Q : FVec Ideal ⟨1, ![N]⟩ .f32) :
    addf
      (Host.reduceAdd (fun i => shapeCast S2x128 (extractStridedSlice S2x1x128 ![0, o, 0] A hs) shapeCasts_S2x1x128_S2x128 i)
        (constant S_ .f32 0x00000000#32) reducesTo_S2x128_S_d0_1 h_S_)
      (Host.reduceAdd
        (mulf (extractStridedSlice ⟨1, ![n]⟩ ![off] Q h)
          (Host.sqrt (Host.divf (broadcastInDim ⟨1, ![n]⟩ ![] hb (constant S_ .f32 0x3F800000#32)) (extractStridedSlice ⟨1, ![n]⟩ ![off] R h))))
        (constant S_ .f32 0x00000000#32) hred h_S_)
    = fun _ => (zero + ∑ c : Fin 2, ∑ l : Fin 128, A (ix3 c r l)) + (zero + ∑ q : Fin n, tc (R (ix1 (t q))) (Q (ix1 (t q)))) := by
  funext i
  rw [addf_apply, total2, total1]
  refine congrArg₂ (· + ·) (congrArg (zero + ·) ?_) (congrArg (zero + ·) ?_)
  · exact Finset.sum_congr rfl fun c _ => Finset.sum_congr rfl fun l _ => row_apply o hs r hr A c l
  · refine Finset.sum_congr rfl fun q _ => ?_
    rw [tc_apply, tail_apply off h R q (t q) (ht q), tail_apply off h Q q (t q) (ht q)]

include hr ht in
/-- The van der Waals total. -/
theorem vdw_scalar (R Ca C6 C10 : FVec Ideal ⟨1, ![N]⟩ .f32) :
    addf
      (Host.reduceAdd (fun i => shapeCast S2x128 (extractStridedSlice S2x1x128 ![0, o, 0] A hs) shapeCasts_S2x1x128_S2x128 i)
        (constant S_ .f32 0x00000000#32) reducesTo_S2x128_S_d0_1 h_S_)
      (Host.reduceAdd
        (subf
          (subf
            (mulf (mulf (extractStridedSlice ⟨1, ![n]⟩ ![off] Ca h) (mulf (mulf (Host.divf (broadcastInDim ⟨1, ![n]⟩ ![] hb (constant S_ .f32 0x3F800000#32)) (extractStridedSlice ⟨1, ![n]⟩ ![off] R h)) (Host.divf (broadcastInDim ⟨1, ![n]⟩ ![] hb (constant S_ .f32 0x3F800000#32)) (extractStridedSlice ⟨1, ![n]⟩ ![off] R h))) (Host.divf (broadcastInDim ⟨1, ![n]⟩ ![] hb (constant S_ .f32 0x3F800000#32)) (extractStridedSlice ⟨1, ![n]⟩ ![off] R h))))
              (mulf (mulf (Host.divf (broadcastInDim ⟨1, ![n]⟩ ![] hb (constant S_ .f32 0x3F800000#32)) (extractStridedSlice ⟨1, ![n]⟩ ![off] R h)) (Host.divf (broadcastInDim ⟨1, ![n]⟩ ![] hb (constant S_ .f32 0x3F800000#32)) (extractStridedSlice ⟨1, ![n]⟩ ![off] R h))) (Host.divf (broadcastInDim ⟨1, ![n]⟩ ![] hb (constant S_ .f32 0x3F800000#32)) (extractStridedSlice ⟨1, ![n]⟩ ![off] R h))))
            (mulf (extractStridedSlice ⟨1, ![n]⟩ ![off] C6 h) (mulf (mulf (Host.divf (broadcastInDim ⟨1, ![n]⟩ ![] hb (constant S_ .f32 0x3F800000#32)) (extractStridedSlice ⟨1, ![n]⟩ ![off] R h)) (Host.divf (broadcastInDim ⟨1, ![n]⟩ ![] hb (constant S_ .f32 0x3F800000#32)) (extractStridedSlice ⟨1, ![n]⟩ ![off] R h))) (Host.divf (broadcastInDim ⟨1, ![n]⟩ ![] hb (constant S_ .f32 0x3F800000#32)) (extractStridedSlice ⟨1, ![n]⟩ ![off] R h)))))
          (mulf (mulf (mulf (extractStridedSlice ⟨1, ![n]⟩ ![off] C10 h) (mulf (mulf (Host.divf (broadcastInDim ⟨1, ![n]⟩ ![] hb (constant S_ .f32 0x3F800000#32)) (extractStridedSlice ⟨1, ![n]⟩ ![off] R h)) (Host.divf (broadcastInDim ⟨1, ![n]⟩ ![] hb (constant S_ .f32 0x3F800000#32)) (extractStridedSlice ⟨1, ![n]⟩ ![off] R h))) (Host.divf (broadcastInDim ⟨1, ![n]⟩ ![] hb (constant S_ .f32 0x3F800000#32)) (extractStridedSlice ⟨1, ![n]⟩ ![off] R h))))
              (Host.divf (broadcastInDim ⟨1, ![n]⟩ ![] hb (constant S_ .f32 0x3F800000#32)) (extractStridedSlice ⟨1, ![n]⟩ ![off] R h)))
            (Host.divf (broadcastInDim ⟨1, ![n]⟩ ![] hb (constant S_ .f32 0x3F800000#32)) (extractStridedSlice ⟨1, ![n]⟩ ![off] R h))))
        (constant S_ .f32 0x00000000#32) hred h_S_)
    = fun _ => (zero + ∑ c : Fin 2, ∑ l : Fin 128, A (ix3 c r l))
        + (zero + ∑ q : Fin n, tv (R (ix1 (t q))) (Ca (ix1 (t q))) (C6 (ix1 (t q))) (C10 (ix1 (t q)))) := by
  funext i
  rw [addf_apply, total2, total1]
  refine congrArg₂ (· + ·) (congrArg (zero + ·) ?_) (congrArg (zero + ·) ?_)
  · exact Finset.sum_congr rfl fun c _ => Finset.sum_congr rfl fun l _ => row_apply o hs r hr A c l
  · refine Finset.sum_congr rfl fun q _ => ?_
    rw [tv_apply, tail_apply off h R q (t q) (ht q), tail_apply off h Ca q (t q) (ht q),
      tail_apply off h C6 q (t q) (ht q), tail_apply off h C10 q (t q) (ht q)]

end Scalars

/-! ## The launch arguments and the arrays the stretches read, carried through the run -/

/-- An argument no stretch writes holds its launch contents when the first pass's host stretch reads it. -/
theorem arg_at4 (r : Ref sig .tc) (h4 : r ∉ ([main_v15] : List (Ref sig .tc))) (h3 : r ∉ hostOps0_2_W) (h2 : r ∉ hostOps0_1_W)
    (h1 : r ∉ hostOps0_W) : V4 m (outs m) c0 r = m ((c0 : Thread nD τ).loc r) :=
  (V4_of m (outs m) c0 r h4).trans ((V3_of m c0 r h3).trans ((V2_of m c0 r h2).trans (V1_of m c0 r h1)))

/-- What the first pass's host stretch leaves in a buffer no later item writes is still there when the last stretch reads it. -/
theorem at9_of5 (r : Ref sig .tc) (h9 : r ∉ ([main_v60] : List (Ref sig .tc))) (h8 : r ∉ hostOps1_3_W) (h7 : r ∉ hostOps1_2_W)
    (h6 : r ∉ hostOps1_1_W) : V9 m (outs m) c0 r = V5 m (outs m) c0 r :=
  (V9_of m (outs m) c0 r h9).trans ((V8_of m (outs m) c0 r h8).trans ((V7_of m (outs m) c0 r h7).trans (V6_of m (outs m) c0 r h6)))

/-- An argument no stretch writes holds its launch contents when the last stretch reads it. -/
theorem arg_at9 (r : Ref sig .tc) (h9 : r ∉ ([main_v60] : List (Ref sig .tc))) (h8 : r ∉ hostOps1_3_W) (h7 : r ∉ hostOps1_2_W)
    (h6 : r ∉ hostOps1_1_W) (h5 : r ∉ hostOps1_W) (h4 : r ∉ ([main_v15] : List (Ref sig .tc))) (h3 : r ∉ hostOps0_2_W)
    (h2 : r ∉ hostOps0_1_W) (h1 : r ∉ hostOps0_W) : V9 m (outs m) c0 r = m ((c0 : Thread nD τ).loc r) :=
  (at9_of5 m c0 r h9 h8 h7 h6).trans ((V5_of m (outs m) c0 r h5).trans (arg_at4 m c0 r h4 h3 h2 h1))

/-! ## The four totals -/

theorem v43_eq : (V5 m (outs m) c0 main_v43 : FVec Ideal S_ .f32) = fun _ =>
    (zero + ∑ c : Fin 2, ∑ l : Fin 128, (A0 m c0 (ix3 c (0 : Fin 2) l) : EReal))
      + (zero + ∑ q : Fin 135680, tc (R8 m c0 (ix1 (tl8 q))) ((m ((c0 : Thread nD τ).loc main_arg3)) (ix1 (tl8 q)))) := by
  show StableHlo.after hostOps1 (V4 m (outs m) c0) (Proc.devRef .tc main_v43) = _
  after_results_simp
  have hA : V4 m (outs m) c0 (Proc.devRef .tc main_v15) = A0 m c0 := Function.update_self _ _ _
  have hR : V4 m (outs m) c0 (Proc.devRef .tc main_v4) = R8 m c0 := V4_of m (outs m) c0 main_v4 (by decide)
  rw [hA, hR, arg_at4 m c0 main_arg3 (by decide) (by decide) (by decide) (by decide)]
  exact coulomb_scalar 0 _ 0 rfl 7864320 _ _ _ tl8 (fun q => rfl) _ _ _

theorem v44_eq : (V5 m (outs m) c0 main_v44 : FVec Ideal S_ .f32) = fun _ =>
    (zero + ∑ c : Fin 2, ∑ l : Fin 128, (A0 m c0 (ix3 c (1 : Fin 2) l) : EReal))
      + (zero + ∑ q : Fin 135680, tv (R8 m c0 (ix1 (tl8 q))) ((m ((c0 : Thread nD τ).loc main_arg4)) (ix1 (tl8 q)))
          ((m ((c0 : Thread nD τ).loc main_arg5)) (ix1 (tl8 q))) ((m ((c0 : Thread nD τ).loc main_arg6)) (ix1 (tl8 q)))) := by
  show StableHlo.after hostOps1 (V4 m (outs m) c0) (Proc.devRef .tc main_v44) = _
  after_results_simp
  have hA : V4 m (outs m) c0 (Proc.devRef .tc main_v15) = A0 m c0 := Function.update_self _ _ _
  have hR : V4 m (outs m) c0 (Proc.devRef .tc main_v4) = R8 m c0 := V4_of m (outs m) c0 main_v4 (by decide)
  rw [hA, hR, arg_at4 m c0 main_arg4 (by decide) (by decide) (by decide) (by decide),
    arg_at4 m c0 main_arg5 (by decide) (by decide) (by decide) (by decide),
    arg_at4 m c0 main_arg6 (by decide) (by decide) (by decide) (by decide)]
  exact vdw_scalar 1 _ 1 rfl 7864320 _ _ _ tl8 (fun q => rfl) _ _ _ _ _

/-! ## The packed result -/

/-- The last operation's result: its four operands' contents concatenated. -/
theorem concat_result (V : Valuation τ sig (Elt Ideal)) (hxs) (hy) :
    (StableHlo.nary (τ := τ) ![main_v90, main_v91, main_v92, main_v93] main_v94
        (fun u => concatenate S4 0 [⟨S1, u 0⟩, ⟨S1, u 1⟩, ⟨S1, u 2⟩, ⟨S1, u 3⟩] concatenates_S1_S1_S1_S1_S4_d0) hxs hy).result V
        (Proc.devRef .tc main_v94)
      = concatenate S4 0 [⟨S1, V (Proc.devRef .tc main_v90)⟩, ⟨S1, V (Proc.devRef .tc main_v91)⟩,
          ⟨S1, V (Proc.devRef .tc main_v92)⟩, ⟨S1, V (Proc.devRef .tc main_v93)⟩] concatenates_S1_S1_S1_S1_S4_d0 :=
  nary_result _ _ _ hxs hy V

/-- Packing respects equality of the four scalars. -/
theorem pack_congr {hb : S_.BroadcastsInDim S1 (![] : Fin 0 → Fin S1.rank)} {hc : Shape.Concatenates [S1, S1, S1, S1] S4 0}
    {e0 e1 e2 e3 e0' e1' e2' e3' : FVec Ideal S_ .f32} (h0 : e0 = e0') (h1 : e1 = e1') (h2 : e2 = e2') (h3 : e3 = e3') :
    pack hb hc e0 e1 e2 e3 = pack hb hc e0' e1' e2' e3' := by rw [h0, h1, h2, h3]

/-- The last five operations, from any contents W: the four totals W holds, each broadcast to length one, concatenated. -/
theorem tail_ops (W : Valuation τ sig (Elt Ideal)) (a1 a2 b1 b2 c1 c2 d1 d2 e1 e2) :
    (StableHlo.nary (τ := τ) ![main_v90, main_v91, main_v92, main_v93] main_v94
        (fun u => concatenate S4 0 [⟨S1, u 0⟩, ⟨S1, u 1⟩, ⟨S1, u 2⟩, ⟨S1, u 3⟩] concatenates_S1_S1_S1_S1_S4_d0) e1 e2).result
      ((StableHlo.unary main_v89 main_v93 (broadcastInDim S1 ![] bcast_S_S1 : (⟨S_, .f32⟩ : BufTy).Contents (Elt Ideal) → (⟨S1, .f32⟩ : BufTy).Contents (Elt Ideal)) d1 d2).result
      ((StableHlo.unary main_v88 main_v92 (broadcastInDim S1 ![] bcast_S_S1 : (⟨S_, .f32⟩ : BufTy).Contents (Elt Ideal) → (⟨S1, .f32⟩ : BufTy).Contents (Elt Ideal)) c1 c2).result
      ((StableHlo.unary main_v44 main_v91 (broadcastInDim S1 ![] bcast_S_S1 : (⟨S_, .f32⟩ : BufTy).Contents (Elt Ideal) → (⟨S1, .f32⟩ : BufTy).Contents (Elt Ideal)) b1 b2).result
      ((StableHlo.unary main_v43 main_v90 (broadcastInDim S1 ![] bcast_S_S1 : (⟨S_, .f32⟩ : BufTy).Contents (Elt Ideal) → (⟨S1, .f32⟩ : BufTy).Contents (Elt Ideal)) a1 a2).result W))))
      (Proc.devRef .tc main_v94)
    = pack bcast_S_S1 concatenates_S1_S1_S1_S1_S4_d0 (W (Proc.devRef .tc main_v43)) (W (Proc.devRef .tc main_v44))
        (W (Proc.devRef .tc main_v88)) (W (Proc.devRef .tc main_v89)) := by
  rw [concat_result]
  repeat (first
    | rw [unary_result]
    | (rw [unary_result_ne]; rotate_left; decide))
  rfl

/-- THE RESULT of the run: the four totals packed; each the call's output array summed over halves and lanes plus the
    host's total over the tail. -/
theorem kernel_result :
    V10 m (outs m) c0 main_v94 = pack bcast_S_S1 concatenates_S1_S1_S1_S1_S4_d0
      (fun _ => (zero + ∑ c : Fin 2, ∑ l : Fin 128, (A0 m c0 (ix3 c (0 : Fin 2) l) : EReal))
        + (zero + ∑ q : Fin 135680, tc (R8 m c0 (ix1 (tl8 q))) ((m ((c0 : Thread nD τ).loc main_arg3)) (ix1 (tl8 q)))))
      (fun _ => (zero + ∑ c : Fin 2, ∑ l : Fin 128, (A0 m c0 (ix3 c (1 : Fin 2) l) : EReal))
        + (zero + ∑ q : Fin 135680, tv (R8 m c0 (ix1 (tl8 q))) ((m ((c0 : Thread nD τ).loc main_arg4)) (ix1 (tl8 q))) ((m ((c0 : Thread nD τ).loc main_arg5)) (ix1 (tl8 q))) ((m ((c0 : Thread nD τ).loc main_arg6)) (ix1 (tl8 q)))))
      (fun _ => (zero + ∑ c : Fin 2, ∑ l : Fin 128, (A1 m c0 (ix3 c (0 : Fin 2) l) : EReal))
        + (zero + ∑ q : Fin 8480, tc (R5 m c0 (ix1 (tl5 q))) ((m ((c0 : Thread nD τ).loc main_arg9)) (ix1 (tl5 q)))))
      (fun _ => (zero + ∑ c : Fin 2, ∑ l : Fin 128, (A1 m c0 (ix3 c (1 : Fin 2) l) : EReal))
        + (zero + ∑ q : Fin 8480, tv (R5 m c0 (ix1 (tl5 q))) ((m ((c0 : Thread nD τ).loc main_arg10)) (ix1 (tl5 q))) ((m ((c0 : Thread nD τ).loc main_arg11)) (ix1 (tl5 q))) ((m ((c0 : Thread nD τ).loc main_arg12)) (ix1 (tl5 q))))) := by
  show StableHlo.after hostOps2 (V9 m (outs m) c0) (Proc.devRef .tc main_v94) = _
  simp only [after_cons, after_nil]
  have hA : V9 m (outs m) c0 (Proc.devRef .tc main_v60) = A1 m c0 := Function.update_self _ _ _
  have hR : V9 m (outs m) c0 (Proc.devRef .tc main_v49) = R5 m c0 := V9_of m (outs m) c0 main_v49 (by decide)
  refine (tail_ops _ _ _ _ _ _ _ _ _ _ _).trans (pack_congr ?_ ?_ ?_ ?_)
  · after_results_simp
    exact (at9_of5 m c0 main_v43 (by decide) (by decide) (by decide) (by decide)).trans (v43_eq m c0)
  · after_results_simp
    exact (at9_of5 m c0 main_v44 (by decide) (by decide) (by decide) (by decide)).trans (v44_eq m c0)
  · after_results_simp
    rw [hA, hR, arg_at9 m c0 main_arg9 (by decide) (by decide) (by decide) (by decide) (by decide) (by decide) (by decide)
      (by decide) (by decide)]
    exact coulomb_scalar 0 _ 0 rfl 491520 _ _ _ tl5 (fun q => rfl) _ _ _
  · after_results_simp
    rw [hA, hR, arg_at9 m c0 main_arg10 (by decide) (by decide) (by decide) (by decide) (by decide) (by decide) (by decide)
      (by decide) (by decide),
      arg_at9 m c0 main_arg11 (by decide) (by decide) (by decide) (by decide) (by decide) (by decide) (by decide)
      (by decide) (by decide),
      arg_at9 m c0 main_arg12 (by decide) (by decide) (by decide) (by decide) (by decide) (by decide) (by decide)
      (by decide) (by decide)]
    exact vdw_scalar 1 _ 1 rfl 491520 _ _ _ tl5 (fun q => rfl) _ _ _ _ _

end Cert.KernelIdeal.Energy

end
-- ==== Proof.IdealInputs.lean ====
/-
  The pair-energy program on the extended reals: what its Pallas calls are handed.

  Each call's five input arrays are the first 2·15·R·128 entries of a per-pair array (the squared distances and the four
  coefficient arrays) viewed as [2, 15·R, 128]: entry (c, ρ, l) of the view is pair (c·15·R + ρ)·128 + l.  The squared
  distances are computed on the host from the coordinate table and the two index lists; with every index in the
  table's range the lookup's out-of-range mask is all ones and the lookup is the plain row gather.
-/
import proofs.«406529_j45191645888923_3_alg».proof.Proof.IdealRun
import proofs.«406529_j45191645888923_3_alg».proof.Proof.SpecR2
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll

set_option maxRecDepth 16384

noncomputable section

namespace Cert.KernelIdeal.Energy

open Cert.KernelIdeal Cert.KernelIdeal.Gen
open Idealize.ShloMosaic Idealize.ShloMosaic.TcCoe Idealize.ShloMosaic.ValueIdx Idealize.SL.Sem Idealize.ShloMosaic.StableHlo
open Cert.PairEnergy (tc tv zero total pack r2of InRange)

variable (m : (ℓ : Loc nD τ sig) → Buf (Elt Ideal) ℓ) (c0 : Dev nD)

/-- The pair at entry (c, ρ, l) of the first call's view [2, 30720, 128]. -/
def pre8 (c : Fin 2) (ρ : Fin 30720) (l : Fin 128) : Fin 8000000 := ⟨(c.val * 30720 + ρ.val) * 128 + l.val, by omega⟩
/-- The pair at entry (c, ρ, l) of the second call's view [2, 1920, 128]. -/
def pre5 (c : Fin 2) (ρ : Fin 1920) (l : Fin 128) : Fin 500000 := ⟨(c.val * 1920 + ρ.val) * 128 + l.val, by omega⟩

/-- Entry (c, ρ, l) of the view [2, 30720, 128] of the first 7,864,320 entries of a list of 8,000,000 entries is
    entry (c·30720 + ρ)·128 + l of the list. -/
private theorem view8_apply (x : FVec Ideal S8000000 .f32) (c : Fin 2) (ρ : Fin 30720) (l : Fin 128) :
    shapeCast S2x30720x128 (extractStridedSlice S7864320 ![0] x slices_S8000000_S7864320_0) shapeCasts_S7864320_S2x30720x128
        (ix3 c ρ l) = x (ix1 (pre8 c ρ l)) := by
  refine (shapeCast_apply _ shapeCasts_S7864320_S2x30720x128 (ix3 c ρ l)
    (ix1 (⟨(c.val * 30720 + ρ.val) * 128 + l.val, by omega⟩ : Fin 7864320)) ?_).trans ?_
  · rw [Shape.rowMajor_val_one, Shape.rowMajor_val_three]; rfl
  · refine extractStridedSlice_apply ![0] x slices_S8000000_S7864320_0 _ (ix1 (pre8 c ρ l)) fun a => ?_
    match a with
    | ⟨0, _⟩ => show (c.val * 30720 + ρ.val) * 128 + l.val = 0 + ((c.val * 30720 + ρ.val) * 128 + l.val); omega

/-- The same for the view [2, 1920, 128] of the first 491,520 entries of a list of 500,000 entries. -/
private theorem view5_apply (x : FVec Ideal S500000 .f32) (c : Fin 2) (ρ : Fin 1920) (l : Fin 128) :
    shapeCast S2x1920x128 (extractStridedSlice S491520 ![0] x slices_S500000_S491520_0) shapeCasts_S491520_S2x1920x128
        (ix3 c ρ l) = x (ix1 (pre5 c ρ l)) := by
  refine (shapeCast_apply _ shapeCasts_S491520_S2x1920x128 (ix3 c ρ l)
    (ix1 (⟨(c.val * 1920 + ρ.val) * 128 + l.val, by omega⟩ : Fin 491520)) ?_).trans ?_
  · rw [Shape.rowMajor_val_one, Shape.rowMajor_val_three]; rfl
  · refine extractStridedSlice_apply ![0] x slices_S500000_S491520_0 _ (ix1 (pre5 c ρ l)) fun a => ?_
    match a with
    | ⟨0, _⟩ => show (c.val * 1920 + ρ.val) * 128 + l.val = 0 + ((c.val * 1920 + ρ.val) * 128 + l.val); omega

/-! ## The stretches that cut the views, over any contents before them -/

section Views
variable (W : Valuation τ sig (Elt Ideal))

/-- After the first pass's last host stretch, the call's squared-distance array is the view of the squared distances the
    same stretch computed. -/
private theorem cut0_r2 (c : Fin 2) (ρ : Fin 30720) (l : Fin 128) :
    StableHlo.after hostOps0_2 W (Proc.devRef .tc main_v6) (ix3 c ρ l)
      = StableHlo.after hostOps0_2 W (Proc.devRef .tc main_v4) (ix1 (pre8 c ρ l)) := by
  after_results
  exact view8_apply _ c ρ l
private theorem cut0_q (c : Fin 2) (ρ : Fin 30720) (l : Fin 128) :
    StableHlo.after hostOps0_2 W (Proc.devRef .tc main_v8) (ix3 c ρ l) = W (Proc.devRef .tc main_arg3) (ix1 (pre8 c ρ l)) := by
  after_results
  exact view8_apply _ c ρ l
private theorem cut0_a (c : Fin 2) (ρ : Fin 30720) (l : Fin 128) :
    StableHlo.after hostOps0_2 W (Proc.devRef .tc main_v10) (ix3 c ρ l) = W (Proc.devRef .tc main_arg4) (ix1 (pre8 c ρ l)) := by
  after_results
  exact view8_apply _ c ρ l
private theorem cut0_b6 (c : Fin 2) (ρ : Fin 30720) (l : Fin 128) :
    StableHlo.after hostOps0_2 W (Proc.devRef .tc main_v12) (ix3 c ρ l) = W (Proc.devRef .tc main_arg5) (ix1 (pre8 c ρ l)) := by
  after_results
  exact view8_apply _ c ρ l
private theorem cut0_b10 (c : Fin 2) (ρ : Fin 30720) (l : Fin 128) :
    StableHlo.after hostOps0_2 W (Proc.devRef .tc main_v14) (ix3 c ρ l) = W (Proc.devRef .tc main_arg6) (ix1 (pre8 c ρ l)) := by
  after_results
  exact view8_apply _ c ρ l

/-- The same after the second pass's last host stretch. -/
private theorem cut1_r2 (c : Fin 2) (ρ : Fin 1920) (l : Fin 128) :
    StableHlo.after hostOps1_3 W (Proc.devRef .tc main_v51) (ix3 c ρ l)
      = StableHlo.after hostOps1_3 W (Proc.devRef .tc main_v49) (ix1 (pre5 c ρ l)) := by
  after_results
  exact view5_apply _ c ρ l
private theorem cut1_q (c : Fin 2) (ρ : Fin 1920) (l : Fin 128) :
    StableHlo.after hostOps1_3 W (Proc.devRef .tc main_v53) (ix3 c ρ l) = W (Proc.devRef .tc main_arg9) (ix1 (pre5 c ρ l)) := by
  after_results
  exact view5_apply _ c ρ l
private theorem cut1_a (c : Fin 2) (ρ : Fin 1920) (l : Fin 128) :
    StableHlo.after hostOps1_3 W (Proc.devRef .tc main_v55) (ix3 c ρ l) = W (Proc.devRef .tc main_arg10) (ix1 (pre5 c ρ l)) := by
  after_results
  exact view5_apply _ c ρ l
private theorem cut1_b6 (c : Fin 2) (ρ : Fin 1920) (l : Fin 128) :
    StableHlo.after hostOps1_3 W (Proc.devRef .tc main_v57) (ix3 c ρ l) = W (Proc.devRef .tc main_arg11) (ix1 (pre5 c ρ l)) := by
  after_results
  exact view5_apply _ c ρ l
private theorem cut1_b10 (c : Fin 2) (ρ : Fin 1920) (l : Fin 128) :
    StableHlo.after hostOps1_3 W (Proc.devRef .tc main_v59) (ix3 c ρ l) = W (Proc.devRef .tc main_arg12) (ix1 (pre5 c ρ l)) := by
  after_results
  exact view5_apply _ c ρ l

end Views

/-- An argument no host stretch of the first pass writes still holds its launch contents before the pass's last
    stretch. -/
private theorem V2_arg (r : Ref sig .tc) (h1 : r ∉ hostOps0_W) (h2 : r ∉ hostOps0_1_W) :
    V2 m c0 r = m ((c0 : Thread nD τ).loc r) :=
  (V2_of m c0 r h2).trans (V1_of m c0 r h1)

/-- An argument nothing before the second pass's lookups writes still holds its launch contents there, -/
private theorem V5_arg (r : Ref sig .tc) (h1 : r ∉ hostOps0_W) (h2 : r ∉ hostOps0_1_W) (h3 : r ∉ hostOps0_2_W)
    (h4 : r ∉ ([main_v15] : List (Ref sig .tc))) (h5 : r ∉ hostOps1_W) :
    V5 m (outs0 m) c0 r = m ((c0 : Thread nD τ).loc r) :=
  (V5_of m (outs0 m) c0 r h5).trans <| (V4_of m (outs0 m) c0 r h4).trans <| (V3_of m c0 r h3).trans <| V2_arg m c0 r h1 h2
/-- after the first of the two lookups, -/
private theorem V6_arg (r : Ref sig .tc) (h1 : r ∉ hostOps0_W) (h2 : r ∉ hostOps0_1_W) (h3 : r ∉ hostOps0_2_W)
    (h4 : r ∉ ([main_v15] : List (Ref sig .tc))) (h5 : r ∉ hostOps1_W) (h6 : r ∉ hostOps1_1_W) :
    V6 m (outs0 m) c0 r = m ((c0 : Thread nD τ).loc r) :=
  (V6_of m (outs0 m) c0 r h6).trans (V5_arg m c0 r h1 h2 h3 h4 h5)
/-- and before the second pass's last stretch. -/
private theorem V7_arg (r : Ref sig .tc) (h1 : r ∉ hostOps0_W) (h2 : r ∉ hostOps0_1_W) (h3 : r ∉ hostOps0_2_W)
    (h4 : r ∉ ([main_v15] : List (Ref sig .tc))) (h5 : r ∉ hostOps1_W) (h6 : r ∉ hostOps1_1_W) (h7 : r ∉ hostOps1_2_W) :
    V7 m (outs0 m) c0 r = m ((c0 : Thread nD τ).loc r) :=
  (V7_of m (outs0 m) c0 r h7).trans (V6_arg m c0 r h1 h2 h3 h4 h5 h6)

/-! ## Call 0's input arrays -/

theorem in0_r2 (c : Fin 2) (ρ : Fin 30720) (l : Fin 128) :
    E3 m c0 main_v6 (ix3 c ρ l) = V3 m c0 main_v4 (ix1 (pre8 c ρ l)) :=
  cut0_r2 (V2 m c0) c ρ l
theorem in0_q (c : Fin 2) (ρ : Fin 30720) (l : Fin 128) :
    E3 m c0 main_v8 (ix3 c ρ l) = (m ((c0 : Thread nD τ).loc main_arg3)) (ix1 (pre8 c ρ l)) := by
  refine (cut0_q (V2 m c0) c ρ l).trans ?_
  rw [V2_arg m c0 main_arg3 (by decide) (by decide)]
theorem in0_a (c : Fin 2) (ρ : Fin 30720) (l : Fin 128) :
    E3 m c0 main_v10 (ix3 c ρ l) = (m ((c0 : Thread nD τ).loc main_arg4)) (ix1 (pre8 c ρ l)) := by
  refine (cut0_a (V2 m c0) c ρ l).trans ?_
  rw [V2_arg m c0 main_arg4 (by decide) (by decide)]
theorem in0_b6 (c : Fin 2) (ρ : Fin 30720) (l : Fin 128) :
    E3 m c0 main_v12 (ix3 c ρ l) = (m ((c0 : Thread nD τ).loc main_arg5)) (ix1 (pre8 c ρ l)) := by
  refine (cut0_b6 (V2 m c0) c ρ l).trans ?_
  rw [V2_arg m c0 main_arg5 (by decide) (by decide)]
theorem in0_b10 (c : Fin 2) (ρ : Fin 30720) (l : Fin 128) :
    E3 m c0 main_v14 (ix3 c ρ l) = (m ((c0 : Thread nD τ).loc main_arg6)) (ix1 (pre8 c ρ l)) := by
  refine (cut0_b10 (V2 m c0) c ρ l).trans ?_
  rw [V2_arg m c0 main_arg6 (by decide) (by decide)]

/-! ## Call 1's input arrays -/

theorem in1_r2 (c : Fin 2) (ρ : Fin 1920) (l : Fin 128) :
    E8 m c0 main_v51 (ix3 c ρ l) = V8 m (outs m) c0 main_v49 (ix1 (pre5 c ρ l)) := by
  rw [V8_outs m c0]
  exact cut1_r2 (V7 m (outs0 m) c0) c ρ l
theorem in1_q (c : Fin 2) (ρ : Fin 1920) (l : Fin 128) :
    E8 m c0 main_v53 (ix3 c ρ l) = (m ((c0 : Thread nD τ).loc main_arg9)) (ix1 (pre5 c ρ l)) := by
  refine (cut1_q (V7 m (outs0 m) c0) c ρ l).trans ?_
  rw [V7_arg m c0 main_arg9 (by decide) (by decide) (by decide) (by decide) (by decide) (by decide) (by decide)]
theorem in1_a (c : Fin 2) (ρ : Fin 1920) (l : Fin 128) :
    E8 m c0 main_v55 (ix3 c ρ l) = (m ((c0 : Thread nD τ).loc main_arg10)) (ix1 (pre5 c ρ l)) := by
  refine (cut1_a (V7 m (outs0 m) c0) c ρ l).trans ?_
  rw [V7_arg m c0 main_arg10 (by decide) (by decide) (by decide) (by decide) (by decide) (by decide) (by decide)]
theorem in1_b6 (c : Fin 2) (ρ : Fin 1920) (l : Fin 128) :
    E8 m c0 main_v57 (ix3 c ρ l) = (m ((c0 : Thread nD τ).loc main_arg11)) (ix1 (pre5 c ρ l)) := by
  refine (cut1_b6 (V7 m (outs0 m) c0) c ρ l).trans ?_
  rw [V7_arg m c0 main_arg11 (by decide) (by decide) (by decide) (by decide) (by decide) (by decide) (by decide)]
theorem in1_b10 (c : Fin 2) (ρ : Fin 1920) (l : Fin 128) :
    E8 m c0 main_v59 (ix3 c ρ l) = (m ((c0 : Thread nD τ).loc main_arg12)) (ix1 (pre5 c ρ l)) := by
  refine (cut1_b10 (V7 m (outs0 m) c0) c ρ l).trans ?_
  rw [V7_arg m c0 main_arg12 (by decide) (by decide) (by decide) (by decide) (by decide) (by decide) (by decide)]

/-- Contents moved to a typed reference's buffer type and back are the contents. -/
private theorem ofBuf_toBuf {T : BufTy} (x : StableHlo.TRef sig T) (v : T.Contents (Elt Ideal)) : x.ofBuf (x.toBuf v) = v := by
  unfold StableHlo.TRef.ofBuf StableHlo.TRef.toBuf
  rw [cast_cast, cast_eq]

/-! ## The lookup's range mask, with every row number in range -/

section Mask
open Cert.PairEnergy (starts rowsOf Sn Sn1 Sn3 Sx)

/-- A word that reads as a signed number in [0, 100000) is below 100000 as an unsigned one. -/
private theorem toNat_lt_of_signed_range (v : BitVec 32) (h0 : 0 ≤ v.toInt) (h1 : v.toInt < 100000) : v.toNat < 100000 := by
  have h := BitVec.toInt_eq_toNat_cond v
  have hlt := v.isLt
  by_cases hc : 2 * v.toNat < 2 ^ 32
  · rw [if_pos hc] at h; omega
  · rw [if_neg hc] at h; omega

/-- A left fold by "and" from 1 over 1s is 1. -/
private theorem foldl_andi_ones {ι : Type} (f : ι → BitVec 1) :
    ∀ l : List ι, (∀ i ∈ l, f i = 1#1) → l.foldl (fun r i => IntOp.andi r (f i)) 1#1 = 1#1
  | [], _ => rfl
  | a :: l, h => by
    have e : IntOp.andi (1#1) (1#1) = 1#1 := by decide
    rw [List.foldl_cons, h a List.mem_cons_self, e]
    exact foldl_andi_ones f l fun i hi => h i (List.mem_cons_of_mem _ hi)

/-- A reduction by "and" from 1 of an array of 1s is 1 everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x _ fun i _ => hx i

variable {n : ℕ} (hb0 : S_.BroadcastsInDim (Sn n) (![] : Fin 0 → Fin (Sn n).rank))
  (hb1 : (Sn n).BroadcastsInDim (Sn1 n) (![0] : Fin 1 → Fin (Sn1 n).rank))

/-- A row number in range is not negative, so the wrap leaves it as it is. -/
private theorem wrap_of_inRange (p : IVec (Sn n) 32) (hp : InRange p) (k : (Sn n).Idx) :
    select (cmpi .slt p (broadcastInDim (Sn n) ![] hb0 (constantI S_ 32 0#32)))
      (addi p (broadcastInDim (Sn n) ![] hb0 (constantI S_ 32 100000#32))) p k = p k := by
  have hlt := toNat_lt_of_signed_range (p k) (hp k).1 (hp k).2
  have hc : cmpi .slt p (broadcastInDim (Sn n) ![] hb0 (constantI S_ 32 0#32)) k = 0#1 := by
    show IntOp.cmpi .slt (p k) (0#32) = 0#1
    have h := (StableHlo.Predicate.slt_iff_toNat (a := p k) (b := 0#32) (by omega) (by decide))
    have hne : ¬ IntOp.cmpi .slt (p k) (0#32) = 1#1 := fun e => by have := h.1 e; simp at this
    revert hne; generalize IntOp.cmpi .slt (p k) (0#32) = b; revert b; decide
  rw [select_apply, hc, select_zero]

/-- Every start index of a list in range passes the range test 0 ≤ · ≤ 99999. -/
private theorem starts_in_range (hbs : S_.BroadcastsInDim (Sn1 n) (![] : Fin 0 → Fin (Sn1 n).rank))
    (hb11 : S1.BroadcastsInDim S1x1 (![1] : Fin 1 → Fin S1x1.rank))
    (hb2 : S1x1.BroadcastsInDim (Sn1 n) (![0, 1] : Fin 2 → Fin (Sn1 n).rank))
    (p : IVec (Sn n) 32) (hp : InRange p) (y : (Sn1 n).Idx) :
    andi (cmpi .sge (starts hb0 hb1 p) (broadcastInDim (Sn1 n) ![] hbs (constantI S_ 32 0#32)))
      (cmpi .sle (starts hb0 hb1 p) (broadcastInDim (Sn1 n) ![0, 1] hb2 (broadcastInDim S1x1 ![1] hb11 (constantI S1 32 99999#32)))) y
      = 1#1 := by
  -- the start index at y is the wrapped row number at some place k of the list, which is the row number itself
  obtain ⟨k, hk⟩ : ∃ k : (Sn n).Idx, starts hb0 hb1 p y = p k := by
    unfold starts broadcastInDim
    exact ⟨_, wrap_of_inRange hb0 p hp _⟩
  have hlt := toNat_lt_of_signed_range (p k) (hp k).1 (hp k).2
  show IntOp.andi (IntOp.cmpi .sge (starts hb0 hb1 p y) (0#32)) (IntOp.cmpi .sle (starts hb0 hb1 p y) (99999#32)) = 1#1
  rw [hk, IntOp.andi_eq_one]
  exact ⟨(StableHlo.Predicate.sge_iff_toNat (by omega) (by decide)).2 (by simp),
    (StableHlo.Predicate.sle_iff_toNat (by omega) (by decide)).2 (by simp; omega)⟩

/-- The lookup as the program computes it: the row gather where the start index passes the range test, the fill value
    elsewhere. -/
private def maskedRows (hbs : S_.BroadcastsInDim (Sn1 n) (![] : Fin 0 → Fin (Sn1 n).rank))
    (hb11 : S1.BroadcastsInDim S1x1 (![1] : Fin 1 → Fin S1x1.rank))
    (hb2 : S1x1.BroadcastsInDim (Sn1 n) (![0, 1] : Fin 2 → Fin (Sn1 n).rank))
    (hred : (Sn1 n).ReducesTo [1] (Sn n)) (hS : 0 < S_.numel)
    (hb3 : (Sn n).BroadcastsInDim (Sn3 n) (![0] : Fin 1 → Fin (Sn3 n).rank))
    (hbn : S_.BroadcastsInDim (Sn3 n) (![] : Fin 0 → Fin (Sn3 n).rank))
    (D : GatherDims Sx (Sn1 n) (Sn3 n)) (x : FVec Ideal Sx .f32) (p : IVec (Sn n) 32) : FVec Ideal (Sn3 n) .f32 :=
  select (broadcastInDim (Sn3 n) ![0] hb3 (Host.reduce IntOp.andi
      (andi (cmpi .sge (starts hb0 hb1 p) (broadcastInDim (Sn1 n) ![] hbs (constantI S_ 32 0#32)))
        (cmpi .sle (starts hb0 hb1 p) (broadcastInDim (Sn1 n) ![0, 1] hb2 (broadcastInDim S1x1 ![1] hb11 (constantI S1 32 99999#32)))))
      (constantI S_ 1 1#1) hred hS))
    (Host.gather D x (starts hb0 hb1 p)) (broadcastInDim (Sn3 n) ![] hbn (constant S_ .f32 0x7FC00000#32))

/-- THE MASKED LOOKUP of a list in range is the plain row gather: the range mask is all ones. -/
private theorem masked_rows (hbs : S_.BroadcastsInDim (Sn1 n) (![] : Fin 0 → Fin (Sn1 n).rank))
    (hb11 : S1.BroadcastsInDim S1x1 (![1] : Fin 1 → Fin S1x1.rank))
    (hb2 : S1x1.BroadcastsInDim (Sn1 n) (![0, 1] : Fin 2 → Fin (Sn1 n).rank))
    (hred : (Sn1 n).ReducesTo [1] (Sn n)) (hS : 0 < S_.numel)
    (hb3 : (Sn n).BroadcastsInDim (Sn3 n) (![0] : Fin 1 → Fin (Sn3 n).rank))
    (hbn : S_.BroadcastsInDim (Sn3 n) (![] : Fin 0 → Fin (Sn3 n).rank))
    (D : GatherDims Sx (Sn1 n) (Sn3 n)) (x : FVec Ideal Sx .f32) (p : IVec (Sn n) 32) (hp : InRange p) :
    maskedRows hb0 hb1 hbs hb11 hb2 hred hS hb3 hbn D x p = rowsOf hb0 hb1 D x p := by
  funext y
  have hm : broadcastInDim (Sn3 n) ![0] hb3 (Host.reduce IntOp.andi
        (andi (cmpi .sge (starts hb0 hb1 p) (broadcastInDim (Sn1 n) ![] hbs (constantI S_ 32 0#32)))
          (cmpi .sle (starts hb0 hb1 p) (broadcastInDim (Sn1 n) ![0, 1] hb2 (broadcastInDim S1x1 ![1] hb11 (constantI S1 32 99999#32)))))
        (constantI S_ 1 1#1) hred hS) y = 1#1 := by
    unfold broadcastInDim
    exact reduce_andi_ones _ _ hred hS (starts_in_range hb0 hb1 hbs hb11 hb2 p hp) (fun _ => rfl) _
  unfold maskedRows
  rw [select_apply, hm, select_one]
  rfl

end Mask

/-! ## The lookups and the squared distances as the host stretches compute them, over any contents before them -/

section Takes
variable (W : Valuation τ sig (Elt Ideal))

/-- The first pass's first lookup (the list of first partners). -/
private theorem take_v0 :
    StableHlo.after hostOps0 W (Proc.devRef .tc main_v0)
      = maskedRows bcast_S_S8000000 bcast_S8000000_S8000000x1_0 bcast_S_S8000000x1 bcast_S1_S1x1_1 bcast_S1x1_S8000000x1_0_1
          reducesTo_S8000000x1_S8000000_d1 h_S_ bcast_S8000000_S8000000x3_0 bcast_S_S8000000x3
          gather_S100000x3_S8000000x1_S8000000x3_1_0_n_n_0_1_13 (W (Proc.devRef .tc main_arg0)) (W (Proc.devRef .tc main_arg1)) := by
  have e0 : ∀ X : (⟨S8000000x3, .f32⟩ : BufTy).Contents (Elt Ideal),
      (StableHlo.TRef.of main_v0 : StableHlo.TRef sig ⟨S8000000x3, .f32⟩).toBuf X = X := fun _ => rfl
  have e1 : (StableHlo.TRef.of main_arg0 : StableHlo.TRef sig ⟨S100000x3, .f32⟩).ofBuf (W (Proc.devRef .tc main_arg0))
      = W (Proc.devRef .tc main_arg0) := rfl
  have e2 : (StableHlo.TRef.of main_arg1 : StableHlo.TRef sig ⟨S8000000, .i32⟩).ofBuf (W (Proc.devRef .tc main_arg1))
      = W (Proc.devRef .tc main_arg1) := rfl
  unfold maskedRows Cert.PairEnergy.starts
  after_results_simp
  simp only [ofBuf_toBuf, e0, e1, e2]
/-- The first pass's second lookup (the list of second partners). -/
private theorem take_v1 :
    StableHlo.after hostOps0_1 W (Proc.devRef .tc main_v1)
      = maskedRows bcast_S_S8000000 bcast_S8000000_S8000000x1_0 bcast_S_S8000000x1 bcast_S1_S1x1_1 bcast_S1x1_S8000000x1_0_1
          reducesTo_S8000000x1_S8000000_d1 h_S_ bcast_S8000000_S8000000x3_0 bcast_S_S8000000x3
          gather_S100000x3_S8000000x1_S8000000x3_1_0_n_n_0_1_13 (W (Proc.devRef .tc main_arg0)) (W (Proc.devRef .tc main_arg2)) := by
  have e0 : ∀ X : (⟨S8000000x3, .f32⟩ : BufTy).Contents (Elt Ideal),
      (StableHlo.TRef.of main_v1 : StableHlo.TRef sig ⟨S8000000x3, .f32⟩).toBuf X = X := fun _ => rfl
  have e1 : (StableHlo.TRef.of main_arg0 : StableHlo.TRef sig ⟨S100000x3, .f32⟩).ofBuf (W (Proc.devRef .tc main_arg0))
      = W (Proc.devRef .tc main_arg0) := rfl
  have e2 : (StableHlo.TRef.of main_arg2 : StableHlo.TRef sig ⟨S8000000, .i32⟩).ofBuf (W (Proc.devRef .tc main_arg2))
      = W (Proc.devRef .tc main_arg2) := rfl
  unfold maskedRows Cert.PairEnergy.starts
  after_results_simp
  simp only [ofBuf_toBuf, e0, e1, e2]
/-- The second pass's two lookups. -/
private theorem take_v45 :
    StableHlo.after hostOps1_1 W (Proc.devRef .tc main_v45)
      = maskedRows bcast_S_S500000 bcast_S500000_S500000x1_0 bcast_S_S500000x1 bcast_S1_S1x1_1 bcast_S1x1_S500000x1_0_1
          reducesTo_S500000x1_S500000_d1 h_S_ bcast_S500000_S500000x3_0 bcast_S_S500000x3
          gather_S100000x3_S500000x1_S500000x3_1_0_n_n_0_1_13 (W (Proc.devRef .tc main_arg0)) (W (Proc.devRef .tc main_arg7)) := by
  have e0 : ∀ X : (⟨S500000x3, .f32⟩ : BufTy).Contents (Elt Ideal),
      (StableHlo.TRef.of main_v45 : StableHlo.TRef sig ⟨S500000x3, .f32⟩).toBuf X = X := fun _ => rfl
  have e1 : (StableHlo.TRef.of main_arg0 : StableHlo.TRef sig ⟨S100000x3, .f32⟩).ofBuf (W (Proc.devRef .tc main_arg0))
      = W (Proc.devRef .tc main_arg0) := rfl
  have e2 : (StableHlo.TRef.of main_arg7 : StableHlo.TRef sig ⟨S500000, .i32⟩).ofBuf (W (Proc.devRef .tc main_arg7))
      = W (Proc.devRef .tc main_arg7) := rfl
  unfold maskedRows Cert.PairEnergy.starts
  after_results_simp
  simp only [ofBuf_toBuf, e0, e1, e2]
private theorem take_v46 :
    StableHlo.after hostOps1_2 W (Proc.devRef .tc main_v46)
      = maskedRows bcast_S_S500000 bcast_S500000_S500000x1_0 bcast_S_S500000x1 bcast_S1_S1x1_1 bcast_S1x1_S500000x1_0_1
          reducesTo_S500000x1_S500000_d1 h_S_ bcast_S500000_S500000x3_0 bcast_S_S500000x3
          gather_S100000x3_S500000x1_S500000x3_1_0_n_n_0_1_13 (W (Proc.devRef .tc main_arg0)) (W (Proc.devRef .tc main_arg8)) := by
  have e0 : ∀ X : (⟨S500000x3, .f32⟩ : BufTy).Contents (Elt Ideal),
      (StableHlo.TRef.of main_v46 : StableHlo.TRef sig ⟨S500000x3, .f32⟩).toBuf X = X := fun _ => rfl
  have e1 : (StableHlo.TRef.of main_arg0 : StableHlo.TRef sig ⟨S100000x3, .f32⟩).ofBuf (W (Proc.devRef .tc main_arg0))
      = W (Proc.devRef .tc main_arg0) := rfl
  have e2 : (StableHlo.TRef.of main_arg8 : StableHlo.TRef sig ⟨S500000, .i32⟩).ofBuf (W (Proc.devRef .tc main_arg8))
      = W (Proc.devRef .tc main_arg8) := rfl
  unfold maskedRows Cert.PairEnergy.starts
  after_results_simp
  simp only [ofBuf_toBuf, e0, e1, e2]

/-- The squared distances of the first pass: per pair, 0.0 plus the sum over the coordinates of the squared difference
    of the two looked-up rows. -/
private theorem sq_v4 :
    StableHlo.after hostOps0_2 W (Proc.devRef .tc main_v4)
      = Host.reduceAdd (F := Ideal) (mulf (subf (W (Proc.devRef .tc main_v0) : FVec Ideal S8000000x3 .f32) (W (Proc.devRef .tc main_v1)))
          (subf (W (Proc.devRef .tc main_v0) : FVec Ideal S8000000x3 .f32) (W (Proc.devRef .tc main_v1))))
        (constant S_ .f32 0x00000000#32) reducesTo_S8000000x3_S8000000_d1 h_S_ := by
  after_results
/-- The squared distances of the second pass. -/
private theorem sq_v49 :
    StableHlo.after hostOps1_3 W (Proc.devRef .tc main_v49)
      = Host.reduceAdd (F := Ideal) (mulf (subf (W (Proc.devRef .tc main_v45) : FVec Ideal S500000x3 .f32) (W (Proc.devRef .tc main_v46)))
          (subf (W (Proc.devRef .tc main_v45) : FVec Ideal S500000x3 .f32) (W (Proc.devRef .tc main_v46))))
        (constant S_ .f32 0x00000000#32) reducesTo_S500000x3_S500000_d1 h_S_ := by
  after_results

end Takes

/-! ## The squared distances -/

/-- With both index lists in range, the squared distances the program computes for its 8,000,000 pairs are the plain
    ones: every lookup's range mask is all ones, so the masked lookup is the row gather. -/
theorem r2_8 (h1 : InRange (m ((c0 : Thread nD τ).loc main_arg1))) (h2 : InRange (m ((c0 : Thread nD τ).loc main_arg2))) :
    V3 m c0 main_v4 = r2of bcast_S_S8000000 bcast_S8000000_S8000000x1_0 gather_S100000x3_S8000000x1_S8000000x3_1_0_n_n_0_1_13
      reducesTo_S8000000x3_S8000000_d1 h_S_ (m ((c0 : Thread nD τ).loc main_arg0)) (m ((c0 : Thread nD τ).loc main_arg1)) (m ((c0 : Thread nD τ).loc main_arg2)) := by
  have e0 : V2 m c0 main_v0 = Cert.PairEnergy.rowsOf bcast_S_S8000000 bcast_S8000000_S8000000x1_0
      gather_S100000x3_S8000000x1_S8000000x3_1_0_n_n_0_1_13 (m ((c0 : Thread nD τ).loc main_arg0)) (m ((c0 : Thread nD τ).loc main_arg1)) :=
    (V2_of m c0 main_v0 (by decide)).trans ((take_v0 (V0 m c0)).trans (masked_rows _ _ _ _ _ _ _ _ _ _ _ _ h1))
  have e1 : V2 m c0 main_v1 = Cert.PairEnergy.rowsOf bcast_S_S8000000 bcast_S8000000_S8000000x1_0
      gather_S100000x3_S8000000x1_S8000000x3_1_0_n_n_0_1_13 (m ((c0 : Thread nD τ).loc main_arg0)) (m ((c0 : Thread nD τ).loc main_arg2)) := by
    refine (take_v1 (V1 m c0)).trans ?_
    rw [V1_of m c0 main_arg0 (by decide), V1_of m c0 main_arg2 (by decide)]
    exact masked_rows _ _ _ _ _ _ _ _ _ _ _ _ h2
  refine (sq_v4 (V2 m c0)).trans ?_
  rw [e0, e1]
  rfl

/-- The same for the 500,000 pairs of the second pass. -/
theorem r2_5 (h7 : InRange (m ((c0 : Thread nD τ).loc main_arg7))) (h8 : InRange (m ((c0 : Thread nD τ).loc main_arg8))) :
    V8 m (outs m) c0 main_v49 = r2of bcast_S_S500000 bcast_S500000_S500000x1_0 gather_S100000x3_S500000x1_S500000x3_1_0_n_n_0_1_13
      reducesTo_S500000x3_S500000_d1 h_S_ (m ((c0 : Thread nD τ).loc main_arg0)) (m ((c0 : Thread nD τ).loc main_arg7)) (m ((c0 : Thread nD τ).loc main_arg8)) := by
  rw [V8_outs m c0]
  have e0 : V7 m (outs0 m) c0 main_v45 = Cert.PairEnergy.rowsOf bcast_S_S500000 bcast_S500000_S500000x1_0
      gather_S100000x3_S500000x1_S500000x3_1_0_n_n_0_1_13 (m ((c0 : Thread nD τ).loc main_arg0)) (m ((c0 : Thread nD τ).loc main_arg7)) := by
    refine (V7_of m (outs0 m) c0 main_v45 (by decide)).trans ((take_v45 (V5 m (outs0 m) c0)).trans ?_)
    rw [V5_arg m c0 main_arg0 (by decide) (by decide) (by decide) (by decide) (by decide),
      V5_arg m c0 main_arg7 (by decide) (by decide) (by decide) (by decide) (by decide)]
    exact masked_rows _ _ _ _ _ _ _ _ _ _ _ _ h7
  have e1 : V7 m (outs0 m) c0 main_v46 = Cert.PairEnergy.rowsOf bcast_S_S500000 bcast_S500000_S500000x1_0
      gather_S100000x3_S500000x1_S500000x3_1_0_n_n_0_1_13 (m ((c0 : Thread nD τ).loc main_arg0)) (m ((c0 : Thread nD τ).loc main_arg8)) := by
    refine (take_v46 (V6 m (outs0 m) c0)).trans ?_
    rw [V6_arg m c0 main_arg0 (by decide) (by decide) (by decide) (by decide) (by decide) (by decide),
      V6_arg m c0 main_arg8 (by decide) (by decide) (by decide) (by decide) (by decide) (by decide)]
    exact masked_rows _ _ _ _ _ _ _ _ _ _ _ _ h8
  refine (sq_v49 (V7 m (outs0 m) c0)).trans ?_
  rw [e0, e1]
  rfl

end Cert.KernelIdeal.Energy

end
-- ==== Proof.IdealCall0Pieces.lean ====
/-
  Pallas call 0 of the pair-energy program, on the extended reals: what one grid point leaves in the output buffer.

  A block holds 2048 rows of 128 lanes of each of the five inputs (squared distance, Coulomb coefficient, and the three
  van der Waals coefficients).  The body forms the two per-pair terms entry by entry and sums each over the 2048 rows,
  lane by lane; row 0 of the output buffer receives the Coulomb column sums, row 1 the van der Waals ones — added to a
  cleared buffer at the first block of a half, to what the buffer held at a later block.
-/
import proofs.«406529_j45191645888923_3_alg».proof.Proof.IdealCall0
import proofs.«406529_j45191645888923_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Energy

open Cert.KernelIdeal Cert.KernelIdeal.Gen
open Idealize.ShloMosaic Idealize.ShloMosaic.TcCoe Idealize.ShloMosaic.Tactic Idealize.ShloMosaic.ValueIdx Idealize.SL.Sem
open Cert.PairEnergy (tc tv zero)

/-- The Coulomb column sum of one block at lane l: over its 2048 rows, q · √(1/r²). -/
def colC0 (x0 x1 : Vec Ideal S1x2048x128 .f32) (l : Fin 128) : EReal :=
  ∑ r : Fin 2048, tc (x0 (ix3 (0 : Fin 1) r l)) (x1 (ix3 (0 : Fin 1) r l))

/-- The van der Waals column sum of one block at lane l. -/
def colV0 (x0 x2 x3 x4 : Vec Ideal S1x2048x128 .f32) (l : Fin 128) : EReal :=
  ∑ r : Fin 2048, tv (x0 (ix3 (0 : Fin 1) r l)) (x2 (ix3 (0 : Fin 1) r l)) (x3 (ix3 (0 : Fin 1) r l)) (x4 (ix3 (0 : Fin 1) r l))

/-! ## The payloads read at an index, on the extended reals -/

/-- The reciprocal payload at row r, lane l: 1/r² of the block's entry there. -/
private theorem pay4_apply (v3 : Vec Ideal S1x2048x128 .f32) (r : Fin 2048) (l : Fin 128) :
    k0_pay4 (F := Ideal) v3 (ix2 r l) = Cert.PairEnergy.inv (v3 (ix3 (0 : Fin 1) r l)) := by
  unfold k0_pay4
  show Ideal.div (Ideal.ofBits .f32 0x3F800000#32) (shapeCast S2048x128 v3 shapeCasts_S1x2048x128_S2048x128 (ix2 r l)) = _
  rw [shapeCast_1ab_ab_apply]
  rfl

/-- The clearing payload is the word 0.0 at every index. -/
private theorem pay3_apply (y : S1x2x128.Idx) : k0_pay3 (F := Ideal) y = zero := by
  obtain ⟨a, b, c, rfl⟩ : ∃ a b c, y = ix3 a b c := ⟨_, _, _, eq_ix3 y⟩
  unfold k0_pay3
  refine (shapeCast_ab_1ab_apply _ _ a b c).trans ?_
  rfl

/-- The row-0 store's payload at lane l: its operand there (a unit axis added). -/
private theorem pay1_apply (v33 : FVec Ideal S1x128 .f32) (l : Fin 128) :
    k0_pay1 (F := Ideal) v33 (ix3 (0 : Fin 1) (0 : Fin 1) l) = v33 (ix2 (0 : Fin 1) l) := by
  unfold k0_pay1
  exact shapeCast_ab_1ab_apply _ _ _ _ _

/-- The row-1 store's payload at lane l: the loaded row plus the column sums there. -/
private theorem pay2_apply (v30 : FVec Ideal S1x128 .f32) (v37 : Vec Ideal S1x1x128 .f32) (l : Fin 128) :
    k0_pay2 (F := Ideal) v30 v37 (ix3 (0 : Fin 1) (0 : Fin 1) l) = v37 (ix3 (0 : Fin 1) (0 : Fin 1) l) + v30 (ix2 (0 : Fin 1) l) := by
  unfold k0_pay2
  refine (shapeCast_ab_1ab_apply _ _ _ _ _).trans ?_
  rw [addf_apply, shapeCast_1ab_ab_apply]

/-- The index a reduction over the rows inserts at lane l is (r, l). -/
private theorem lift_row (l : Fin 128) (r : Fin 2048) : reduces_S2048x128_S128.lift (ix1 l) r = ix2 r l := by
  funext a
  match a with
  | ⟨0, _⟩ => exact Fin.ext rfl
  | ⟨1, _⟩ => exact Fin.ext rfl

/-- The Coulomb payload at lane l: the loaded row plus the sum over the 2048 rows of q · √(1/r²). -/
private theorem pay6_apply (v3 v5 : Vec Ideal S1x2048x128 .f32) (v31 : Vec Ideal S1x1x128 .f32) (l : Fin 128) :
    k0_pay6 (F := Ideal) v3 v5 v31 (ix2 (0 : Fin 1) l) = v31 (ix3 (0 : Fin 1) (0 : Fin 1) l) + ∑ r : Fin 2048, tc (v3 (ix3 (0 : Fin 1) r l)) (v5 (ix3 (0 : Fin 1) r l)) := by
  unfold k0_pay6
  rw [addf_apply, shapeCast_1ab_ab_apply, shapeCast_a_1a_apply]
  congr 1
  refine (Ideal.multiReduction_add_single (φ := .f32) _ _ reduces_S2048x128_S128 (.inl rfl) rfl (ix1 l)).trans ?_
  refine Finset.sum_congr rfl fun (r : Fin 2048) _ => ?_
  rw [lift_row l r, mulf_apply, shapeCast_1ab_ab_apply]
  show v5 (ix3 (0 : Fin 1) r l) * Ideal.sqrt (k0_pay4 (F := Ideal) v3 (ix2 r l)) = _
  rw [pay4_apply]
  rfl

/-- The van der Waals payload at lane l: the sum over the 2048 rows of the van der Waals term. -/
private theorem pay5_apply (v3 v7 v9 v11 : Vec Ideal S1x2048x128 .f32) (l : Fin 128) :
    k0_pay5 (F := Ideal) v3 v7 v9 v11 (ix2 (0 : Fin 1) l)
      = ∑ r : Fin 2048, tv (v3 (ix3 (0 : Fin 1) r l)) (v7 (ix3 (0 : Fin 1) r l)) (v9 (ix3 (0 : Fin 1) r l)) (v11 (ix3 (0 : Fin 1) r l)) := by
  unfold k0_pay5
  rw [shapeCast_a_1a_apply]
  refine (Ideal.multiReduction_add_single (φ := .f32) _ _ reduces_S2048x128_S128 (.inl rfl) rfl (ix1 l)).trans ?_
  refine Finset.sum_congr rfl fun (r : Fin 2048) _ => ?_
  rw [lift_row l r]
  simp only [subf_apply, mulf_apply, shapeCast_1ab_ab_apply, pay4_apply]
  rfl

/-! ## The two rows of the [1,2,128] buffer as unit rectangles -/

/-- The zero offsets of a rank-3 rectangle, as a constant function. -/
private theorem hz3 : (![0, 0, 0] : Fin 3 → ℕ) = fun _ => 0 := funext fun a => by fin_cases a <;> rfl

/-- Lane l of the row-0 rectangle is the buffer's index (0, 0, l). -/
private theorem row0_idx (inb : ∀ a, (![0, 0, 0] : Fin 3 → ℕ) a + (![1, 1, 128] : Fin 3 → ℕ) a ≤ S1x2x128.size a) (l : Fin 128) :
    (Rect.unit (s := S1x2x128) ![0, 0, 0] ![1, 1, 128] inb).idx (ix3 (0 : Fin 1) (0 : Fin 1) l) = ix3 (0 : Fin 1) (0 : Fin 2) l := by
  funext a
  match a with
  | ⟨0, _⟩ => exact Fin.ext rfl
  | ⟨1, _⟩ => exact Fin.ext rfl
  | ⟨2, _⟩ => exact Fin.ext (by show 0 + 1 * l.val = l.val; omega)

/-- Lane l of the row-1 rectangle is the buffer's index (0, 1, l). -/
private theorem row1_idx (inb : ∀ a, (![0, 1, 0] : Fin 3 → ℕ) a + (![1, 1, 128] : Fin 3 → ℕ) a ≤ S1x2x128.size a) (l : Fin 128) :
    (Rect.unit (s := S1x2x128) ![0, 1, 0] ![1, 1, 128] inb).idx (ix3 (0 : Fin 1) (0 : Fin 1) l) = ix3 (0 : Fin 1) (1 : Fin 2) l := by
  funext a
  match a with
  | ⟨0, _⟩ => exact Fin.ext rfl
  | ⟨1, _⟩ => exact Fin.ext rfl
  | ⟨2, _⟩ => exact Fin.ext (by show 0 + 1 * l.val = l.val; omega)

/-- Row 0 lies off the row-1 rectangle … -/
private theorem row0_not_mem_row1 (inb : ∀ a, (![0, 1, 0] : Fin 3 → ℕ) a + (![1, 1, 128] : Fin 3 → ℕ) a ≤ S1x2x128.size a) (l : Fin 128) :
    ix3 (0 : Fin 1) (0 : Fin 2) l ∉ (Rect.unit (s := S1x2x128) ![0, 1, 0] ![1, 1, 128] inb).set := by
  rw [Rect.mem_set_unit]
  intro h
  have h1 : (1 : ℕ) ≤ 0 := (h (1 : Fin 3)).1
  omega

/-- … and row 1 off the row-0 rectangle. -/
private theorem row1_not_mem_row0 (inb : ∀ a, (![0, 0, 0] : Fin 3 → ℕ) a + (![1, 1, 128] : Fin 3 → ℕ) a ≤ S1x2x128.size a) (l : Fin 128) :
    ix3 (0 : Fin 1) (1 : Fin 2) l ∉ (Rect.unit (s := S1x2x128) ![0, 0, 0] ![1, 1, 128] inb).set := by
  rw [Rect.mem_set_unit]
  intro h
  have h1 : (1 : ℕ) < 0 + 1 := (h (1 : Fin 3)).2
  omega

/-- The canon under a last store to row 1, read on row 1: that store's payload. -/
private theorem canon_row1 (inb : ∀ a, (![0, 1, 0] : Fin 3 → ℕ) a + (![1, 1, 128] : Fin 3 → ℕ) a ≤ S1x2x128.size a)
    (w : (Rect.unit (s := S1x2x128) ![0, 1, 0] ![1, 1, 128] inb).shape.Idx → Elt Ideal .f32)
    (L : List (View.Piece (Elt Ideal) S1x2x128 .f32)) (l : Fin 128) :
    View.canon (⟨Rect.unit (s := S1x2x128) ![0, 1, 0] ![1, 1, 128] inb, w⟩ :: L) (ix3 (0 : Fin 1) (1 : Fin 2) l)
      = w (ix3 (0 : Fin 1) (0 : Fin 1) l) := by
  rw [← row1_idx inb l]
  exact View.canon_cons_emb _ w L _

/-- The canon under a last store to row 1 over a store to row 0, read on row 0: the row-0 store's payload. -/
private theorem canon_row0 (inb1 : ∀ a, (![0, 1, 0] : Fin 3 → ℕ) a + (![1, 1, 128] : Fin 3 → ℕ) a ≤ S1x2x128.size a)
    (w1 : (Rect.unit (s := S1x2x128) ![0, 1, 0] ![1, 1, 128] inb1).shape.Idx → Elt Ideal .f32)
    (inb0 : ∀ a, (![0, 0, 0] : Fin 3 → ℕ) a + (![1, 1, 128] : Fin 3 → ℕ) a ≤ S1x2x128.size a)
    (w0 : (Rect.unit (s := S1x2x128) ![0, 0, 0] ![1, 1, 128] inb0).shape.Idx → Elt Ideal .f32)
    (L : List (View.Piece (Elt Ideal) S1x2x128 .f32)) (l : Fin 128) :
    View.canon (⟨Rect.unit (s := S1x2x128) ![0, 1, 0] ![1, 1, 128] inb1, w1⟩ :: ⟨Rect.unit (s := S1x2x128) ![0, 0, 0] ![1, 1, 128] inb0, w0⟩ :: L)
        (ix3 (0 : Fin 1) (0 : Fin 2) l)
      = w0 (ix3 (0 : Fin 1) (0 : Fin 1) l) := by
  refine (View.canon_cons_of_not_mem (⟨_, w1⟩ : View.Piece (Elt Ideal) S1x2x128 .f32) _ (row0_not_mem_row1 inb1 l)).trans ?_
  rw [← row0_idx inb0 l]
  exact View.canon_cons_emb _ w0 L _

/-- A load of anything after only the clearing store reads the word 0.0. -/
private theorem readCov_cleared (a7 : Memref sig .tc .vmem S1x2x128 .f32)
    (inbz : ∀ a, (![0, 0, 0] : Fin 3 → ℕ) a + S1x2x128.size a ≤ S1x2x128.size a) (B : LoadRect S1x2x128) (j : B.shape.Idx) :
    a7.view.readCov [(⟨Rect.unit (s := S1x2x128) ![0, 0, 0] S1x2x128.size inbz, k0_pay3 (F := Ideal)⟩ : View.Piece (Elt Ideal) S1x2x128 .f32)] B j = zero := by
  rw [View.readCov_eq_canon', View.canon_unit_zero hz3]
  exact pay3_apply _

/-- A load of row 1 after the clearing store and a store to row 0 reads the word 0.0. -/
private theorem readCov_row1_cleared (a7 : Memref sig .tc .vmem S1x2x128 .f32)
    (inb0 : ∀ a, (![0, 0, 0] : Fin 3 → ℕ) a + (![1, 1, 128] : Fin 3 → ℕ) a ≤ S1x2x128.size a)
    (w0 : (Rect.unit (s := S1x2x128) ![0, 0, 0] ![1, 1, 128] inb0).shape.Idx → Elt Ideal .f32)
    (inbz : ∀ a, (![0, 0, 0] : Fin 3 → ℕ) a + S1x2x128.size a ≤ S1x2x128.size a)
    (inb1 : ∀ a, (![0, 1, 0] : Fin 3 → ℕ) a + (![1, 1, 128] : Fin 3 → ℕ) a ≤ S1x2x128.size a) (l : Fin 128) :
    a7.view.readCov [⟨Rect.unit (s := S1x2x128) ![0, 0, 0] ![1, 1, 128] inb0, w0⟩,
        (⟨Rect.unit (s := S1x2x128) ![0, 0, 0] S1x2x128.size inbz, k0_pay3 (F := Ideal)⟩ : View.Piece (Elt Ideal) S1x2x128 .f32)]
      (Rect.unit (s := S1x2x128) ![0, 1, 0] ![1, 1, 128] inb1).toLoadRect (ix3 (0 : Fin 1) (0 : Fin 1) l) = zero := by
  rw [View.readCov_eq_canon']
  show View.canon (Val := Elt Ideal) (e := .f32) _ ((Rect.unit (s := S1x2x128) ![0, 1, 0] ![1, 1, 128] inb1).idx (ix3 (0 : Fin 1) (0 : Fin 1) l)) = zero
  rw [row1_idx inb1 l]
  refine (View.canon_cons_of_not_mem (⟨_, w0⟩ : View.Piece (Elt Ideal) S1x2x128 .f32) _ (row1_not_mem_row0 inb0 l)).trans ?_
  rw [View.canon_unit_zero hz3]
  exact pay3_apply _

/-- A load of a whole input block reads the block. -/
private theorem readAt_whole (a : Memref sig .tc .vmem S1x2048x128 .f32) (h : a.IsWhole)
    (inb : ∀ b, (![0, 0, 0] : Fin 3 → ℕ) b + S1x2048x128.size b ≤ S1x2048x128.size b) (X : Vec Ideal S1x2048x128 .f32) :
    View.readAt (Elt Ideal) a.view (Rect.unit (s := S1x2048x128) ![0, 0, 0] S1x2048x128.size inb).toLoadRect (h.unread X) = X := by
  rw [View.readAt_eq_ld, h.read_unread, View.ld_unit_zero (S := S1x2048x128) hz3]

/-- A load of row 0 of a buffer holding xo reads xo's row 0 … -/
private theorem readAt_row0 (a7 : Memref sig .tc .vmem S1x2x128 .f32) (h7 : a7.IsWhole)
    (inb : ∀ a, (![0, 0, 0] : Fin 3 → ℕ) a + (![1, 1, 128] : Fin 3 → ℕ) a ≤ S1x2x128.size a) (xo : Vec Ideal S1x2x128 .f32) (l : Fin 128) :
    View.readAt (Elt Ideal) a7.view (Rect.unit (s := S1x2x128) ![0, 0, 0] ![1, 1, 128] inb).toLoadRect (h7.unread xo) (ix3 (0 : Fin 1) (0 : Fin 1) l)
      = xo (ix3 (0 : Fin 1) (0 : Fin 2) l) := by
  rw [View.readAt_eq_ld, h7.read_unread]
  show xo ((Rect.unit (s := S1x2x128) ![0, 0, 0] ![1, 1, 128] inb).idx (ix3 (0 : Fin 1) (0 : Fin 1) l)) = _
  rw [row0_idx inb l]

/-- … and a load of row 1 its row 1. -/
private theorem readAt_row1 (a7 : Memref sig .tc .vmem S1x2x128 .f32) (h7 : a7.IsWhole)
    (inb : ∀ a, (![0, 1, 0] : Fin 3 → ℕ) a + (![1, 1, 128] : Fin 3 → ℕ) a ≤ S1x2x128.size a) (xo : Vec Ideal S1x2x128 .f32) (l : Fin 128) :
    View.readAt (Elt Ideal) a7.view (Rect.unit (s := S1x2x128) ![0, 1, 0] ![1, 1, 128] inb).toLoadRect (h7.unread xo) (ix3 (0 : Fin 1) (0 : Fin 1) l)
      = xo (ix3 (0 : Fin 1) (1 : Fin 2) l) := by
  rw [View.readAt_eq_ld, h7.read_unread]
  show xo ((Rect.unit (s := S1x2x128) ![0, 1, 0] ![1, 1, 128] inb).idx (ix3 (0 : Fin 1) (0 : Fin 1) l)) = _
  rw [row1_idx inb l]

/-- FIRST BLOCK OF A HALF: the buffer ends at the word 0.0 plus the block's column sums. -/
theorem out0_A_apply (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x2048x128 .f32) (h5 : a5.IsWhole) (a6 : Memref sig .tc .vmem S1x2048x128 .f32) (h6 : a6.IsWhole) (a7 : Memref sig .tc .vmem S1x2x128 .f32) (h7 : a7.IsWhole) (hc : cond0_0 i)
    (x0 x1 x2 x3 x4 : Vec Ideal S1x2048x128 .f32) (l : Fin 128) :
    out0_A_5 (F := Ideal) c i a2 h2 a3 h3 a4 h4 a5 h5 a6 h6 a7 h7 hc x0 x1 x2 x3 x4 (ix3 (0 : Fin 1) (0 : Fin 2) l) = zero + colC0 x0 x1 l
    ∧ out0_A_5 (F := Ideal) c i a2 h2 a3 h3 a4 h4 a5 h5 a6 h6 a7 h7 hc x0 x1 x2 x3 x4 (ix3 (0 : Fin 1) (1 : Fin 2) l) = zero + colV0 x0 x2 x3 x4 l := by
  constructor
  · unfold out0_A_5
    rw [View.read_writes_eq_canon _ _ _ (cover0_A_5 c i a2 h2 a3 h3 a4 h4 a5 h5 a6 h6 a7 h7 hc x0 x1 x2 x3 x4)]
    unfold kernelRun0_A; dsimp only; sl_unfold_words
    refine (canon_row0 _ _ _ _ _ l).trans ?_
    rw [pay1_apply, pay6_apply, readCov_cleared, readAt_whole a2 h2, readAt_whole a3 h3]
    rfl
  · unfold out0_A_5
    rw [View.read_writes_eq_canon _ _ _ (cover0_A_5 c i a2 h2 a3 h3 a4 h4 a5 h5 a6 h6 a7 h7 hc x0 x1 x2 x3 x4)]
    unfold kernelRun0_A; dsimp only; sl_unfold_words
    refine (canon_row1 _ _ _ l).trans ?_
    rw [pay2_apply, pay5_apply, readCov_row1_cleared, readAt_whole a2 h2, readAt_whole a4 h4, readAt_whole a5 h5, readAt_whole a6 h6]
    rfl

/-- A LATER BLOCK OF A HALF: the buffer ends at what it held plus the block's column sums. -/
theorem out0_B_apply (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x2048x128 .f32) (h5 : a5.IsWhole) (a6 : Memref sig .tc .vmem S1x2048x128 .f32) (h6 : a6.IsWhole) (a7 : Memref sig .tc .vmem S1x2x128 .f32) (h7 : a7.IsWhole) (hc : ¬cond0_0 i)
    (x0 x1 x2 x3 x4 : Vec Ideal S1x2048x128 .f32) (xo : Vec Ideal S1x2x128 .f32) (l : Fin 128) :
    out0_B_5 (F := Ideal) c i a2 h2 a3 h3 a4 h4 a5 h5 a6 h6 a7 h7 hc x0 x1 x2 x3 x4 xo (ix3 (0 : Fin 1) (0 : Fin 2) l) = xo (ix3 (0 : Fin 1) (0 : Fin 2) l) + colC0 x0 x1 l
    ∧ out0_B_5 (F := Ideal) c i a2 h2 a3 h3 a4 h4 a5 h5 a6 h6 a7 h7 hc x0 x1 x2 x3 x4 xo (ix3 (0 : Fin 1) (1 : Fin 2) l) = xo (ix3 (0 : Fin 1) (1 : Fin 2) l) + colV0 x0 x2 x3 x4 l := by
  constructor
  · unfold out0_B_5
    rw [View.read_writes_eq_canon _ _ _ (cover0_B_5 c i a2 h2 a3 h3 a4 h4 a5 h5 a6 h6 a7 h7 hc x0 x1 x2 x3 x4 xo)]
    unfold kernelRun0_B; dsimp only; sl_unfold_words
    refine (canon_row0 _ _ _ _ _ l).trans ?_
    rw [pay1_apply, pay6_apply, readAt_row0 a7 h7, readAt_whole a2 h2, readAt_whole a3 h3]
    rfl
  · unfold out0_B_5
    rw [View.read_writes_eq_canon _ _ _ (cover0_B_5 c i a2 h2 a3 h3 a4 h4 a5 h5 a6 h6 a7 h7 hc x0 x1 x2 x3 x4 xo)]
    unfold kernelRun0_B; dsimp only; sl_unfold_words
    refine (canon_row1 _ _ _ l).trans ?_
    rw [pay2_apply, pay5_apply, readAt_row1 a7 h7, readAt_whole a2 h2, readAt_whole a4 h4, readAt_whole a5 h5, readAt_whole a6 h6]
    rfl

end Cert.KernelIdeal.Energy

end
-- ==== Proof.IdealCall0Sum.lean ====
/-
  Pallas call 0 of the pair-energy program, on the extended reals: the output array after the call.

  Per half c and lane l the output buffer's two rows run through the fifteen blocks of the half as running sums of the
  blocks' column sums, starting from the word 0.0; after the fifteenth block the buffer is written back to block
  (c, 0, 0) of the output array [2, 2, 128].  So entry (c, row, l) of the array ends at the sum, over the fifteen blocks
  k and the 2048 rows r of a block, of the per-pair term at entry (c, k·2048 + r, l) of the input arrays.
-/
import proofs.«406529_j45191645888923_3_alg».proof.Proof.IdealCall0Pieces
import proofs.«406529_j45191645888923_3_alg».proof.Proof.PairSums
import Idealize.ShloMosaic.Lib.Pipeline.Value

set_option maxRecDepth 16384

noncomputable section

namespace Cert.KernelIdeal.Energy

open Cert.KernelIdeal Cert.KernelIdeal.Gen
open Idealize.ShloMosaic Idealize.ShloMosaic.TcCoe Idealize.ShloMosaic.ValueIdx Idealize.SL.Sem
open Idealize.ShloMosaic.Pipeline (Dat)
open Cert.PairEnergy (tc tv zero runSum)

variable (V : (c : Dev nD) → (b : Ref sig .tc) → Buf (Elt Ideal) ((c : Thread nD τ).loc b))

/-! ## The running sums through a half -/

/-- The Coulomb column sum, at lane l, of the block at grid position p (nothing past the grid). -/
def colCn0 (c0 : Dev nD) (l : Fin 128) (p : ℕ) : EReal :=
  if h : p < cfg0.N then colC0 (iblk0 V c0 0 ⟨p, h⟩) (iblk0 V c0 1 ⟨p, h⟩) l else 0

/-- The van der Waals column sum, at lane l, of the block at grid position p. -/
def colVn0 (c0 : Dev nD) (l : Fin 128) (p : ℕ) : EReal :=
  if h : p < cfg0.N then colV0 (iblk0 V c0 0 ⟨p, h⟩) (iblk0 V c0 2 ⟨p, h⟩) (iblk0 V c0 3 ⟨p, h⟩) (iblk0 V c0 4 ⟨p, h⟩) l else 0

/-- The buffer's contents after a point depend on the point's number only. -/
theorem outsAt0_congr (c0 : Dev nD) {n n' : ℕ} (e : n = n') (hn : n < cfg0.N) (hn' : n' < cfg0.N) {y y' : S1x2x128.Idx} (ey : y = y') :
    outsAt0 V c0 n hn y = outsAt0 V c0 n' hn' y' := by
  subst e; subst ey; rfl

/-- After block j of half h the two rows of the buffer hold the running sums of the column sums of blocks 0 … j of
    that half: by induction on j, the first block clearing, every later block adding. -/
theorem outsAt0_half (c0 : Dev nD) (l : Fin 128) (h : ℕ) : ∀ (j : ℕ) (hj : j < 15) (hn : h * 15 + j < cfg0.N),
    outsAt0 V c0 (h * 15 + j) hn (ix3 (0 : Fin 1) (0 : Fin 2) l) = runSum zero (fun k => colCn0 V c0 l (h * 15 + k)) j
    ∧ outsAt0 V c0 (h * 15 + j) hn (ix3 (0 : Fin 1) (1 : Fin 2) l) = runSum zero (fun k => colVn0 V c0 l (h * 15 + k)) j
  | 0, hj, hn => by
    have h0 : (⟨h * 15 + 0, hn⟩ : Fin cfg0.N).val % 15 = 0 := by dsimp only; omega
    have e := outsAt0_A V c0 ⟨h * 15 + 0, hn⟩ h0
    have hA := out0_A_apply c0 (grid0.coords ⟨h * 15 + 0, hn⟩) (ms0_0 ⟨h * 15 + 0, hn⟩) (hs0_0 ⟨h * 15 + 0, hn⟩) (ms0_1 ⟨h * 15 + 0, hn⟩) (hs0_1 ⟨h * 15 + 0, hn⟩) (ms0_2 ⟨h * 15 + 0, hn⟩) (hs0_2 ⟨h * 15 + 0, hn⟩) (ms0_3 ⟨h * 15 + 0, hn⟩) (hs0_3 ⟨h * 15 + 0, hn⟩) (ms0_4 ⟨h * 15 + 0, hn⟩) (hs0_4 ⟨h * 15 + 0, hn⟩) (ms0_5 ⟨h * 15 + 0, hn⟩) (hs0_5 ⟨h * 15 + 0, hn⟩) ((hcond0_0 ⟨h * 15 + 0, hn⟩).mpr h0)
      (iblk0 V c0 0 ⟨h * 15 + 0, hn⟩) (iblk0 V c0 1 ⟨h * 15 + 0, hn⟩) (iblk0 V c0 2 ⟨h * 15 + 0, hn⟩) (iblk0 V c0 3 ⟨h * 15 + 0, hn⟩) (iblk0 V c0 4 ⟨h * 15 + 0, hn⟩) l
    constructor
    · refine (congrFun e _).trans (hA.1.trans ?_)
      show zero + _ = zero + colCn0 V c0 l (h * 15 + 0)
      unfold colCn0; rw [dif_pos hn]
    · refine (congrFun e _).trans (hA.2.trans ?_)
      show zero + _ = zero + colVn0 V c0 l (h * 15 + 0)
      unfold colVn0; rw [dif_pos hn]
  | j + 1, hj, hn => by
    have hN : cfg0.N = 30 := N_0
    have h0 : ¬(⟨h * 15 + (j + 1), hn⟩ : Fin cfg0.N).val % 15 = 0 := by dsimp only; omega
    have e := outsAt0_B V c0 ⟨h * 15 + (j + 1), hn⟩ h0
    have hprev : h * 15 + j < cfg0.N := by omega
    have ih := outsAt0_half c0 l h j (by omega) hprev
    have hB := out0_B_apply c0 (grid0.coords ⟨h * 15 + (j + 1), hn⟩) (ms0_0 ⟨h * 15 + (j + 1), hn⟩) (hs0_0 ⟨h * 15 + (j + 1), hn⟩) (ms0_1 ⟨h * 15 + (j + 1), hn⟩) (hs0_1 ⟨h * 15 + (j + 1), hn⟩) (ms0_2 ⟨h * 15 + (j + 1), hn⟩) (hs0_2 ⟨h * 15 + (j + 1), hn⟩) (ms0_3 ⟨h * 15 + (j + 1), hn⟩) (hs0_3 ⟨h * 15 + (j + 1), hn⟩) (ms0_4 ⟨h * 15 + (j + 1), hn⟩) (hs0_4 ⟨h * 15 + (j + 1), hn⟩) (ms0_5 ⟨h * 15 + (j + 1), hn⟩) (hs0_5 ⟨h * 15 + (j + 1), hn⟩) (fun hc => h0 ((hcond0_0 ⟨h * 15 + (j + 1), hn⟩).mp hc))
      (iblk0 V c0 0 ⟨h * 15 + (j + 1), hn⟩) (iblk0 V c0 1 ⟨h * 15 + (j + 1), hn⟩) (iblk0 V c0 2 ⟨h * 15 + (j + 1), hn⟩) (iblk0 V c0 3 ⟨h * 15 + (j + 1), hn⟩) (iblk0 V c0 4 ⟨h * 15 + (j + 1), hn⟩)
      (outsAt0 V c0 ((⟨h * 15 + (j + 1), hn⟩ : Fin cfg0.N).val - 1) (Nat.lt_of_le_of_lt (Nat.sub_le _ _) hn)) l
    constructor
    · refine (congrFun e _).trans (hB.1.trans ?_)
      rw [outsAt0_congr V c0 (show (⟨h * 15 + (j + 1), hn⟩ : Fin cfg0.N).val - 1 = h * 15 + j from by dsimp only; omega) _ hprev rfl, ih.1]
      show _ + _ = runSum zero _ j + colCn0 V c0 l (h * 15 + (j + 1))
      unfold colCn0; rw [dif_pos hn]
    · refine (congrFun e _).trans (hB.2.trans ?_)
      rw [outsAt0_congr V c0 (show (⟨h * 15 + (j + 1), hn⟩ : Fin cfg0.N).val - 1 = h * 15 + j from by dsimp only; omega) _ hprev rfl, ih.2]
      show _ + _ = runSum zero _ j + colVn0 V c0 l (h * 15 + (j + 1))
      unfold colVn0; rw [dif_pos hn]

/-! ## Where the blocks sit -/

/-- The printed block indices, decided over the grid: at point t an input window's block is (t / 15, t % 15, 0) and the
    output window's is (t / 15, 0, 0). -/
theorem idx_facts0 : ∀ t : Fin cfg0.N,
    (win0_0.index t (0 : Fin 3) = t.val / 15 ∧ win0_0.index t (1 : Fin 3) = t.val % 15 ∧ win0_0.index t (2 : Fin 3) = 0)
    ∧ (win0_1.index t (0 : Fin 3) = t.val / 15 ∧ win0_1.index t (1 : Fin 3) = t.val % 15 ∧ win0_1.index t (2 : Fin 3) = 0)
    ∧ (win0_2.index t (0 : Fin 3) = t.val / 15 ∧ win0_2.index t (1 : Fin 3) = t.val % 15 ∧ win0_2.index t (2 : Fin 3) = 0)
    ∧ (win0_3.index t (0 : Fin 3) = t.val / 15 ∧ win0_3.index t (1 : Fin 3) = t.val % 15 ∧ win0_3.index t (2 : Fin 3) = 0)
    ∧ (win0_4.index t (0 : Fin 3) = t.val / 15 ∧ win0_4.index t (1 : Fin 3) = t.val % 15 ∧ win0_4.index t (2 : Fin 3) = 0)
    ∧ (win0_5.index t (0 : Fin 3) = t.val / 15 ∧ win0_5.index t (1 : Fin 3) = 0 ∧ win0_5.index t (2 : Fin 3) = 0) :=
  (by decide +kernel : ∀ t : Fin grid0.N, _)

/-- Row r of block k of a half, as a row of the half. -/
def blkRow0 (k : Fin 15) (r : Fin 2048) : Fin 30720 := ⟨k.val * 2048 + r.val, by omega⟩

/-- Entry (r, l) of input window 0's block at point c·15 + k is entry (c, k·2048 + r, l) of its array. -/
theorem iblk0_0_apply (c0 : Dev nD) (c : Fin 2) (k : Fin 15) (hn : c.val * 15 + k.val < cfg0.N) (r : Fin 2048) (l : Fin 128) :
    iblk0 V c0 0 ⟨c.val * 15 + k.val, hn⟩ (ix3 (0 : Fin 1) r l) = V c0 main_v6 (ix3 c (blkRow0 k r) l) := by
  obtain ⟨⟨e0, e1, e2⟩, -, -, -, -, -⟩ := idx_facts0 ⟨c.val * 15 + k.val, hn⟩
  dsimp only at e0 e1 e2
  show V c0 main_v6 (((cfg0.win 0).blk ⟨c.val * 15 + k.val, hn⟩).view.emb (ix3 (0 : Fin 1) r l)) = _
  refine congrArg (V c0 main_v6) (funext fun a => Fin.ext ?_)
  match a with
  | ⟨0, _⟩ => show win0_0.index ⟨c.val * 15 + k.val, hn⟩ (0 : Fin 3) * 1 + 1 * 0 = c.val; omega
  | ⟨1, _⟩ => show win0_0.index ⟨c.val * 15 + k.val, hn⟩ (1 : Fin 3) * 2048 + 1 * r.val = k.val * 2048 + r.val; omega
  | ⟨2, _⟩ => show win0_0.index ⟨c.val * 15 + k.val, hn⟩ (2 : Fin 3) * 128 + 1 * l.val = l.val; omega

/-- Entry (r, l) of input window 1's block at point c·15 + k is entry (c, k·2048 + r, l) of its array. -/
theorem iblk0_1_apply (c0 : Dev nD) (c : Fin 2) (k : Fin 15) (hn : c.val * 15 + k.val < cfg0.N) (r : Fin 2048) (l : Fin 128) :
    iblk0 V c0 1 ⟨c.val * 15 + k.val, hn⟩ (ix3 (0 : Fin 1) r l) = V c0 main_v8 (ix3 c (blkRow0 k r) l) := by
  obtain ⟨-, ⟨e0, e1, e2⟩, -, -, -, -⟩ := idx_facts0 ⟨c.val * 15 + k.val, hn⟩
  dsimp only at e0 e1 e2
  show V c0 main_v8 (((cfg0.win 1).blk ⟨c.val * 15 + k.val, hn⟩).view.emb (ix3 (0 : Fin 1) r l)) = _
  refine congrArg (V c0 main_v8) (funext fun a => Fin.ext ?_)
  match a with
  | ⟨0, _⟩ => show win0_1.index ⟨c.val * 15 + k.val, hn⟩ (0 : Fin 3) * 1 + 1 * 0 = c.val; omega
  | ⟨1, _⟩ => show win0_1.index ⟨c.val * 15 + k.val, hn⟩ (1 : Fin 3) * 2048 + 1 * r.val = k.val * 2048 + r.val; omega
  | ⟨2, _⟩ => show win0_1.index ⟨c.val * 15 + k.val, hn⟩ (2 : Fin 3) * 128 + 1 * l.val = l.val; omega

/-- Entry (r, l) of input window 2's block at point c·15 + k is entry (c, k·2048 + r, l) of its array. -/
theorem iblk0_2_apply (c0 : Dev nD) (c : Fin 2) (k : Fin 15) (hn : c.val * 15 + k.val < cfg0.N) (r : Fin 2048) (l : Fin 128) :
    iblk0 V c0 2 ⟨c.val * 15 + k.val, hn⟩ (ix3 (0 : Fin 1) r l) = V c0 main_v10 (ix3 c (blkRow0 k r) l) := by
  obtain ⟨-, -, ⟨e0, e1, e2⟩, -, -, -⟩ := idx_facts0 ⟨c.val * 15 + k.val, hn⟩
  dsimp only at e0 e1 e2
  show V c0 main_v10 (((cfg0.win 2).blk ⟨c.val * 15 + k.val, hn⟩).view.emb (ix3 (0 : Fin 1) r l)) = _
  refine congrArg (V c0 main_v10) (funext fun a => Fin.ext ?_)
  match a with
  | ⟨0, _⟩ => show win0_2.index ⟨c.val * 15 + k.val, hn⟩ (0 : Fin 3) * 1 + 1 * 0 = c.val; omega
  | ⟨1, _⟩ => show win0_2.index ⟨c.val * 15 + k.val, hn⟩ (1 : Fin 3) * 2048 + 1 * r.val = k.val * 2048 + r.val; omega
  | ⟨2, _⟩ => show win0_2.index ⟨c.val * 15 + k.val, hn⟩ (2 : Fin 3) * 128 + 1 * l.val = l.val; omega

/-- Entry (r, l) of input window 3's block at point c·15 + k is entry (c, k·2048 + r, l) of its array. -/
theorem iblk0_3_apply (c0 : Dev nD) (c : Fin 2) (k : Fin 15) (hn : c.val * 15 + k.val < cfg0.N) (r : Fin 2048) (l : Fin 128) :
    iblk0 V c0 3 ⟨c.val * 15 + k.val, hn⟩ (ix3 (0 : Fin 1) r l) = V c0 main_v12 (ix3 c (blkRow0 k r) l) := by
  obtain ⟨-, -, -, ⟨e0, e1, e2⟩, -, -⟩ := idx_facts0 ⟨c.val * 15 + k.val, hn⟩
  dsimp only at e0 e1 e2
  show V c0 main_v12 (((cfg0.win 3).blk ⟨c.val * 15 + k.val, hn⟩).view.emb (ix3 (0 : Fin 1) r l)) = _
  refine congrArg (V c0 main_v12) (funext fun a => Fin.ext ?_)
  match a with
  | ⟨0, _⟩ => show win0_3.index ⟨c.val * 15 + k.val, hn⟩ (0 : Fin 3) * 1 + 1 * 0 = c.val; omega
  | ⟨1, _⟩ => show win0_3.index ⟨c.val * 15 + k.val, hn⟩ (1 : Fin 3) * 2048 + 1 * r.val = k.val * 2048 + r.val; omega
  | ⟨2, _⟩ => show win0_3.index ⟨c.val * 15 + k.val, hn⟩ (2 : Fin 3) * 128 + 1 * l.val = l.val; omega

/-- Entry (r, l) of input window 4's block at point c·15 + k is entry (c, k·2048 + r, l) of its array. -/
theorem iblk0_4_apply (c0 : Dev nD) (c : Fin 2) (k : Fin 15) (hn : c.val * 15 + k.val < cfg0.N) (r : Fin 2048) (l : Fin 128) :
    iblk0 V c0 4 ⟨c.val * 15 + k.val, hn⟩ (ix3 (0 : Fin 1) r l) = V c0 main_v14 (ix3 c (blkRow0 k r) l) := by
  obtain ⟨-, -, -, -, ⟨e0, e1, e2⟩, -⟩ := idx_facts0 ⟨c.val * 15 + k.val, hn⟩
  dsimp only at e0 e1 e2
  show V c0 main_v14 (((cfg0.win 4).blk ⟨c.val * 15 + k.val, hn⟩).view.emb (ix3 (0 : Fin 1) r l)) = _
  refine congrArg (V c0 main_v14) (funext fun a => Fin.ext ?_)
  match a with
  | ⟨0, _⟩ => show win0_4.index ⟨c.val * 15 + k.val, hn⟩ (0 : Fin 3) * 1 + 1 * 0 = c.val; omega
  | ⟨1, _⟩ => show win0_4.index ⟨c.val * 15 + k.val, hn⟩ (1 : Fin 3) * 2048 + 1 * r.val = k.val * 2048 + r.val; omega
  | ⟨2, _⟩ => show win0_4.index ⟨c.val * 15 + k.val, hn⟩ (2 : Fin 3) * 128 + 1 * l.val = l.val; omega

/-! ## The output array -/

/-- The array the write-backs leave, as one function of the index: entry (c, row, l) is what the buffer held at
    (row, l) after the last block of half c. -/
def Gfin0 (c0 : Dev nD) : Buf (Elt Ideal) ((c0 : Thread nD τ).loc main_v15) := fun (i : S2x2x128.Idx) =>
  outsAt0 V c0 ((i 0).val * 15 + 14) (by have h : (i 0).val < 2 := (i 0).isLt; have hN : cfg0.N = 30 := N_0; omega)
    (ix3 (0 : Fin 1) (⟨(i 1).val, (i 1).isLt⟩ : Fin 2) (⟨(i 2).val, (i 2).isLt⟩ : Fin 128))

/-- What a writing-back point writes is its block of that function. -/
theorem flushed_eq0 (c0 : Dev nD) (t : Fin cfg0.N) (hf : (cfg0.win 5).flush t = true) :
    (dat0 V c0).flushed 5 t = ((cfg0.win 5).blk t).view.read (Elt Ideal) (Gfin0 V c0) := by
  have hN : cfg0.N = 30 := N_0
  have h14 : t.val % 15 = 14 := (flush0_5 t).mp hf
  obtain ⟨-, -, -, -, -, e0, e1, e2⟩ := idx_facts0 t
  show (cfg0.win 5).cut (grid0.coords t) ((dat0 V c0).after 5 t) = _
  rw [after0_5]
  funext x
  show outsAt0 V c0 t.val t.isLt x = Gfin0 V c0 (((cfg0.win 5).blk t).view.emb x)
  unfold Gfin0
  have hx0 : (x 0).val < 1 := (x 0).isLt
  refine outsAt0_congr V c0 ?_ _ _ ?_
  · show t.val = (win0_5.index t (0 : Fin 3) * 1 + 1 * (x 0).val) * 15 + 14
    omega
  · funext a; apply Fin.ext
    match a with
    | ⟨0, _⟩ => show (x 0).val = 0; omega
    | ⟨1, _⟩ => show (x 1).val = win0_5.index t (1 : Fin 3) * 2 + 1 * (x 1).val; omega
    | ⟨2, _⟩ => show (x 2).val = win0_5.index t (2 : Fin 3) * 128 + 1 * (x 2).val; omega

/-- An index of the output array is in point t's block iff each coordinate is in the block's range on its axis. -/
theorem mem_blk0 (t : Fin cfg0.N) (i : S2x2x128.Idx) :
    i ∈ ((cfg0.win 5).blk t).view.set ↔ ∀ a : Fin 3, win0_5.index t a * S1x2x128.size a ≤ (i a).val ∧ (i a).val < win0_5.index t a * S1x2x128.size a + S1x2x128.size a := by
  show i ∈ ((View.whole main_v15).slice (win0_5.rect t)).set ↔ _
  rw [View.set_slice_whole, Rect.mem_set_unit]
  exact Iff.rfl

/-- Entry (c, row, l) of the output array after the call: the buffer after the last block of half c. -/
theorem final0_at (c0 : Dev nD) (c : Fin 2) (row : Fin 2) (l : Fin 128) (hn : c.val * 15 + 14 < cfg0.N) :
    (dat0 V c0).arrAt 5 cfg0.N (ix3 c row l) = outsAt0 V c0 (c.val * 15 + 14) hn (ix3 (0 : Fin 1) row l) := by
  have hN : cfg0.N = 30 := N_0
  obtain ⟨-, -, -, -, -, e0, e1, e2⟩ := idx_facts0 ⟨c.val * 15 + 14, hn⟩
  dsimp only at e0 e1 e2
  have hfl : (cfg0.win 5).flush ⟨c.val * 15 + 14, hn⟩ = true := (flush0_5 _).mpr (by dsimp only; omega)
  have hmem : (ix3 c row l : S2x2x128.Idx) ∈ ((cfg0.win 5).blk ⟨c.val * 15 + 14, hn⟩).view.set := by
    rw [mem_blk0]; intro a
    match a with
    | ⟨0, _⟩ => show win0_5.index ⟨c.val * 15 + 14, hn⟩ (0 : Fin 3) * 1 ≤ c.val ∧ c.val < win0_5.index ⟨c.val * 15 + 14, hn⟩ (0 : Fin 3) * 1 + 1; omega
    | ⟨1, _⟩ => show win0_5.index ⟨c.val * 15 + 14, hn⟩ (1 : Fin 3) * 2 ≤ row.val ∧ row.val < win0_5.index ⟨c.val * 15 + 14, hn⟩ (1 : Fin 3) * 2 + 2; omega
    | ⟨2, _⟩ => show win0_5.index ⟨c.val * 15 + 14, hn⟩ (2 : Fin 3) * 128 ≤ l.val ∧ l.val < win0_5.index ⟨c.val * 15 + 14, hn⟩ (2 : Fin 3) * 128 + 128; omega
  refine ((dat0 V c0).arrAt_apply_of_mem 5 (Gfin0 V c0) (flushed_eq0 V c0) cfg0.N ⟨c.val * 15 + 14, hn⟩ (ix3 c row l) hn hfl hmem).trans ?_
  unfold Gfin0
  exact outsAt0_congr V c0 rfl _ _ rfl

/-- THE OUTPUT ARRAY OF CALL 0: entry (c, 0, l) is the sum over the fifteen blocks and their 2048 rows of the Coulomb
    term at entry (c, k·2048 + r, l) of the input arrays; entry (c, 1, l) the same sum of the van der Waals term. -/
theorem final0_apply (c0 : Dev nD) (c : Fin 2) (l : Fin 128) :
    @Eq EReal ((dat0 V c0).arrAt 5 cfg0.N (ix3 c (0 : Fin 2) l))
        (∑ k : Fin 15, ∑ r : Fin 2048, tc (V c0 main_v6 (ix3 c (blkRow0 k r) l)) (V c0 main_v8 (ix3 c (blkRow0 k r) l)))
    ∧ @Eq EReal ((dat0 V c0).arrAt 5 cfg0.N (ix3 c (1 : Fin 2) l))
        (∑ k : Fin 15, ∑ r : Fin 2048, tv (V c0 main_v6 (ix3 c (blkRow0 k r) l)) (V c0 main_v10 (ix3 c (blkRow0 k r) l))
            (V c0 main_v12 (ix3 c (blkRow0 k r) l)) (V c0 main_v14 (ix3 c (blkRow0 k r) l))) := by
  have hN : cfg0.N = 30 := N_0
  have hn : c.val * 15 + 14 < cfg0.N := by omega
  have hh := outsAt0_half V c0 l c.val 14 (by omega) hn
  constructor
  · have e1 : @Eq EReal ((dat0 V c0).arrAt 5 cfg0.N (ix3 c (0 : Fin 2) l)) (runSum zero (fun k => colCn0 V c0 l (c.val * 15 + k)) 14) :=
      (final0_at V c0 c 0 l hn).trans hh.1
    refine e1.trans ?_
    rw [Cert.PairEnergy.zero_eq, Cert.PairEnergy.runSum_fifteen]
    refine Finset.sum_congr rfl fun k _ => ?_
    have hk : c.val * 15 + k.val < cfg0.N := by omega
    unfold colCn0; rw [dif_pos hk]; unfold colC0
    refine Finset.sum_congr rfl fun r _ => ?_
    rw [iblk0_0_apply V c0 c k hk r l, iblk0_1_apply V c0 c k hk r l]
  · have e1 : @Eq EReal ((dat0 V c0).arrAt 5 cfg0.N (ix3 c (1 : Fin 2) l)) (runSum zero (fun k => colVn0 V c0 l (c.val * 15 + k)) 14) :=
      (final0_at V c0 c 1 l hn).trans hh.2
    refine e1.trans ?_
    rw [Cert.PairEnergy.zero_eq, Cert.PairEnergy.runSum_fifteen]
    refine Finset.sum_congr rfl fun k _ => ?_
    have hk : c.val * 15 + k.val < cfg0.N := by omega
    unfold colVn0; rw [dif_pos hk]; unfold colV0
    refine Finset.sum_congr rfl fun r _ => ?_
    rw [iblk0_0_apply V c0 c k hk r l, iblk0_2_apply V c0 c k hk r l, iblk0_3_apply V c0 c k hk r l, iblk0_4_apply V c0 c k hk r l]

end Cert.KernelIdeal.Energy

end
-- ==== Proof.IdealCall1Pieces.lean ====
/-
  Pallas call 1 of the pair-energy program, on the extended reals: what one grid point leaves in the output buffer.

  A block holds 128 rows of 128 lanes of each of the five inputs (squared distance, Coulomb coefficient, and the three
  van der Waals coefficients).  The body forms the two per-pair terms entry by entry and sums each over the 128 rows,
  lane by lane; row 0 of the output buffer receives the Coulomb column sums, row 1 the van der Waals ones — added to a
  cleared buffer at the first block of a half, to what the buffer held at a later block.
-/
import proofs.«406529_j45191645888923_3_alg».proof.Proof.IdealCall1
import proofs.«406529_j45191645888923_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Energy

open Cert.KernelIdeal Cert.KernelIdeal.Gen
open Idealize.ShloMosaic Idealize.ShloMosaic.TcCoe Idealize.ShloMosaic.Tactic Idealize.ShloMosaic.ValueIdx Idealize.SL.Sem
open Cert.PairEnergy (tc tv zero)

/-- The Coulomb column sum of one block at lane l: over its 128 rows, q · √(1/r²). -/
def colC1 (x0 x1 : Vec Ideal S1x128x128 .f32) (l : Fin 128) : EReal :=
  ∑ r : Fin 128, tc (x0 (ix3 (0 : Fin 1) r l)) (x1 (ix3 (0 : Fin 1) r l))

/-- The van der Waals column sum of one block at lane l. -/
def colV1 (x0 x2 x3 x4 : Vec Ideal S1x128x128 .f32) (l : Fin 128) : EReal :=
  ∑ r : Fin 128, tv (x0 (ix3 (0 : Fin 1) r l)) (x2 (ix3 (0 : Fin 1) r l)) (x3 (ix3 (0 : Fin 1) r l)) (x4 (ix3 (0 : Fin 1) r l))

/-! ## The payloads read at an index, on the extended reals -/

/-- The reciprocal payload at row r, lane l: 1/r² of the block's entry there. -/
private theorem pay4_apply (v3 : Vec Ideal S1x128x128 .f32) (r : Fin 128) (l : Fin 128) :
    k1_pay4 (F := Ideal) v3 (ix2 r l) = Cert.PairEnergy.inv (v3 (ix3 (0 : Fin 1) r l)) := by
  unfold k1_pay4
  show Ideal.div (Ideal.ofBits .f32 0x3F800000#32) (shapeCast S128x128 v3 shapeCasts_S1x128x128_S128x128 (ix2 r l)) = _
  rw [shapeCast_1ab_ab_apply]
  rfl

/-- The clearing payload is the word 0.0 at every index. -/
private theorem pay3_apply (y : S1x2x128.Idx) : k1_pay3 (F := Ideal) y = zero := by
  obtain ⟨a, b, c, rfl⟩ : ∃ a b c, y = ix3 a b c := ⟨_, _, _, eq_ix3 y⟩
  unfold k1_pay3
  refine (shapeCast_ab_1ab_apply _ _ a b c).trans ?_
  rfl

/-- The row-0 store's payload at lane l: its operand there (a unit axis added). -/
private theorem pay1_apply (v33 : FVec Ideal S1x128 .f32) (l : Fin 128) :
    k1_pay1 (F := Ideal) v33 (ix3 (0 : Fin 1) (0 : Fin 1) l) = v33 (ix2 (0 : Fin 1) l) := by
  unfold k1_pay1
  exact shapeCast_ab_1ab_apply _ _ _ _ _

/-- The row-1 store's payload at lane l: the loaded row plus the column sums there. -/
private theorem pay2_apply (v30 : FVec Ideal S1x128 .f32) (v37 : Vec Ideal S1x1x128 .f32) (l : Fin 128) :
    k1_pay2 (F := Ideal) v30 v37 (ix3 (0 : Fin 1) (0 : Fin 1) l) = v37 (ix3 (0 : Fin 1) (0 : Fin 1) l) + v30 (ix2 (0 : Fin 1) l) := by
  unfold k1_pay2
  refine (shapeCast_ab_1ab_apply _ _ _ _ _).trans ?_
  rw [addf_apply, shapeCast_1ab_ab_apply]

/-- The index a reduction over the rows inserts at lane l is (r, l). -/
private theorem lift_row (l : Fin 128) (r : Fin 128) : reduces_S128x128_S128.lift (ix1 l) r = ix2 r l := by
  funext a
  match a with
  | ⟨0, _⟩ => exact Fin.ext rfl
  | ⟨1, _⟩ => exact Fin.ext rfl

/-- The Coulomb payload at lane l: the loaded row plus the sum over the 128 rows of q · √(1/r²). -/
private theorem pay6_apply (v3 v5 : Vec Ideal S1x128x128 .f32) (v31 : Vec Ideal S1x1x128 .f32) (l : Fin 128) :
    k1_pay6 (F := Ideal) v3 v5 v31 (ix2 (0 : Fin 1) l) = v31 (ix3 (0 : Fin 1) (0 : Fin 1) l) + ∑ r : Fin 128, tc (v3 (ix3 (0 : Fin 1) r l)) (v5 (ix3 (0 : Fin 1) r l)) := by
  unfold k1_pay6
  rw [addf_apply, shapeCast_1ab_ab_apply, shapeCast_a_1a_apply]
  congr 1
  refine (Ideal.multiReduction_add_single (φ := .f32) _ _ reduces_S128x128_S128 (.inl rfl) rfl (ix1 l)).trans ?_
  refine Finset.sum_congr rfl fun (r : Fin 128) _ => ?_
  rw [lift_row l r, mulf_apply, shapeCast_1ab_ab_apply]
  show v5 (ix3 (0 : Fin 1) r l) * Ideal.sqrt (k1_pay4 (F := Ideal) v3 (ix2 r l)) = _
  rw [pay4_apply]
  rfl

/-- The van der Waals payload at lane l: the sum over the 128 rows of the van der Waals term. -/
private theorem pay5_apply (v3 v7 v9 v11 : Vec Ideal S1x128x128 .f32) (l : Fin 128) :
    k1_pay5 (F := Ideal) v3 v7 v9 v11 (ix2 (0 : Fin 1) l)
      = ∑ r : Fin 128, tv (v3 (ix3 (0 : Fin 1) r l)) (v7 (ix3 (0 : Fin 1) r l)) (v9 (ix3 (0 : Fin 1) r l)) (v11 (ix3 (0 : Fin 1) r l)) := by
  unfold k1_pay5
  rw [shapeCast_a_1a_apply]
  refine (Ideal.multiReduction_add_single (φ := .f32) _ _ reduces_S128x128_S128 (.inl rfl) rfl (ix1 l)).trans ?_
  refine Finset.sum_congr rfl fun (r : Fin 128) _ => ?_
  rw [lift_row l r]
  simp only [subf_apply, mulf_apply, shapeCast_1ab_ab_apply, pay4_apply]
  rfl

/-! ## The two rows of the [1,2,128] buffer as unit rectangles -/

/-- The zero offsets of a rank-3 rectangle, as a constant function. -/
private theorem hz3 : (![0, 0, 0] : Fin 3 → ℕ) = fun _ => 0 := funext fun a => by fin_cases a <;> rfl

/-- Lane l of the row-0 rectangle is the buffer's index (0, 0, l). -/
private theorem row0_idx (inb : ∀ a, (![0, 0, 0] : Fin 3 → ℕ) a + (![1, 1, 128] : Fin 3 → ℕ) a ≤ S1x2x128.size a) (l : Fin 128) :
    (Rect.unit (s := S1x2x128) ![0, 0, 0] ![1, 1, 128] inb).idx (ix3 (0 : Fin 1) (0 : Fin 1) l) = ix3 (0 : Fin 1) (0 : Fin 2) l := by
  funext a
  match a with
  | ⟨0, _⟩ => exact Fin.ext rfl
  | ⟨1, _⟩ => exact Fin.ext rfl
  | ⟨2, _⟩ => exact Fin.ext (by show 0 + 1 * l.val = l.val; omega)

/-- Lane l of the row-1 rectangle is the buffer's index (0, 1, l). -/
private theorem row1_idx (inb : ∀ a, (![0, 1, 0] : Fin 3 → ℕ) a + (![1, 1, 128] : Fin 3 → ℕ) a ≤ S1x2x128.size a) (l : Fin 128) :
    (Rect.unit (s := S1x2x128) ![0, 1, 0] ![1, 1, 128] inb).idx (ix3 (0 : Fin 1) (0 : Fin 1) l) = ix3 (0 : Fin 1) (1 : Fin 2) l := by
  funext a
  match a with
  | ⟨0, _⟩ => exact Fin.ext rfl
  | ⟨1, _⟩ => exact Fin.ext rfl
  | ⟨2, _⟩ => exact Fin.ext (by show 0 + 1 * l.val = l.val; omega)

/-- Row 0 lies off the row-1 rectangle … -/
private theorem row0_not_mem_row1 (inb : ∀ a, (![0, 1, 0] : Fin 3 → ℕ) a + (![1, 1, 128] : Fin 3 → ℕ) a ≤ S1x2x128.size a) (l : Fin 128) :
    ix3 (0 : Fin 1) (0 : Fin 2) l ∉ (Rect.unit (s := S1x2x128) ![0, 1, 0] ![1, 1, 128] inb).set := by
  rw [Rect.mem_set_unit]
  intro h
  have h1 : (1 : ℕ) ≤ 0 := (h (1 : Fin 3)).1
  omega

/-- … and row 1 off the row-0 rectangle. -/
private theorem row1_not_mem_row0 (inb : ∀ a, (![0, 0, 0] : Fin 3 → ℕ) a + (![1, 1, 128] : Fin 3 → ℕ) a ≤ S1x2x128.size a) (l : Fin 128) :
    ix3 (0 : Fin 1) (1 : Fin 2) l ∉ (Rect.unit (s := S1x2x128) ![0, 0, 0] ![1, 1, 128] inb).set := by
  rw [Rect.mem_set_unit]
  intro h
  have h1 : (1 : ℕ) < 0 + 1 := (h (1 : Fin 3)).2
  omega

/-- The canon under a last store to row 1, read on row 1: that store's payload. -/
private theorem canon_row1 (inb : ∀ a, (![0, 1, 0] : Fin 3 → ℕ) a + (![1, 1, 128] : Fin 3 → ℕ) a ≤ S1x2x128.size a)
    (w : (Rect.unit (s := S1x2x128) ![0, 1, 0] ![1, 1, 128] inb).shape.Idx → Elt Ideal .f32)
    (L : List (View.Piece (Elt Ideal) S1x2x128 .f32)) (l : Fin 128) :
    View.canon (⟨Rect.unit (s := S1x2x128) ![0, 1, 0] ![1, 1, 128] inb, w⟩ :: L) (ix3 (0 : Fin 1) (1 : Fin 2) l)
      = w (ix3 (0 : Fin 1) (0 : Fin 1) l) := by
  rw [← row1_idx inb l]
  exact View.canon_cons_emb _ w L _

/-- The canon under a last store to row 1 over a store to row 0, read on row 0: the row-0 store's payload. -/
private theorem canon_row0 (inb1 : ∀ a, (![0, 1, 0] : Fin 3 → ℕ) a + (![1, 1, 128] : Fin 3 → ℕ) a ≤ S1x2x128.size a)
    (w1 : (Rect.unit (s := S1x2x128) ![0, 1, 0] ![1, 1, 128] inb1).shape.Idx → Elt Ideal .f32)
    (inb0 : ∀ a, (![0, 0, 0] : Fin 3 → ℕ) a + (![1, 1, 128] : Fin 3 → ℕ) a ≤ S1x2x128.size a)
    (w0 : (Rect.unit (s := S1x2x128) ![0, 0, 0] ![1, 1, 128] inb0).shape.Idx → Elt Ideal .f32)
    (L : List (View.Piece (Elt Ideal) S1x2x128 .f32)) (l : Fin 128) :
    View.canon (⟨Rect.unit (s := S1x2x128) ![0, 1, 0] ![1, 1, 128] inb1, w1⟩ :: ⟨Rect.unit (s := S1x2x128) ![0, 0, 0] ![1, 1, 128] inb0, w0⟩ :: L)
        (ix3 (0 : Fin 1) (0 : Fin 2) l)
      = w0 (ix3 (0 : Fin 1) (0 : Fin 1) l) := by
  refine (View.canon_cons_of_not_mem (⟨_, w1⟩ : View.Piece (Elt Ideal) S1x2x128 .f32) _ (row0_not_mem_row1 inb1 l)).trans ?_
  rw [← row0_idx inb0 l]
  exact View.canon_cons_emb _ w0 L _

/-- A load of anything after only the clearing store reads the word 0.0. -/
private theorem readCov_cleared (a7 : Memref sig .tc .vmem S1x2x128 .f32)
    (inbz : ∀ a, (![0, 0, 0] : Fin 3 → ℕ) a + S1x2x128.size a ≤ S1x2x128.size a) (B : LoadRect S1x2x128) (j : B.shape.Idx) :
    a7.view.readCov [(⟨Rect.unit (s := S1x2x128) ![0, 0, 0] S1x2x128.size inbz, k1_pay3 (F := Ideal)⟩ : View.Piece (Elt Ideal) S1x2x128 .f32)] B j = zero := by
  rw [View.readCov_eq_canon', View.canon_unit_zero hz3]
  exact pay3_apply _

/-- A load of row 1 after the clearing store and a store to row 0 reads the word 0.0. -/
private theorem readCov_row1_cleared (a7 : Memref sig .tc .vmem S1x2x128 .f32)
    (inb0 : ∀ a, (![0, 0, 0] : Fin 3 → ℕ) a + (![1, 1, 128] : Fin 3 → ℕ) a ≤ S1x2x128.size a)
    (w0 : (Rect.unit (s := S1x2x128) ![0, 0, 0] ![1, 1, 128] inb0).shape.Idx → Elt Ideal .f32)
    (inbz : ∀ a, (![0, 0, 0] : Fin 3 → ℕ) a + S1x2x128.size a ≤ S1x2x128.size a)
    (inb1 : ∀ a, (![0, 1, 0] : Fin 3 → ℕ) a + (![1, 1, 128] : Fin 3 → ℕ) a ≤ S1x2x128.size a) (l : Fin 128) :
    a7.view.readCov [⟨Rect.unit (s := S1x2x128) ![0, 0, 0] ![1, 1, 128] inb0, w0⟩,
        (⟨Rect.unit (s := S1x2x128) ![0, 0, 0] S1x2x128.size inbz, k1_pay3 (F := Ideal)⟩ : View.Piece (Elt Ideal) S1x2x128 .f32)]
      (Rect.unit (s := S1x2x128) ![0, 1, 0] ![1, 1, 128] inb1).toLoadRect (ix3 (0 : Fin 1) (0 : Fin 1) l) = zero := by
  rw [View.readCov_eq_canon']
  show View.canon (Val := Elt Ideal) (e := .f32) _ ((Rect.unit (s := S1x2x128) ![0, 1, 0] ![1, 1, 128] inb1).idx (ix3 (0 : Fin 1) (0 : Fin 1) l)) = zero
  rw [row1_idx inb1 l]
  refine (View.canon_cons_of_not_mem (⟨_, w0⟩ : View.Piece (Elt Ideal) S1x2x128 .f32) _ (row1_not_mem_row0 inb0 l)).trans ?_
  rw [View.canon_unit_zero hz3]
  exact pay3_apply _

/-- A load of a whole input block reads the block. -/
private theorem readAt_whole (a : Memref sig .tc .vmem S1x128x128 .f32) (h : a.IsWhole)
    (inb : ∀ b, (![0, 0, 0] : Fin 3 → ℕ) b + S1x128x128.size b ≤ S1x128x128.size b) (X : Vec Ideal S1x128x128 .f32) :
    View.readAt (Elt Ideal) a.view (Rect.unit (s := S1x128x128) ![0, 0, 0] S1x128x128.size inb).toLoadRect (h.unread X) = X := by
  rw [View.readAt_eq_ld, h.read_unread, View.ld_unit_zero (S := S1x128x128) hz3]

/-- A load of row 0 of a buffer holding xo reads xo's row 0 … -/
private theorem readAt_row0 (a7 : Memref sig .tc .vmem S1x2x128 .f32) (h7 : a7.IsWhole)
    (inb : ∀ a, (![0, 0, 0] : Fin 3 → ℕ) a + (![1, 1, 128] : Fin 3 → ℕ) a ≤ S1x2x128.size a) (xo : Vec Ideal S1x2x128 .f32) (l : Fin 128) :
    View.readAt (Elt Ideal) a7.view (Rect.unit (s := S1x2x128) ![0, 0, 0] ![1, 1, 128] inb).toLoadRect (h7.unread xo) (ix3 (0 : Fin 1) (0 : Fin 1) l)
      = xo (ix3 (0 : Fin 1) (0 : Fin 2) l) := by
  rw [View.readAt_eq_ld, h7.read_unread]
  show xo ((Rect.unit (s := S1x2x128) ![0, 0, 0] ![1, 1, 128] inb).idx (ix3 (0 : Fin 1) (0 : Fin 1) l)) = _
  rw [row0_idx inb l]

/-- … and a load of row 1 its row 1. -/
private theorem readAt_row1 (a7 : Memref sig .tc .vmem S1x2x128 .f32) (h7 : a7.IsWhole)
    (inb : ∀ a, (![0, 1, 0] : Fin 3 → ℕ) a + (![1, 1, 128] : Fin 3 → ℕ) a ≤ S1x2x128.size a) (xo : Vec Ideal S1x2x128 .f32) (l : Fin 128) :
    View.readAt (Elt Ideal) a7.view (Rect.unit (s := S1x2x128) ![0, 1, 0] ![1, 1, 128] inb).toLoadRect (h7.unread xo) (ix3 (0 : Fin 1) (0 : Fin 1) l)
      = xo (ix3 (0 : Fin 1) (1 : Fin 2) l) := by
  rw [View.readAt_eq_ld, h7.read_unread]
  show xo ((Rect.unit (s := S1x2x128) ![0, 1, 0] ![1, 1, 128] inb).idx (ix3 (0 : Fin 1) (0 : Fin 1) l)) = _
  rw [row1_idx inb l]

/-- FIRST BLOCK OF A HALF: the buffer ends at the word 0.0 plus the block's column sums. -/
theorem out1_A_apply (c : Dev nD) (i : grid1.Coords) (a2 : Memref sig .tc .vmem S1x128x128 .f32) (h2 : a2.IsWhole) (a3 : Memref sig .tc .vmem S1x128x128 .f32) (h3 : a3.IsWhole) (a4 : Memref sig .tc .vmem S1x128x128 .f32) (h4 : a4.IsWhole) (a5 : Memref sig .tc .vmem S1x128x128 .f32) (h5 : a5.IsWhole) (a6 : Memref sig .tc .vmem S1x128x128 .f32) (h6 : a6.IsWhole) (a7 : Memref sig .tc .vmem S1x2x128 .f32) (h7 : a7.IsWhole) (hc : cond1_0 i)
    (x0 x1 x2 x3 x4 : Vec Ideal S1x128x128 .f32) (l : Fin 128) :
    out1_A_5 (F := Ideal) c i a2 h2 a3 h3 a4 h4 a5 h5 a6 h6 a7 h7 hc x0 x1 x2 x3 x4 (ix3 (0 : Fin 1) (0 : Fin 2) l) = zero + colC1 x0 x1 l
    ∧ out1_A_5 (F := Ideal) c i a2 h2 a3 h3 a4 h4 a5 h5 a6 h6 a7 h7 hc x0 x1 x2 x3 x4 (ix3 (0 : Fin 1) (1 : Fin 2) l) = zero + colV1 x0 x2 x3 x4 l := by
  constructor
  · unfold out1_A_5
    rw [View.read_writes_eq_canon _ _ _ (cover1_A_5 c i a2 h2 a3 h3 a4 h4 a5 h5 a6 h6 a7 h7 hc x0 x1 x2 x3 x4)]
    unfold kernelRun1_A; dsimp only; sl_unfold_words
    refine (canon_row0 _ _ _ _ _ l).trans ?_
    rw [pay1_apply, pay6_apply, readCov_cleared, readAt_whole a2 h2, readAt_whole a3 h3]
    rfl
  · unfold out1_A_5
    rw [View.read_writes_eq_canon _ _ _ (cover1_A_5 c i a2 h2 a3 h3 a4 h4 a5 h5 a6 h6 a7 h7 hc x0 x1 x2 x3 x4)]
    unfold kernelRun1_A; dsimp only; sl_unfold_words
    refine (canon_row1 _ _ _ l).trans ?_
    rw [pay2_apply, pay5_apply, readCov_row1_cleared, readAt_whole a2 h2, readAt_whole a4 h4, readAt_whole a5 h5, readAt_whole a6 h6]
    rfl

/-- A LATER BLOCK OF A HALF: the buffer ends at what it held plus the block's column sums. -/
theorem out1_B_apply (c : Dev nD) (i : grid1.Coords) (a2 : Memref sig .tc .vmem S1x128x128 .f32) (h2 : a2.IsWhole) (a3 : Memref sig .tc .vmem S1x128x128 .f32) (h3 : a3.IsWhole) (a4 : Memref sig .tc .vmem S1x128x128 .f32) (h4 : a4.IsWhole) (a5 : Memref sig .tc .vmem S1x128x128 .f32) (h5 : a5.IsWhole) (a6 : Memref sig .tc .vmem S1x128x128 .f32) (h6 : a6.IsWhole) (a7 : Memref sig .tc .vmem S1x2x128 .f32) (h7 : a7.IsWhole) (hc : ¬cond1_0 i)
    (x0 x1 x2 x3 x4 : Vec Ideal S1x128x128 .f32) (xo : Vec Ideal S1x2x128 .f32) (l : Fin 128) :
    out1_B_5 (F := Ideal) c i a2 h2 a3 h3 a4 h4 a5 h5 a6 h6 a7 h7 hc x0 x1 x2 x3 x4 xo (ix3 (0 : Fin 1) (0 : Fin 2) l) = xo (ix3 (0 : Fin 1) (0 : Fin 2) l) + colC1 x0 x1 l
    ∧ out1_B_5 (F := Ideal) c i a2 h2 a3 h3 a4 h4 a5 h5 a6 h6 a7 h7 hc x0 x1 x2 x3 x4 xo (ix3 (0 : Fin 1) (1 : Fin 2) l) = xo (ix3 (0 : Fin 1) (1 : Fin 2) l) + colV1 x0 x2 x3 x4 l := by
  constructor
  · unfold out1_B_5
    rw [View.read_writes_eq_canon _ _ _ (cover1_B_5 c i a2 h2 a3 h3 a4 h4 a5 h5 a6 h6 a7 h7 hc x0 x1 x2 x3 x4 xo)]
    unfold kernelRun1_B; dsimp only; sl_unfold_words
    refine (canon_row0 _ _ _ _ _ l).trans ?_
    rw [pay1_apply, pay6_apply, readAt_row0 a7 h7, readAt_whole a2 h2, readAt_whole a3 h3]
    rfl
  · unfold out1_B_5
    rw [View.read_writes_eq_canon _ _ _ (cover1_B_5 c i a2 h2 a3 h3 a4 h4 a5 h5 a6 h6 a7 h7 hc x0 x1 x2 x3 x4 xo)]
    unfold kernelRun1_B; dsimp only; sl_unfold_words
    refine (canon_row1 _ _ _ l).trans ?_
    rw [pay2_apply, pay5_apply, readAt_row1 a7 h7, readAt_whole a2 h2, readAt_whole a4 h4, readAt_whole a5 h5, readAt_whole a6 h6]
    rfl

end Cert.KernelIdeal.Energy

end
-- ==== Proof.IdealCall1Sum.lean ====
/-
  Pallas call 1 of the pair-energy program, on the extended reals: the output array after the call.

  Per half c and lane l the output buffer's two rows run through the fifteen blocks of the half as running sums of the
  blocks' column sums, starting from the word 0.0; after the fifteenth block the buffer is written back to block
  (c, 0, 0) of the output array [2, 2, 128].  So entry (c, row, l) of the array ends at the sum, over the fifteen blocks
  k and the 128 rows r of a block, of the per-pair term at entry (c, k·128 + r, l) of the input arrays.
-/
import proofs.«406529_j45191645888923_3_alg».proof.Proof.IdealCall1Pieces
import proofs.«406529_j45191645888923_3_alg».proof.Proof.PairSums
import Idealize.ShloMosaic.Lib.Pipeline.Value

set_option maxRecDepth 16384

noncomputable section

namespace Cert.KernelIdeal.Energy

open Cert.KernelIdeal Cert.KernelIdeal.Gen
open Idealize.ShloMosaic Idealize.ShloMosaic.TcCoe Idealize.ShloMosaic.ValueIdx Idealize.SL.Sem
open Idealize.ShloMosaic.Pipeline (Dat)
open Cert.PairEnergy (tc tv zero runSum)

variable (V : (c : Dev nD) → (b : Ref sig .tc) → Buf (Elt Ideal) ((c : Thread nD τ).loc b))

/-! ## The running sums through a half -/

/-- The Coulomb column sum, at lane l, of the block at grid position p (nothing past the grid). -/
def colCn1 (c0 : Dev nD) (l : Fin 128) (p : ℕ) : EReal :=
  if h : p < cfg1.N then colC1 (iblk1 V c0 0 ⟨p, h⟩) (iblk1 V c0 1 ⟨p, h⟩) l else 0

/-- The van der Waals column sum, at lane l, of the block at grid position p. -/
def colVn1 (c0 : Dev nD) (l : Fin 128) (p : ℕ) : EReal :=
  if h : p < cfg1.N then colV1 (iblk1 V c0 0 ⟨p, h⟩) (iblk1 V c0 2 ⟨p, h⟩) (iblk1 V c0 3 ⟨p, h⟩) (iblk1 V c0 4 ⟨p, h⟩) l else 0

/-- The buffer's contents after a point depend on the point's number only. -/
theorem outsAt1_congr (c0 : Dev nD) {n n' : ℕ} (e : n = n') (hn : n < cfg1.N) (hn' : n' < cfg1.N) {y y' : S1x2x128.Idx} (ey : y = y') :
    outsAt1 V c0 n hn y = outsAt1 V c0 n' hn' y' := by
  subst e; subst ey; rfl

/-- After block j of half h the two rows of the buffer hold the running sums of the column sums of blocks 0 … j of
    that half: by induction on j, the first block clearing, every later block adding. -/
theorem outsAt1_half (c0 : Dev nD) (l : Fin 128) (h : ℕ) : ∀ (j : ℕ) (hj : j < 15) (hn : h * 15 + j < cfg1.N),
    outsAt1 V c0 (h * 15 + j) hn (ix3 (0 : Fin 1) (0 : Fin 2) l) = runSum zero (fun k => colCn1 V c0 l (h * 15 + k)) j
    ∧ outsAt1 V c0 (h * 15 + j) hn (ix3 (0 : Fin 1) (1 : Fin 2) l) = runSum zero (fun k => colVn1 V c0 l (h * 15 + k)) j
  | 0, hj, hn => by
    have h0 : (⟨h * 15 + 0, hn⟩ : Fin cfg1.N).val % 15 = 0 := by dsimp only; omega
    have e := outsAt1_A V c0 ⟨h * 15 + 0, hn⟩ h0
    have hA := out1_A_apply c0 (grid1.coords ⟨h * 15 + 0, hn⟩) (ms1_0 ⟨h * 15 + 0, hn⟩) (hs1_0 ⟨h * 15 + 0, hn⟩) (ms1_1 ⟨h * 15 + 0, hn⟩) (hs1_1 ⟨h * 15 + 0, hn⟩) (ms1_2 ⟨h * 15 + 0, hn⟩) (hs1_2 ⟨h * 15 + 0, hn⟩) (ms1_3 ⟨h * 15 + 0, hn⟩) (hs1_3 ⟨h * 15 + 0, hn⟩) (ms1_4 ⟨h * 15 + 0, hn⟩) (hs1_4 ⟨h * 15 + 0, hn⟩) (ms1_5 ⟨h * 15 + 0, hn⟩) (hs1_5 ⟨h * 15 + 0, hn⟩) ((hcond1_0 ⟨h * 15 + 0, hn⟩).mpr h0)
      (iblk1 V c0 0 ⟨h * 15 + 0, hn⟩) (iblk1 V c0 1 ⟨h * 15 + 0, hn⟩) (iblk1 V c0 2 ⟨h * 15 + 0, hn⟩) (iblk1 V c0 3 ⟨h * 15 + 0, hn⟩) (iblk1 V c0 4 ⟨h * 15 + 0, hn⟩) l
    constructor
    · refine (congrFun e _).trans (hA.1.trans ?_)
      show zero + _ = zero + colCn1 V c0 l (h * 15 + 0)
      unfold colCn1; rw [dif_pos hn]
    · refine (congrFun e _).trans (hA.2.trans ?_)
      show zero + _ = zero + colVn1 V c0 l (h * 15 + 0)
      unfold colVn1; rw [dif_pos hn]
  | j + 1, hj, hn => by
    have hN : cfg1.N = 30 := N_1
    have h0 : ¬(⟨h * 15 + (j + 1), hn⟩ : Fin cfg1.N).val % 15 = 0 := by dsimp only; omega
    have e := outsAt1_B V c0 ⟨h * 15 + (j + 1), hn⟩ h0
    have hprev : h * 15 + j < cfg1.N := by omega
    have ih := outsAt1_half c0 l h j (by omega) hprev
    have hB := out1_B_apply c0 (grid1.coords ⟨h * 15 + (j + 1), hn⟩) (ms1_0 ⟨h * 15 + (j + 1), hn⟩) (hs1_0 ⟨h * 15 + (j + 1), hn⟩) (ms1_1 ⟨h * 15 + (j + 1), hn⟩) (hs1_1 ⟨h * 15 + (j + 1), hn⟩) (ms1_2 ⟨h * 15 + (j + 1), hn⟩) (hs1_2 ⟨h * 15 + (j + 1), hn⟩) (ms1_3 ⟨h * 15 + (j + 1), hn⟩) (hs1_3 ⟨h * 15 + (j + 1), hn⟩) (ms1_4 ⟨h * 15 + (j + 1), hn⟩) (hs1_4 ⟨h * 15 + (j + 1), hn⟩) (ms1_5 ⟨h * 15 + (j + 1), hn⟩) (hs1_5 ⟨h * 15 + (j + 1), hn⟩) (fun hc => h0 ((hcond1_0 ⟨h * 15 + (j + 1), hn⟩).mp hc))
      (iblk1 V c0 0 ⟨h * 15 + (j + 1), hn⟩) (iblk1 V c0 1 ⟨h * 15 + (j + 1), hn⟩) (iblk1 V c0 2 ⟨h * 15 + (j + 1), hn⟩) (iblk1 V c0 3 ⟨h * 15 + (j + 1), hn⟩) (iblk1 V c0 4 ⟨h * 15 + (j + 1), hn⟩)
      (outsAt1 V c0 ((⟨h * 15 + (j + 1), hn⟩ : Fin cfg1.N).val - 1) (Nat.lt_of_le_of_lt (Nat.sub_le _ _) hn)) l
    constructor
    · refine (congrFun e _).trans (hB.1.trans ?_)
      rw [outsAt1_congr V c0 (show (⟨h * 15 + (j + 1), hn⟩ : Fin cfg1.N).val - 1 = h * 15 + j from by dsimp only; omega) _ hprev rfl, ih.1]
      show _ + _ = runSum zero _ j + colCn1 V c0 l (h * 15 + (j + 1))
      unfold colCn1; rw [dif_pos hn]
    · refine (congrFun e _).trans (hB.2.trans ?_)
      rw [outsAt1_congr V c0 (show (⟨h * 15 + (j + 1), hn⟩ : Fin cfg1.N).val - 1 = h * 15 + j from by dsimp only; omega) _ hprev rfl, ih.2]
      show _ + _ = runSum zero _ j + colVn1 V c0 l (h * 15 + (j + 1))
      unfold colVn1; rw [dif_pos hn]

/-! ## Where the blocks sit -/

/-- The printed block indices, decided over the grid: at point t an input window's block is (t / 15, t % 15, 0) and the
    output window's is (t / 15, 0, 0). -/
theorem idx_facts1 : ∀ t : Fin cfg1.N,
    (win1_0.index t (0 : Fin 3) = t.val / 15 ∧ win1_0.index t (1 : Fin 3) = t.val % 15 ∧ win1_0.index t (2 : Fin 3) = 0)
    ∧ (win1_1.index t (0 : Fin 3) = t.val / 15 ∧ win1_1.index t (1 : Fin 3) = t.val % 15 ∧ win1_1.index t (2 : Fin 3) = 0)
    ∧ (win1_2.index t (0 : Fin 3) = t.val / 15 ∧ win1_2.index t (1 : Fin 3) = t.val % 15 ∧ win1_2.index t (2 : Fin 3) = 0)
    ∧ (win1_3.index t (0 : Fin 3) = t.val / 15 ∧ win1_3.index t (1 : Fin 3) = t.val % 15 ∧ win1_3.index t (2 : Fin 3) = 0)
    ∧ (win1_4.index t (0 : Fin 3) = t.val / 15 ∧ win1_4.index t (1 : Fin 3) = t.val % 15 ∧ win1_4.index t (2 : Fin 3) = 0)
    ∧ (win1_5.index t (0 : Fin 3) = t.val / 15 ∧ win1_5.index t (1 : Fin 3) = 0 ∧ win1_5.index t (2 : Fin 3) = 0) :=
  (by decide +kernel : ∀ t : Fin grid1.N, _)

/-- Row r of block k of a half, as a row of the half. -/
def blkRow1 (k : Fin 15) (r : Fin 128) : Fin 1920 := ⟨k.val * 128 + r.val, by omega⟩

/-- Entry (r, l) of input window 0's block at point c·15 + k is entry (c, k·128 + r, l) of its array. -/
theorem iblk1_0_apply (c0 : Dev nD) (c : Fin 2) (k : Fin 15) (hn : c.val * 15 + k.val < cfg1.N) (r : Fin 128) (l : Fin 128) :
    iblk1 V c0 0 ⟨c.val * 15 + k.val, hn⟩ (ix3 (0 : Fin 1) r l) = V c0 main_v51 (ix3 c (blkRow1 k r) l) := by
  obtain ⟨⟨e0, e1, e2⟩, -, -, -, -, -⟩ := idx_facts1 ⟨c.val * 15 + k.val, hn⟩
  dsimp only at e0 e1 e2
  show V c0 main_v51 (((cfg1.win 0).blk ⟨c.val * 15 + k.val, hn⟩).view.emb (ix3 (0 : Fin 1) r l)) = _
  refine congrArg (V c0 main_v51) (funext fun a => Fin.ext ?_)
  match a with
  | ⟨0, _⟩ => show win1_0.index ⟨c.val * 15 + k.val, hn⟩ (0 : Fin 3) * 1 + 1 * 0 = c.val; omega
  | ⟨1, _⟩ => show win1_0.index ⟨c.val * 15 + k.val, hn⟩ (1 : Fin 3) * 128 + 1 * r.val = k.val * 128 + r.val; omega
  | ⟨2, _⟩ => show win1_0.index ⟨c.val * 15 + k.val, hn⟩ (2 : Fin 3) * 128 + 1 * l.val = l.val; omega

/-- Entry (r, l) of input window 1's block at point c·15 + k is entry (c, k·128 + r, l) of its array. -/
theorem iblk1_1_apply (c0 : Dev nD) (c : Fin 2) (k : Fin 15) (hn : c.val * 15 + k.val < cfg1.N) (r : Fin 128) (l : Fin 128) :
    iblk1 V c0 1 ⟨c.val * 15 + k.val, hn⟩ (ix3 (0 : Fin 1) r l) = V c0 main_v53 (ix3 c (blkRow1 k r) l) := by
  obtain ⟨-, ⟨e0, e1, e2⟩, -, -, -, -⟩ := idx_facts1 ⟨c.val * 15 + k.val, hn⟩
  dsimp only at e0 e1 e2
  show V c0 main_v53 (((cfg1.win 1).blk ⟨c.val * 15 + k.val, hn⟩).view.emb (ix3 (0 : Fin 1) r l)) = _
  refine congrArg (V c0 main_v53) (funext fun a => Fin.ext ?_)
  match a with
  | ⟨0, _⟩ => show win1_1.index ⟨c.val * 15 + k.val, hn⟩ (0 : Fin 3) * 1 + 1 * 0 = c.val; omega
  | ⟨1, _⟩ => show win1_1.index ⟨c.val * 15 + k.val, hn⟩ (1 : Fin 3) * 128 + 1 * r.val = k.val * 128 + r.val; omega
  | ⟨2, _⟩ => show win1_1.index ⟨c.val * 15 + k.val, hn⟩ (2 : Fin 3) * 128 + 1 * l.val = l.val; omega

/-- Entry (r, l) of input window 2's block at point c·15 + k is entry (c, k·128 + r, l) of its array. -/
theorem iblk1_2_apply (c0 : Dev nD) (c : Fin 2) (k : Fin 15) (hn : c.val * 15 + k.val < cfg1.N) (r : Fin 128) (l : Fin 128) :
    iblk1 V c0 2 ⟨c.val * 15 + k.val, hn⟩ (ix3 (0 : Fin 1) r l) = V c0 main_v55 (ix3 c (blkRow1 k r) l) := by
  obtain ⟨-, -, ⟨e0, e1, e2⟩, -, -, -⟩ := idx_facts1 ⟨c.val * 15 + k.val, hn⟩
  dsimp only at e0 e1 e2
  show V c0 main_v55 (((cfg1.win 2).blk ⟨c.val * 15 + k.val, hn⟩).view.emb (ix3 (0 : Fin 1) r l)) = _
  refine congrArg (V c0 main_v55) (funext fun a => Fin.ext ?_)
  match a with
  | ⟨0, _⟩ => show win1_2.index ⟨c.val * 15 + k.val, hn⟩ (0 : Fin 3) * 1 + 1 * 0 = c.val; omega
  | ⟨1, _⟩ => show win1_2.index ⟨c.val * 15 + k.val, hn⟩ (1 : Fin 3) * 128 + 1 * r.val = k.val * 128 + r.val; omega
  | ⟨2, _⟩ => show win1_2.index ⟨c.val * 15 + k.val, hn⟩ (2 : Fin 3) * 128 + 1 * l.val = l.val; omega

/-- Entry (r, l) of input window 3's block at point c·15 + k is entry (c, k·128 + r, l) of its array. -/
theorem iblk1_3_apply (c0 : Dev nD) (c : Fin 2) (k : Fin 15) (hn : c.val * 15 + k.val < cfg1.N) (r : Fin 128) (l : Fin 128) :
    iblk1 V c0 3 ⟨c.val * 15 + k.val, hn⟩ (ix3 (0 : Fin 1) r l) = V c0 main_v57 (ix3 c (blkRow1 k r) l) := by
  obtain ⟨-, -, -, ⟨e0, e1, e2⟩, -, -⟩ := idx_facts1 ⟨c.val * 15 + k.val, hn⟩
  dsimp only at e0 e1 e2
  show V c0 main_v57 (((cfg1.win 3).blk ⟨c.val * 15 + k.val, hn⟩).view.emb (ix3 (0 : Fin 1) r l)) = _
  refine congrArg (V c0 main_v57) (funext fun a => Fin.ext ?_)
  match a with
  | ⟨0, _⟩ => show win1_3.index ⟨c.val * 15 + k.val, hn⟩ (0 : Fin 3) * 1 + 1 * 0 = c.val; omega
  | ⟨1, _⟩ => show win1_3.index ⟨c.val * 15 + k.val, hn⟩ (1 : Fin 3) * 128 + 1 * r.val = k.val * 128 + r.val; omega
  | ⟨2, _⟩ => show win1_3.index ⟨c.val * 15 + k.val, hn⟩ (2 : Fin 3) * 128 + 1 * l.val = l.val; omega

/-- Entry (r, l) of input window 4's block at point c·15 + k is entry (c, k·128 + r, l) of its array. -/
theorem iblk1_4_apply (c0 : Dev nD) (c : Fin 2) (k : Fin 15) (hn : c.val * 15 + k.val < cfg1.N) (r : Fin 128) (l : Fin 128) :
    iblk1 V c0 4 ⟨c.val * 15 + k.val, hn⟩ (ix3 (0 : Fin 1) r l) = V c0 main_v59 (ix3 c (blkRow1 k r) l) := by
  obtain ⟨-, -, -, -, ⟨e0, e1, e2⟩, -⟩ := idx_facts1 ⟨c.val * 15 + k.val, hn⟩
  dsimp only at e0 e1 e2
  show V c0 main_v59 (((cfg1.win 4).blk ⟨c.val * 15 + k.val, hn⟩).view.emb (ix3 (0 : Fin 1) r l)) = _
  refine congrArg (V c0 main_v59) (funext fun a => Fin.ext ?_)
  match a with
  | ⟨0, _⟩ => show win1_4.index ⟨c.val * 15 + k.val, hn⟩ (0 : Fin 3) * 1 + 1 * 0 = c.val; omega
  | ⟨1, _⟩ => show win1_4.index ⟨c.val * 15 + k.val, hn⟩ (1 : Fin 3) * 128 + 1 * r.val = k.val * 128 + r.val; omega
  | ⟨2, _⟩ => show win1_4.index ⟨c.val * 15 + k.val, hn⟩ (2 : Fin 3) * 128 + 1 * l.val = l.val; omega

/-! ## The output array -/

/-- The array the write-backs leave, as one function of the index: entry (c, row, l) is what the buffer held at
    (row, l) after the last block of half c. -/
def Gfin1 (c0 : Dev nD) : Buf (Elt Ideal) ((c0 : Thread nD τ).loc main_v60) := fun (i : S2x2x128.Idx) =>
  outsAt1 V c0 ((i 0).val * 15 + 14) (by have h : (i 0).val < 2 := (i 0).isLt; have hN : cfg1.N = 30 := N_1; omega)
    (ix3 (0 : Fin 1) (⟨(i 1).val, (i 1).isLt⟩ : Fin 2) (⟨(i 2).val, (i 2).isLt⟩ : Fin 128))

/-- What a writing-back point writes is its block of that function. -/
theorem flushed_eq1 (c0 : Dev nD) (t : Fin cfg1.N) (hf : (cfg1.win 5).flush t = true) :
    (dat1 V c0).flushed 5 t = ((cfg1.win 5).blk t).view.read (Elt Ideal) (Gfin1 V c0) := by
  have hN : cfg1.N = 30 := N_1
  have h14 : t.val % 15 = 14 := (flush1_5 t).mp hf
  obtain ⟨-, -, -, -, -, e0, e1, e2⟩ := idx_facts1 t
  show (cfg1.win 5).cut (grid1.coords t) ((dat1 V c0).after 5 t) = _
  rw [after1_5]
  funext x
  show outsAt1 V c0 t.val t.isLt x = Gfin1 V c0 (((cfg1.win 5).blk t).view.emb x)
  unfold Gfin1
  have hx0 : (x 0).val < 1 := (x 0).isLt
  refine outsAt1_congr V c0 ?_ _ _ ?_
  · show t.val = (win1_5.index t (0 : Fin 3) * 1 + 1 * (x 0).val) * 15 + 14
    omega
  · funext a; apply Fin.ext
    match a with
    | ⟨0, _⟩ => show (x 0).val = 0; omega
    | ⟨1, _⟩ => show (x 1).val = win1_5.index t (1 : Fin 3) * 2 + 1 * (x 1).val; omega
    | ⟨2, _⟩ => show (x 2).val = win1_5.index t (2 : Fin 3) * 128 + 1 * (x 2).val; omega

/-- An index of the output array is in point t's block iff each coordinate is in the block's range on its axis. -/
theorem mem_blk1 (t : Fin cfg1.N) (i : S2x2x128.Idx) :
    i ∈ ((cfg1.win 5).blk t).view.set ↔ ∀ a : Fin 3, win1_5.index t a * S1x2x128.size a ≤ (i a).val ∧ (i a).val < win1_5.index t a * S1x2x128.size a + S1x2x128.size a := by
  show i ∈ ((View.whole main_v60).slice (win1_5.rect t)).set ↔ _
  rw [View.set_slice_whole, Rect.mem_set_unit]
  exact Iff.rfl

/-- Entry (c, row, l) of the output array after the call: the buffer after the last block of half c. -/
theorem final1_at (c0 : Dev nD) (c : Fin 2) (row : Fin 2) (l : Fin 128) (hn : c.val * 15 + 14 < cfg1.N) :
    (dat1 V c0).arrAt 5 cfg1.N (ix3 c row l) = outsAt1 V c0 (c.val * 15 + 14) hn (ix3 (0 : Fin 1) row l) := by
  have hN : cfg1.N = 30 := N_1
  obtain ⟨-, -, -, -, -, e0, e1, e2⟩ := idx_facts1 ⟨c.val * 15 + 14, hn⟩
  dsimp only at e0 e1 e2
  have hfl : (cfg1.win 5).flush ⟨c.val * 15 + 14, hn⟩ = true := (flush1_5 _).mpr (by dsimp only; omega)
  have hmem : (ix3 c row l : S2x2x128.Idx) ∈ ((cfg1.win 5).blk ⟨c.val * 15 + 14, hn⟩).view.set := by
    rw [mem_blk1]; intro a
    match a with
    | ⟨0, _⟩ => show win1_5.index ⟨c.val * 15 + 14, hn⟩ (0 : Fin 3) * 1 ≤ c.val ∧ c.val < win1_5.index ⟨c.val * 15 + 14, hn⟩ (0 : Fin 3) * 1 + 1; omega
    | ⟨1, _⟩ => show win1_5.index ⟨c.val * 15 + 14, hn⟩ (1 : Fin 3) * 2 ≤ row.val ∧ row.val < win1_5.index ⟨c.val * 15 + 14, hn⟩ (1 : Fin 3) * 2 + 2; omega
    | ⟨2, _⟩ => show win1_5.index ⟨c.val * 15 + 14, hn⟩ (2 : Fin 3) * 128 ≤ l.val ∧ l.val < win1_5.index ⟨c.val * 15 + 14, hn⟩ (2 : Fin 3) * 128 + 128; omega
  refine ((dat1 V c0).arrAt_apply_of_mem 5 (Gfin1 V c0) (flushed_eq1 V c0) cfg1.N ⟨c.val * 15 + 14, hn⟩ (ix3 c row l) hn hfl hmem).trans ?_
  unfold Gfin1
  exact outsAt1_congr V c0 rfl _ _ rfl

/-- THE OUTPUT ARRAY OF CALL 0: entry (c, 0, l) is the sum over the fifteen blocks and their 128 rows of the Coulomb
    term at entry (c, k·128 + r, l) of the input arrays; entry (c, 1, l) the same sum of the van der Waals term. -/
theorem final1_apply (c0 : Dev nD) (c : Fin 2) (l : Fin 128) :
    @Eq EReal ((dat1 V c0).arrAt 5 cfg1.N (ix3 c (0 : Fin 2) l))
        (∑ k : Fin 15, ∑ r : Fin 128, tc (V c0 main_v51 (ix3 c (blkRow1 k r) l)) (V c0 main_v53 (ix3 c (blkRow1 k r) l)))
    ∧ @Eq EReal ((dat1 V c0).arrAt 5 cfg1.N (ix3 c (1 : Fin 2) l))
        (∑ k : Fin 15, ∑ r : Fin 128, tv (V c0 main_v51 (ix3 c (blkRow1 k r) l)) (V c0 main_v55 (ix3 c (blkRow1 k r) l))
            (V c0 main_v57 (ix3 c (blkRow1 k r) l)) (V c0 main_v59 (ix3 c (blkRow1 k r) l))) := by
  have hN : cfg1.N = 30 := N_1
  have hn : c.val * 15 + 14 < cfg1.N := by omega
  have hh := outsAt1_half V c0 l c.val 14 (by omega) hn
  constructor
  · have e1 : @Eq EReal ((dat1 V c0).arrAt 5 cfg1.N (ix3 c (0 : Fin 2) l)) (runSum zero (fun k => colCn1 V c0 l (c.val * 15 + k)) 14) :=
      (final1_at V c0 c 0 l hn).trans hh.1
    refine e1.trans ?_
    rw [Cert.PairEnergy.zero_eq, Cert.PairEnergy.runSum_fifteen]
    refine Finset.sum_congr rfl fun k _ => ?_
    have hk : c.val * 15 + k.val < cfg1.N := by omega
    unfold colCn1; rw [dif_pos hk]; unfold colC1
    refine Finset.sum_congr rfl fun r _ => ?_
    rw [iblk1_0_apply V c0 c k hk r l, iblk1_1_apply V c0 c k hk r l]
  · have e1 : @Eq EReal ((dat1 V c0).arrAt 5 cfg1.N (ix3 c (1 : Fin 2) l)) (runSum zero (fun k => colVn1 V c0 l (c.val * 15 + k)) 14) :=
      (final1_at V c0 c 1 l hn).trans hh.2
    refine e1.trans ?_
    rw [Cert.PairEnergy.zero_eq, Cert.PairEnergy.runSum_fifteen]
    refine Finset.sum_congr rfl fun k _ => ?_
    have hk : c.val * 15 + k.val < cfg1.N := by omega
    unfold colVn1; rw [dif_pos hk]; unfold colV1
    refine Finset.sum_congr rfl fun r _ => ?_
    rw [iblk1_0_apply V c0 c k hk r l, iblk1_2_apply V c0 c k hk r l, iblk1_3_apply V c0 c k hk r l, iblk1_4_apply V c0 c k hk r l]

end Cert.KernelIdeal.Energy

end
-- ==== Proof.PassTotal.lean ====
/-
  One pass, one total: the kernel's way of adding up a per-pair term equals the plain total.

  The kernel's output rows summed over halves and lanes, each row entry a sum over fifteen blocks of R rows, plus the
  host's total over the tail, is the total over all N = 2·15·R·128 + T pairs: on the extended reals addition is
  commutative and associative, and that is all the re-grouping needs.
-/
import proofs.«406529_j45191645888923_3_alg».proof.Proof.Spec
import proofs.«406529_j45191645888923_3_alg».proof.Proof.PairSums

noncomputable section

namespace Cert.PairEnergy

open Idealize.ShloMosaic Idealize.ShloMosaic.ValueIdx

/-- A function on the first N naturals, continued by zero. -/
def ext0 {N : ℕ} (f : Fin N → EReal) (p : ℕ) : EReal := if h : p < N then f ⟨p, h⟩ else 0

theorem ext0_val {N : ℕ} (f : Fin N → EReal) (p : Fin N) (n : ℕ) (h : p.val = n) : f p = ext0 f n := by
  subst h; unfold ext0; rw [dif_pos p.isLt]

/-- THE PASS: with `A c l` the sum over the fifteen blocks and R rows of the term at the pair `P c k r l` (its number
    ((c·15 + k)·R + r)·128 + l), and `tail q` the term at pair `Q q` (its number 2·15·R·128 + q), the kernel's two
    partial totals add up to the total over all pairs. -/
theorem pass_total (R T N : ℕ) (hN : 2 * 15 * R * 128 + T = N) (f : (⟨1, ![N]⟩ : Shape).Idx → EReal)
    (A : Fin 2 → Fin 128 → EReal) (tail : Fin T → EReal)
    (P : Fin 2 → Fin 15 → Fin R → Fin 128 → Fin N) (hP : ∀ c k r l, (P c k r l).val = ((c.val * 15 + k.val) * R + r.val) * 128 + l.val)
    (Q : Fin T → Fin N) (hQ : ∀ q, (Q q).val = 2 * 15 * R * 128 + q.val)
    (hA : ∀ c l, A c l = ∑ k : Fin 15, ∑ r : Fin R, f (ix1 (P c k r l)))
    (htail : ∀ q, tail q = f (ix1 (Q q))) :
    (zero + ∑ c : Fin 2, ∑ l : Fin 128, A c l) + (zero + ∑ q : Fin T, tail q) = total f := by
  subst hN
  rw [zero_eq, zero_add, zero_add, total_eq, sum_idx1]
  have h1 : ∑ c : Fin 2, ∑ l : Fin 128, A c l
      = ∑ c : Fin 2, ∑ l : Fin 128, ∑ k : Fin 15, ∑ r : Fin R, ext0 (fun p => f (ix1 p)) (((c.val * 15 + k.val) * R + r.val) * 128 + l.val) :=
    Finset.sum_congr rfl fun c _ => Finset.sum_congr rfl fun l _ => (hA c l).trans
      (Finset.sum_congr rfl fun k _ => Finset.sum_congr rfl fun r _ => ext0_val (fun p => f (ix1 p)) (P c k r l) _ (hP c k r l))
  have h2 : ∑ q : Fin T, tail q = ∑ q : Fin T, ext0 (fun p => f (ix1 p)) (2 * 15 * R * 128 + q.val) :=
    Finset.sum_congr rfl fun q _ => (htail q).trans (ext0_val (fun p => f (ix1 p)) (Q q) _ (hQ q))
  rw [h1, h2, sum_split R T (ext0 fun p => f (ix1 p))]
  exact Finset.sum_congr rfl fun p _ => (ext0_val (fun p => f (ix1 p)) p p.val rfl).symm

end Cert.PairEnergy

end
-- ==== Proof.KernelValue.lean ====
/-
  The pair-energy program on the extended reals: its result is the four plain totals.

  Per pass and per term, the Pallas call's output rows summed over halves and lanes plus the host's tail total is the
  total over all the pairs (the call's array entry is a sum over blocks and rows; the call's inputs are the pair arrays'
  prefixes viewed [2, 15·R, 128]); and with the index lists in range the squared distances are the plain ones.
-/
import proofs.«406529_j45191645888923_3_alg».proof.Proof.IdealHost
import proofs.«406529_j45191645888923_3_alg».proof.Proof.IdealInputs
import proofs.«406529_j45191645888923_3_alg».proof.Proof.IdealCall0Sum
import proofs.«406529_j45191645888923_3_alg».proof.Proof.IdealCall1Sum
import proofs.«406529_j45191645888923_3_alg».proof.Proof.PassTotal

set_option maxRecDepth 16384

noncomputable section

namespace Cert.KernelIdeal.Energy

open Cert.KernelIdeal Cert.KernelIdeal.Gen
open Idealize.ShloMosaic Idealize.ShloMosaic.TcCoe Idealize.ShloMosaic.ValueIdx Idealize.SL.Sem
open Cert.PairEnergy (tc tv zero total pack r2of InRange pass_total)

variable (m : (ℓ : Loc nD τ sig) → Buf (Elt Ideal) ℓ) (c0 : Dev nD)

/-- The pair at block k, row r, lane l of half c, first pass: its number. -/
theorem pre8_val (c : Fin 2) (k : Fin 15) (r : Fin 2048) (l : Fin 128) :
    (pre8 c (blkRow0 k r) l).val = ((c.val * 15 + k.val) * 2048 + r.val) * 128 + l.val := by
  show (c.val * 30720 + (k.val * 2048 + r.val)) * 128 + l.val = _
  omega
theorem pre5_val (c : Fin 2) (k : Fin 15) (r : Fin 128) (l : Fin 128) :
    (pre5 c (blkRow1 k r) l).val = ((c.val * 15 + k.val) * 128 + r.val) * 128 + l.val := by
  show (c.val * 1920 + (k.val * 128 + r.val)) * 128 + l.val = _
  omega
theorem tl8_val (q : Fin 135680) : (tl8 q).val = 2 * 15 * 2048 * 128 + q.val := by show 7864320 + q.val = _; omega
theorem tl5_val (q : Fin 8480) : (tl5 q).val = 2 * 15 * 128 * 128 + q.val := by show 491520 + q.val = _; omega

/-- First pass, Coulomb total. -/
theorem pass8_c :
    (zero + ∑ c : Fin 2, ∑ l : Fin 128, (A0 m c0 (ix3 c (0 : Fin 2) l) : EReal))
        + (zero + ∑ q : Fin 135680, tc (R8 m c0 (ix1 (tl8 q))) ((m ((c0 : Thread nD τ).loc main_arg3)) (ix1 (tl8 q))))
      = total fun i : S8000000.Idx => tc (R8 m c0 i) ((m ((c0 : Thread nD τ).loc main_arg3)) i) :=
  pass_total 2048 135680 8000000 (by norm_num) (fun i : S8000000.Idx => tc (R8 m c0 i) ((m ((c0 : Thread nD τ).loc main_arg3)) i))
    (fun c l => A0 m c0 (ix3 c (0 : Fin 2) l)) (fun q => tc (R8 m c0 (ix1 (tl8 q))) ((m ((c0 : Thread nD τ).loc main_arg3)) (ix1 (tl8 q))))
    (fun c k r l => pre8 c (blkRow0 k r) l) pre8_val tl8 tl8_val
    (fun c l => (congrFun (outs_4 m c0) _).trans ((final0_apply (E3 m) c0 c l).1.trans
      (Finset.sum_congr rfl fun k _ => Finset.sum_congr rfl fun r _ => by rw [in0_r2, in0_q])))
    (fun q => rfl)

/-- First pass, van der Waals total. -/
theorem pass8_v :
    (zero + ∑ c : Fin 2, ∑ l : Fin 128, (A0 m c0 (ix3 c (1 : Fin 2) l) : EReal))
        + (zero + ∑ q : Fin 135680, tv (R8 m c0 (ix1 (tl8 q))) ((m ((c0 : Thread nD τ).loc main_arg4)) (ix1 (tl8 q))) ((m ((c0 : Thread nD τ).loc main_arg5)) (ix1 (tl8 q))) ((m ((c0 : Thread nD τ).loc main_arg6)) (ix1 (tl8 q))))
      = total fun i : S8000000.Idx => tv (R8 m c0 i) ((m ((c0 : Thread nD τ).loc main_arg4)) i) ((m ((c0 : Thread nD τ).loc main_arg5)) i) ((m ((c0 : Thread nD τ).loc main_arg6)) i) :=
  pass_total 2048 135680 8000000 (by norm_num) (fun i : S8000000.Idx => tv (R8 m c0 i) ((m ((c0 : Thread nD τ).loc main_arg4)) i) ((m ((c0 : Thread nD τ).loc main_arg5)) i) ((m ((c0 : Thread nD τ).loc main_arg6)) i))
    (fun c l => A0 m c0 (ix3 c (1 : Fin 2) l)) (fun q => tv (R8 m c0 (ix1 (tl8 q))) ((m ((c0 : Thread nD τ).loc main_arg4)) (ix1 (tl8 q))) ((m ((c0 : Thread nD τ).loc main_arg5)) (ix1 (tl8 q))) ((m ((c0 : Thread nD τ).loc main_arg6)) (ix1 (tl8 q))))
    (fun c k r l => pre8 c (blkRow0 k r) l) pre8_val tl8 tl8_val
    (fun c l => (congrFun (outs_4 m c0) _).trans ((final0_apply (E3 m) c0 c l).2.trans
      (Finset.sum_congr rfl fun k _ => Finset.sum_congr rfl fun r _ => by rw [in0_r2, in0_a, in0_b6, in0_b10])))
    (fun q => rfl)

/-- Second pass, Coulomb total. -/
theorem pass5_c :
    (zero + ∑ c : Fin 2, ∑ l : Fin 128, (A1 m c0 (ix3 c (0 : Fin 2) l) : EReal))
        + (zero + ∑ q : Fin 8480, tc (R5 m c0 (ix1 (tl5 q))) ((m ((c0 : Thread nD τ).loc main_arg9)) (ix1 (tl5 q))))
      = total fun i : S500000.Idx => tc (R5 m c0 i) ((m ((c0 : Thread nD τ).loc main_arg9)) i) :=
  pass_total 128 8480 500000 (by norm_num) (fun i : S500000.Idx => tc (R5 m c0 i) ((m ((c0 : Thread nD τ).loc main_arg9)) i))
    (fun c l => A1 m c0 (ix3 c (0 : Fin 2) l)) (fun q => tc (R5 m c0 (ix1 (tl5 q))) ((m ((c0 : Thread nD τ).loc main_arg9)) (ix1 (tl5 q))))
    (fun c k r l => pre5 c (blkRow1 k r) l) pre5_val tl5 tl5_val
    (fun c l => (congrFun (outs_9 m c0) _).trans ((final1_apply (E8 m) c0 c l).1.trans
      (Finset.sum_congr rfl fun k _ => Finset.sum_congr rfl fun r _ => by rw [in1_r2, in1_q])))
    (fun q => rfl)

/-- Second pass, van der Waals total. -/
theorem pass5_v :
    (zero + ∑ c : Fin 2, ∑ l : Fin 128, (A1 m c0 (ix3 c (1 : Fin 2) l) : EReal))
        + (zero + ∑ q : Fin 8480, tv (R5 m c0 (ix1 (tl5 q))) ((m ((c0 : Thread nD τ).loc main_arg10)) (ix1 (tl5 q))) ((m ((c0 : Thread nD τ).loc main_arg11)) (ix1 (tl5 q))) ((m ((c0 : Thread nD τ).loc main_arg12)) (ix1 (tl5 q))))
      = total fun i : S500000.Idx => tv (R5 m c0 i) ((m ((c0 : Thread nD τ).loc main_arg10)) i) ((m ((c0 : Thread nD τ).loc main_arg11)) i) ((m ((c0 : Thread nD τ).loc main_arg12)) i) :=
  pass_total 128 8480 500000 (by norm_num) (fun i : S500000.Idx => tv (R5 m c0 i) ((m ((c0 : Thread nD τ).loc main_arg10)) i) ((m ((c0 : Thread nD τ).loc main_arg11)) i) ((m ((c0 : Thread nD τ).loc main_arg12)) i))
    (fun c l => A1 m c0 (ix3 c (1 : Fin 2) l)) (fun q => tv (R5 m c0 (ix1 (tl5 q))) ((m ((c0 : Thread nD τ).loc main_arg10)) (ix1 (tl5 q))) ((m ((c0 : Thread nD τ).loc main_arg11)) (ix1 (tl5 q))) ((m ((c0 : Thread nD τ).loc main_arg12)) (ix1 (tl5 q))))
    (fun c k r l => pre5 c (blkRow1 k r) l) pre5_val tl5 tl5_val
    (fun c l => (congrFun (outs_9 m c0) _).trans ((final1_apply (E8 m) c0 c l).2.trans
      (Finset.sum_congr rfl fun k _ => Finset.sum_congr rfl fun r _ => by rw [in1_r2, in1_a, in1_b6, in1_b10])))
    (fun q => rfl)

/-- THE PROGRAM'S RESULT, with every index in range: the four plain totals, packed. -/
theorem kernel_value (h1 : InRange (m ((c0 : Thread nD τ).loc main_arg1))) (h2 : InRange (m ((c0 : Thread nD τ).loc main_arg2))) (h7 : InRange (m ((c0 : Thread nD τ).loc main_arg7))) (h8 : InRange (m ((c0 : Thread nD τ).loc main_arg8))) :
    V10 m (outs m) c0 main_v94 = pack bcast_S_S1 concatenates_S1_S1_S1_S1_S4_d0
      (fun _ => total fun i : S8000000.Idx => tc (r2of bcast_S_S8000000 bcast_S8000000_S8000000x1_0 gather_S100000x3_S8000000x1_S8000000x3_1_0_n_n_0_1_13 reducesTo_S8000000x3_S8000000_d1 h_S_ (m ((c0 : Thread nD τ).loc main_arg0)) (m ((c0 : Thread nD τ).loc main_arg1)) (m ((c0 : Thread nD τ).loc main_arg2)) i) ((m ((c0 : Thread nD τ).loc main_arg3)) i))
      (fun _ => total fun i : S8000000.Idx => tv (r2of bcast_S_S8000000 bcast_S8000000_S8000000x1_0 gather_S100000x3_S8000000x1_S8000000x3_1_0_n_n_0_1_13 reducesTo_S8000000x3_S8000000_d1 h_S_ (m ((c0 : Thread nD τ).loc main_arg0)) (m ((c0 : Thread nD τ).loc main_arg1)) (m ((c0 : Thread nD τ).loc main_arg2)) i) ((m ((c0 : Thread nD τ).loc main_arg4)) i) ((m ((c0 : Thread nD τ).loc main_arg5)) i) ((m ((c0 : Thread nD τ).loc main_arg6)) i))
      (fun _ => total fun i : S500000.Idx => tc (r2of bcast_S_S500000 bcast_S500000_S500000x1_0 gather_S100000x3_S500000x1_S500000x3_1_0_n_n_0_1_13 reducesTo_S500000x3_S500000_d1 h_S_ (m ((c0 : Thread nD τ).loc main_arg0)) (m ((c0 : Thread nD τ).loc main_arg7)) (m ((c0 : Thread nD τ).loc main_arg8)) i) ((m ((c0 : Thread nD τ).loc main_arg9)) i))
      (fun _ => total fun i : S500000.Idx => tv (r2of bcast_S_S500000 bcast_S500000_S500000x1_0 gather_S100000x3_S500000x1_S500000x3_1_0_n_n_0_1_13 reducesTo_S500000x3_S500000_d1 h_S_ (m ((c0 : Thread nD τ).loc main_arg0)) (m ((c0 : Thread nD τ).loc main_arg7)) (m ((c0 : Thread nD τ).loc main_arg8)) i) ((m ((c0 : Thread nD τ).loc main_arg10)) i) ((m ((c0 : Thread nD τ).loc main_arg11)) i) ((m ((c0 : Thread nD τ).loc main_arg12)) i)) := by
  rw [kernel_result m c0, pass8_c m c0, pass8_v m c0, pass5_c m c0, pass5_v m c0]
  have e8 := r2_8 m c0 h1 h2
  have e5 := r2_5 m c0 h7 h8
  show pack _ _ (fun _ => total fun i : S8000000.Idx => tc (V3 m c0 main_v4 i) _) (fun _ => total fun i : S8000000.Idx => tv (V3 m c0 main_v4 i) _ _ _)
      (fun _ => total fun i : S500000.Idx => tc (V8 m (outs m) c0 main_v49 i) _) (fun _ => total fun i : S500000.Idx => tv (V8 m (outs m) c0 main_v49 i) _ _ _) = _
  rw [e8, e5]

end Cert.KernelIdeal.Energy

end
-- ==== Proof.RefSide.lean ====
/-
  The reference program read as the pair-energy function: its result is the four totals, packed — each total the word
  0.0 plus the sum over the pairs of the per-pair term at the pair's squared distance and coefficients.
-/
import proofs.«406529_j45191645888923_3_alg».proof.Proof.RefRun
import proofs.«406529_j45191645888923_3_alg».proof.Proof.SpecR2
import Idealize.ShloMosaic.Lib.Pipeline.Value
import Idealize.ShloMosaic.PureOps.Ideal.Laws

noncomputable section

namespace Cert.ReferenceIdeal.RefValue

open Cert.ReferenceIdeal Cert.ReferenceIdeal.Value
open Idealize.ShloMosaic Idealize.ShloMosaic.TcCoe Idealize.ShloMosaic.ValueIdx Idealize.SL.Sem
open Cert.PairEnergy (tc tv zero total pack r2of)

variable [Cert.ReferenceIdeal.Facts]
open Cert.ReferenceIdeal.Facts₀ Cert.ReferenceIdeal.Facts

/-! ## The host operations of one pass, over any index shape -/

section Pass
open Cert.PairEnergy (inv)

variable {S : Shape} {axes : List (Fin S.rank)}

/-- A host sum of every element into the rank-zero shape, started from the word 0.0, is the total of the elements. -/
theorem reduce_total (h' : S.ReducesTo axes S_) (hS : 0 < S_.numel) (y : FVec Ideal S .f32) :
    Host.reduceAdd y (constant S_ .f32 0x00000000#32) h' hS = fun _ => total fun i => y i := by
  funext j
  simp only [Host.reduceAdd, Ideal.hostReduceAdd_def]
  exact Ideal.hostReduceAdd_total h' (fun b => b.elim0) y _ j

/-- The splat of the word 1.0 divided by r², at a pair, is 1/r². -/
theorem inv_apply (hb : S_.BroadcastsInDim S (![] : Fin 0 → Fin S.rank)) (r2 : FVec Ideal S .f32) (i : S.Idx) :
    (Host.divf (broadcastInDim S ![] hb (constant S_ .f32 0x3F800000#32)) r2) i = inv (r2 i) := rfl

/-- The Coulomb pass: the host sum of q · √(1/r²) is the total of the Coulomb terms. -/
theorem total_c (h' : S.ReducesTo axes S_) (hS : 0 < S_.numel) (hb : S_.BroadcastsInDim S (![] : Fin 0 → Fin S.rank))
    (r2 q : FVec Ideal S .f32) :
    Host.reduceAdd (mulf q (Host.sqrt (Host.divf (broadcastInDim S ![] hb (constant S_ .f32 0x3F800000#32)) r2))) (constant S_ .f32 0x00000000#32) h' hS
      = fun _ => total fun i => tc (r2 i) (q i) := by
  rw [reduce_total]
  rfl

/-- The van der Waals pass: with u = (1/r² · 1/r²) · 1/r², the host sum of a·u·u − b6·u − b10·u·(1/r²)·(1/r²) is the
    total of the van der Waals terms. -/
theorem total_v (h' : S.ReducesTo axes S_) (hS : 0 < S_.numel) (hb : S_.BroadcastsInDim S (![] : Fin 0 → Fin S.rank))
    (r2 a b6 b10 : FVec Ideal S .f32) :
    Host.reduceAdd (subf (subf (mulf (mulf a (mulf (mulf (Host.divf (broadcastInDim S ![] hb (constant S_ .f32 0x3F800000#32)) r2) (Host.divf (broadcastInDim S ![] hb (constant S_ .f32 0x3F800000#32)) r2)) (Host.divf (broadcastInDim S ![] hb (constant S_ .f32 0x3F800000#32)) r2))) (mulf (mulf (Host.divf (broadcastInDim S ![] hb (constant S_ .f32 0x3F800000#32)) r2) (Host.divf (broadcastInDim S ![] hb (constant S_ .f32 0x3F800000#32)) r2)) (Host.divf (broadcastInDim S ![] hb (constant S_ .f32 0x3F800000#32)) r2))) (mulf b6 (mulf (mulf (Host.divf (broadcastInDim S ![] hb (constant S_ .f32 0x3F800000#32)) r2) (Host.divf (broadcastInDim S ![] hb (constant S_ .f32 0x3F800000#32)) r2)) (Host.divf (broadcastInDim S ![] hb (constant S_ .f32 0x3F800000#32)) r2)))) (mulf (mulf (mulf b10 (mulf (mulf (Host.divf (broadcastInDim S ![] hb (constant S_ .f32 0x3F800000#32)) r2) (Host.divf (broadcastInDim S ![] hb (constant S_ .f32 0x3F800000#32)) r2)) (Host.divf (broadcastInDim S ![] hb (constant S_ .f32 0x3F800000#32)) r2))) (Host.divf (broadcastInDim S ![] hb (constant S_ .f32 0x3F800000#32)) r2)) (Host.divf (broadcastInDim S ![] hb (constant S_ .f32 0x3F800000#32)) r2)))
        (constant S_ .f32 0x00000000#32) h' hS
      = fun _ => total fun i => tv (r2 i) (a i) (b6 i) (b10 i) := by
  rw [reduce_total]
  rfl

end Pass

/-- Packing is a function of the four scalars. -/
theorem pack_congr (hb : S_.BroadcastsInDim S1 (![] : Fin 0 → Fin S1.rank)) (hc : Shape.Concatenates [S1, S1, S1, S1] S4 0)
    {a0 a1 a2 a3 b0 b1 b2 b3 : FVec Ideal S_ .f32} (h0 : a0 = b0) (h1 : a1 = b1) (h2 : a2 = b2) (h3 : a3 = b3) :
    pack hb hc a0 a1 a2 a3 = pack hb hc b0 b1 b2 b3 := by
  rw [h0, h1, h2, h3]

/-- THE REFERENCE'S RESULT: the four totals of the two passes, packed. -/
theorem res_eq (m : (ℓ : Loc nD τ sig) → Buf (Elt Ideal) ℓ) (c : Dev nD) :
    res_main_v70 (F := Ideal) m c = pack bcast_S_S1 concatenates_S1_S1_S1_S1_S4_d0
      (fun _ => total fun i : S8000000.Idx => tc (r2of bcast_S_S8000000 bcast_S8000000_S8000000x1_0 gather_S100000x3_S8000000x1_S8000000x3_1_0_n_n_0_1_13
          reducesTo_S8000000x3_S8000000_d1 h_S_ (m ((c.tc : Thread nD τ).loc main_arg0)) (m ((c.tc : Thread nD τ).loc main_arg1)) (m ((c.tc : Thread nD τ).loc main_arg2)) i) ((m ((c.tc : Thread nD τ).loc main_arg3)) i))
      (fun _ => total fun i : S8000000.Idx => tv (r2of bcast_S_S8000000 bcast_S8000000_S8000000x1_0 gather_S100000x3_S8000000x1_S8000000x3_1_0_n_n_0_1_13
          reducesTo_S8000000x3_S8000000_d1 h_S_ (m ((c.tc : Thread nD τ).loc main_arg0)) (m ((c.tc : Thread nD τ).loc main_arg1)) (m ((c.tc : Thread nD τ).loc main_arg2)) i) ((m ((c.tc : Thread nD τ).loc main_arg4)) i) ((m ((c.tc : Thread nD τ).loc main_arg5)) i) ((m ((c.tc : Thread nD τ).loc main_arg6)) i))
      (fun _ => total fun i : S500000.Idx => tc (r2of bcast_S_S500000 bcast_S500000_S500000x1_0 gather_S100000x3_S500000x1_S500000x3_1_0_n_n_0_1_13
          reducesTo_S500000x3_S500000_d1 h_S_ (m ((c.tc : Thread nD τ).loc main_arg0)) (m ((c.tc : Thread nD τ).loc main_arg7)) (m ((c.tc : Thread nD τ).loc main_arg8)) i) ((m ((c.tc : Thread nD τ).loc main_arg9)) i))
      (fun _ => total fun i : S500000.Idx => tv (r2of bcast_S_S500000 bcast_S500000_S500000x1_0 gather_S100000x3_S500000x1_S500000x3_1_0_n_n_0_1_13
          reducesTo_S500000x3_S500000_d1 h_S_ (m ((c.tc : Thread nD τ).loc main_arg0)) (m ((c.tc : Thread nD τ).loc main_arg7)) (m ((c.tc : Thread nD τ).loc main_arg8)) i) ((m ((c.tc : Thread nD τ).loc main_arg10)) i) ((m ((c.tc : Thread nD τ).loc main_arg11)) i) ((m ((c.tc : Thread nD τ).loc main_arg12)) i)) := by
  -- the four totals, each at the squared distances of its pass
  have h0 := total_c reducesTo_S8000000_S_d0 h_S_ bcast_S_S8000000 (r2of bcast_S_S8000000 bcast_S8000000_S8000000x1_0 gather_S100000x3_S8000000x1_S8000000x3_1_0_n_n_0_1_13
          reducesTo_S8000000x3_S8000000_d1 h_S_ (m ((c.tc : Thread nD τ).loc main_arg0)) (m ((c.tc : Thread nD τ).loc main_arg1)) (m ((c.tc : Thread nD τ).loc main_arg2))) (m ((c.tc : Thread nD τ).loc main_arg3))
  have h1 := total_v reducesTo_S8000000_S_d0 h_S_ bcast_S_S8000000 (r2of bcast_S_S8000000 bcast_S8000000_S8000000x1_0 gather_S100000x3_S8000000x1_S8000000x3_1_0_n_n_0_1_13
          reducesTo_S8000000x3_S8000000_d1 h_S_ (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5)) (m ((c.tc : Thread nD τ).loc main_arg6))
  have h2 := total_c reducesTo_S500000_S_d0 h_S_ bcast_S_S500000 (r2of bcast_S_S500000 bcast_S500000_S500000x1_0 gather_S100000x3_S500000x1_S500000x3_1_0_n_n_0_1_13
          reducesTo_S500000x3_S500000_d1 h_S_ (m ((c.tc : Thread nD τ).loc main_arg0)) (m ((c.tc : Thread nD τ).loc main_arg7)) (m ((c.tc : Thread nD τ).loc main_arg8))) (m ((c.tc : Thread nD τ).loc main_arg9))
  have h3 := total_v reducesTo_S500000_S_d0 h_S_ bcast_S_S500000 (r2of bcast_S_S500000 bcast_S500000_S500000x1_0 gather_S100000x3_S500000x1_S500000x3_1_0_n_n_0_1_13
          reducesTo_S500000x3_S500000_d1 h_S_ (m ((c.tc : Thread nD τ).loc main_arg0)) (m ((c.tc : Thread nD τ).loc main_arg7)) (m ((c.tc : Thread nD τ).loc main_arg8))) (m ((c.tc : Thread nD τ).loc main_arg10)) (m ((c.tc : Thread nD τ).loc main_arg11)) (m ((c.tc : Thread nD τ).loc main_arg12))
  -- the reference's term is the packing of the four host sums; the squared distances unfold to its lookups
  exact pack_congr bcast_S_S1 concatenates_S1_S1_S1_S1_S4_d0 h0 h1 h2 h3

end Cert.ReferenceIdeal.RefValue

end
-- ==== Proof.PreRange.lean ====
/-
  The precondition's index ranges: when the printed precondition holds of the thirteen input arrays, each of the four
  index lists has every entry, read as a signed word, in 0 ≤ · < 100000 — the conjuncts "0 ≤ p" and "p < 100000" of the
  precondition, each a reduction by "and" over the list of a word comparison.
-/
import proofs.«406529_j45191645888923_3_alg».proof.Pre_finite_inputs
import proofs.«406529_j45191645888923_3_alg».proof.Proof.SpecR2
import Idealize.ShloMosaic.Lib.StableHlo.Predicate
import Idealize.ShloMosaic.Lib.ReduceAll

noncomputable section

namespace Cert.Pre_finite_inputs.Range

open Cert.Pre_finite_inputs
open Idealize.ShloMosaic Idealize.ShloMosaic.ValueIdx
open Cert.PairEnergy (InRange)

variable [Cert.Pre_finite_inputs.Facts]

/-- The scalar shape has one index. -/
instance subsingleton_scalar_idx : Subsingleton S_.Idx := ⟨fun a b => funext fun d => d.elim0⟩

/-- A pointwise "and" of two bit arrays that is 1 at an index has both bits 1 there. -/
theorem and_at {s : Shape} (x y : IVec s 1) (i : s.Idx) (h : andi x y i = 1#1) : x i = 1#1 ∧ y i = 1#1 :=
  IntOp.andi_eq_one.1 h

/-- The bit "0 ≤ a ∧ a < 100000" (signed comparisons against the two broadcast constants) being 1 at an index says the
    entry there, read as a signed word, lies in 0 ≤ · < 100000. -/
theorem range_of_bits {S : Shape} (hb : S_.BroadcastsInDim S (![] : Fin 0 → Fin S.rank)) (a : IVec S 32) (i : S.Idx)
    (h : andi (cmpi .sge a (broadcastInDim S ![] hb (constantI S_ 32 0#32)))
      (cmpi .slt a (broadcastInDim S ![] hb (constantI S_ 32 100000#32))) i = 1#1) :
    0 ≤ (a i).toInt ∧ (a i).toInt < 100000 := by
  obtain ⟨h1, h2⟩ := and_at _ _ i h
  have h1' : IntOp.cmpi .sge (a i) 0#32 = 1#1 := h1
  have h2' : IntOp.cmpi .slt (a i) 100000#32 = 1#1 := h2
  rw [IntOp.cmpi_sge] at h1'
  rw [IntOp.cmpi_slt] at h2'
  have e0 : (0#32 : BitVec 32).toInt = 0 := by decide
  have e1 : (100000#32 : BitVec 32).toInt = 100000 := by decide
  rw [e0] at h1'
  rw [e1] at h2'
  exact ⟨h1', h2'⟩

/-- The printed precondition at all ones gives the four index ranges. -/
theorem inRange_of_pre {F : FTy → Type} [FloatOps F]
    (a0 : FVec F S100000x3 .f32) (a1 a2 : IVec S8000000 32) (a3 a4 a5 a6 : FVec F S8000000 .f32)
    (a7 a8 : IVec S500000 32) (a9 a10 a11 a12 : FVec F S500000 .f32)
    (h : fn (F := F) a0 a1 a2 a3 a4 a5 a6 a7 a8 a9 a10 a11 a12 = fun _ => 1#1) :
    InRange a1 ∧ InRange a2 ∧ InRange a7 ∧ InRange a8 := by
  -- The one scalar bit is an "and" of thirteen bits; the last four are the range tests of a1, a2, a7, a8, in that order.
  have h0 := congrFun h ValueIdx.ix0
  dsimp only [fn, fn_part1, fn_part2, fn_part3, fn_part4] at h0
  obtain ⟨h64, h70⟩ := and_at _ _ _ h0
  obtain ⟨h57, h63⟩ := and_at _ _ _ h64
  obtain ⟨h50, h56⟩ := and_at _ _ _ h57
  obtain ⟨-, h49⟩ := and_at _ _ _ h50
  -- Each kept bit is an "and"-reduction over the whole list: every entry's bit is 1.
  refine ⟨fun i => ?_, fun i => ?_, fun i => ?_, fun i => ?_⟩
  · exact range_of_bits _ a1 i (Host.reduce_andi_all _ _ _ _ _ h49 i)
  · exact range_of_bits _ a2 i (Host.reduce_andi_all _ _ _ _ _ h56 i)
  · exact range_of_bits _ a7 i (Host.reduce_andi_all _ _ _ _ _ h63 i)
  · exact range_of_bits _ a8 i (Host.reduce_andi_all _ _ _ _ _ h70 i)

end Cert.Pre_finite_inputs.Range

end
-- ==== Proof.lean ====
/-
  The certificate of the pair-energy kernel: Coulomb and van der Waals totals of two pair lists.

  The kernel splits each pair list into a prefix tiled [2, 15·R, 128] that a Pallas call reduces block by block (two
  halves, fifteen blocks of R rows each, running column sums kept in a [2, 128] buffer per half) and a tail the host
  reduces directly; the reference sums every pair's term in one reduction.  Per pair both compute the same two terms
  from the squared distance of the two gathered coordinate rows.  On the extended reals a sum does not depend on how it
  is grouped, so the totals agree — provided the pair indices lie in the coordinate table's range (the precondition's
  added conjuncts): out of range the kernel's lookup fills with a not-a-number pattern where the reference's clamps.

  frame_Kernel, frame_KernelIdeal: the program's run (host stretches and the two calls as segments), at each instance.
  frame_ReferenceIdeal: the reference's run.  preserves: the idealization rewrote nothing.  algebraic: the two results
  are the same four totals.
-/
import proofs.«406529_j45191645888923_3_alg».proof.Defs
import proofs.«406529_j45191645888923_3_alg».proof.Proof.Gen.Kernel
import proofs.«406529_j45191645888923_3_alg».proof.Proof.Gen.KernelIdeal
import proofs.«406529_j45191645888923_3_alg».proof.Proof.Gen.ReferenceIdeal
import proofs.«406529_j45191645888923_3_alg».proof.Proof.Gen.Pre_finite_inputs
import proofs.«406529_j45191645888923_3_alg».proof.Proof.BitsRun
import proofs.«406529_j45191645888923_3_alg».proof.Proof.IdealRun
import proofs.«406529_j45191645888923_3_alg».proof.Proof.KernelValue
import proofs.«406529_j45191645888923_3_alg».proof.Proof.RefSide
import proofs.«406529_j45191645888923_3_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Energy.frame m ρ

theorem frame_ki : Cert.frame_KernelIdeal := fun m ρ _ => Cert.KernelIdeal.Energy.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the four totals of the pair terms: the kernel's by its run read back through the calls'
    output arrays, the reference's by its run; the precondition puts every pair index in range. -/
theorem algebraic : Cert.algebraic_KernelIdeal_ReferenceIdeal := by
  intro m ρ m' ρ' hpre hagree
  refine ⟨fun c => Cert.KernelIdeal.Gen.V10 m (Cert.KernelIdeal.Energy.outs m) c Cert.KernelIdeal.main_v94, ?_, ?_⟩
  · exact (θ_run (Cert.KernelIdeal.defs (F := Ideal)) _ _).mono (fun r h c =>
      ⟨h c _ (Cert.KernelIdeal.Energy.mem_uc Cert.KernelIdeal.main_v94 (by decide)),
       (h c _ (Cert.KernelIdeal.Energy.mem_uc Cert.KernelIdeal.main_arg0 (by decide))).trans (Cert.KernelIdeal.Gen.V10_main_arg0 m (Cert.KernelIdeal.Energy.outs m) c),
       (h c _ (Cert.KernelIdeal.Energy.mem_uc Cert.KernelIdeal.main_arg1 (by decide))).trans (Cert.KernelIdeal.Gen.V10_main_arg1 m (Cert.KernelIdeal.Energy.outs m) c),
       (h c _ (Cert.KernelIdeal.Energy.mem_uc Cert.KernelIdeal.main_arg2 (by decide))).trans (Cert.KernelIdeal.Gen.V10_main_arg2 m (Cert.KernelIdeal.Energy.outs m) c),
       (h c _ (Cert.KernelIdeal.Energy.mem_uc Cert.KernelIdeal.main_arg3 (by decide))).trans (Cert.KernelIdeal.Gen.V10_main_arg3 m (Cert.KernelIdeal.Energy.outs m) c),
       (h c _ (Cert.KernelIdeal.Energy.mem_uc Cert.KernelIdeal.main_arg4 (by decide))).trans (Cert.KernelIdeal.Gen.V10_main_arg4 m (Cert.KernelIdeal.Energy.outs m) c),
       (h c _ (Cert.KernelIdeal.Energy.mem_uc Cert.KernelIdeal.main_arg5 (by decide))).trans (Cert.KernelIdeal.Gen.V10_main_arg5 m (Cert.KernelIdeal.Energy.outs m) c),
       (h c _ (Cert.KernelIdeal.Energy.mem_uc Cert.KernelIdeal.main_arg6 (by decide))).trans (Cert.KernelIdeal.Gen.V10_main_arg6 m (Cert.KernelIdeal.Energy.outs m) c),
       (h c _ (Cert.KernelIdeal.Energy.mem_uc Cert.KernelIdeal.main_arg7 (by decide))).trans (Cert.KernelIdeal.Gen.V10_main_arg7 m (Cert.KernelIdeal.Energy.outs m) c),
       (h c _ (Cert.KernelIdeal.Energy.mem_uc Cert.KernelIdeal.main_arg8 (by decide))).trans (Cert.KernelIdeal.Gen.V10_main_arg8 m (Cert.KernelIdeal.Energy.outs m) c),
       (h c _ (Cert.KernelIdeal.Energy.mem_uc Cert.KernelIdeal.main_arg9 (by decide))).trans (Cert.KernelIdeal.Gen.V10_main_arg9 m (Cert.KernelIdeal.Energy.outs m) c),
       (h c _ (Cert.KernelIdeal.Energy.mem_uc Cert.KernelIdeal.main_arg10 (by decide))).trans (Cert.KernelIdeal.Gen.V10_main_arg10 m (Cert.KernelIdeal.Energy.outs m) c),
       (h c _ (Cert.KernelIdeal.Energy.mem_uc Cert.KernelIdeal.main_arg11 (by decide))).trans (Cert.KernelIdeal.Gen.V10_main_arg11 m (Cert.KernelIdeal.Energy.outs m) c),
       (h c _ (Cert.KernelIdeal.Energy.mem_uc Cert.KernelIdeal.main_arg12 (by decide))).trans (Cert.KernelIdeal.Gen.V10_main_arg12 m (Cert.KernelIdeal.Energy.outs m) c)⟩)
      (Cert.KernelIdeal.Energy.run_all m ρ)
  · refine (θ_run (Cert.ReferenceIdeal.defs (F := Ideal)) _ _).mono (fun r h c => ⟨(h c).1.trans ?_, (h c).2⟩)
      (Cert.ReferenceIdeal.Value.run (F := Ideal) m' ρ')
    obtain ⟨hi1, hi2, hi7, hi8⟩ := Cert.Pre_finite_inputs.Range.inRange_of_pre (F := Ideal) _ _ _ _ _ _ _ _ _ _ _ _ _ (hpre c)
    obtain ⟨e0, e1, e2, e3, e4, e5, e6, e7, e8, e9, e10, e11, e12⟩ := hagree c
    show Cert.ReferenceIdeal.Value.res_main_v70 (F := Ideal) m' c
      = Cert.KernelIdeal.Gen.V10 m (Cert.KernelIdeal.Energy.outs m) c Cert.KernelIdeal.main_v94
    rw [Cert.ReferenceIdeal.RefValue.res_eq m' c, Cert.KernelIdeal.Energy.kernel_value m c hi1 hi2 hi7 hi8,
      e0, e1, e2, e3, e4, e5, e6, e7, e8, e9, e10, e11, e12]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
